-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x56x56 : Shape := ⟨4, ![16, 64, 56, 56]⟩
abbrev S16x4 : Shape := ⟨2, ![16, 4]⟩
abbrev S16x4x8 : Shape := ⟨3, ![16, 4, 8]⟩
abbrev S16x16x64 : Shape := ⟨3, ![16, 16, 64]⟩
abbrev S64 : Shape := ⟨1, ![64]⟩
abbrev S_ : Shape := ⟨0, ![]⟩

class Facts : Prop where
  bcast_S_S16x64x56x56 : S_.BroadcastsInDim S16x64x56x56 (![] : Fin 0 → Fin S16x64x56x56.rank)
  reducesTo_S16x64x56x56_S_d0_1_2_3 : S16x64x56x56.ReducesTo [0, 1, 2, 3] S_
  h_S_ : 0 < S_.numel
  bcast_S_S16x4x8 : S_.BroadcastsInDim S16x4x8 (![] : Fin 0 → Fin S16x4x8.rank)
  reducesTo_S16x4x8_S_d0_1_2 : S16x4x8.ReducesTo [0, 1, 2] S_
  bcast_S_S16x16x64 : S_.BroadcastsInDim S16x16x64 (![] : Fin 0 → Fin S16x16x64.rank)
  reducesTo_S16x16x64_S_d0_1_2 : S16x16x64.ReducesTo [0, 1, 2] S_
  bcast_S_S64 : S_.BroadcastsInDim S64 (![] : Fin 0 → Fin S64.rank)
  reducesTo_S64_S_d0 : S64.ReducesTo [0] S_
  bcast_S_S16x4 : S_.BroadcastsInDim S16x4 (![] : Fin 0 → Fin S16x4.rank)
  reducesTo_S16x4_S_d0_1 : S16x4.ReducesTo [0, 1] S_

variable [Facts]

def fn_part1 {F : FTy → Type} [FloatOps F] (main_arg1 : IVec S16x4 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S16x4 32 := broadcastInDim S16x4 ![] bcast_S_S16x4 main_c_6
  let main_v20 : IVec S16x4 1 := cmpi .sge main_arg1 main_v19
  let main_c_7 : IVec S_ 32 := constantI S_ 32 36#32
  let main_v21 : IVec S16x4 32 := broadcastInDim S16x4 ![] bcast_S_S16x4 main_c_7
  let main_v22 : IVec S16x4 1 := cmpi .slt main_arg1 main_v21
  let main_v23 : IVec S16x4 1 := andi main_v20 main_v22
  let main_c_8 : IVec S_ 1 := constantI S_ 1 1#1
  let main_v24 : IVec S_ 1 := (fun x v => Host.reduce IntOp.andi x v reducesTo_S16x4_S_d0_1 h_S_) main_v23 main_c_8
  let main_v25 : IVec S_ 1 := andi main_v18 main_v24
  main_v25

def fn {F : FTy → Type} [FloatOps F] (main_arg0 : FVec F S16x64x56x56 .f32) (main_arg1 : IVec S16x4 32) (main_arg2 : FVec F S16x4x8 .f32) (main_arg3 : FVec F S16x16x64 .f32) (main_arg4 : FVec F S64 .f32) : IVec S_ 1 :=
  let main_v0 : FVec F S16x64x56x56 .f32 := Host.absf main_arg0
  let main_cst : FVec F S_ .f32 := constant S_ .f32 0x7F800000#32
  let main_v1 : FVec F S16x64x56x56 .f32 := broadcastInDim S16x64x56x56 ![] bcast_S_S16x64x56x56 main_cst
  let main_v2 : IVec S16x64x56x56 1 := cmpf .olt main_v0 main_v1
  let main_c : IVec S_ 1 := constantI S_ 1 1#1
  let main_v3 : IVec S_ 1 := (fun x v => Host.reduce IntOp.andi x v reducesTo_S16x64x56x56_S_d0_1_2_3 h_S_) main_v2 main_c
  let main_v4 : FVec F S16x4x8 .f32 := Host.absf main_arg2
  let main_cst_0 : FVec F S_ .f32 := constant S_ .f32 0x7F800000#32
  let main_v5 : FVec F S16x4x8 .f32 := broadcastInDim S16x4x8 ![] bcast_S_S16x4x8 main_cst_0
  let main_v6 : IVec S16x4x8 1 := cmpf .olt main_v4 main_v5
  let main_c_1 : IVec S_ 1 := constantI S_ 1 1#1
  let main_v7 : IVec S_ 1 := (fun x v => Host.reduce IntOp.andi x v reducesTo_S16x4x8_S_d0_1_2 h_S_) main_v6 main_c_1
  let main_v8 : IVec S_ 1 := andi main_v3 main_v7
  let main_v9 : FVec F S16x16x64 .f32 := Host.absf main_arg3
  let main_cst_2 : FVec F S_ .f32 := constant S_ .f32 0x7F800000#32
  let main_v10 : FVec F S16x16x64 .f32 := broadcastInDim S16x16x64 ![] bcast_S_S16x16x64 main_cst_2
  let main_v11 : IVec S16x16x64 1 := cmpf .olt main_v9 main_v10
  let main_c_3 : IVec S_ 1 := constantI S_ 1 1#1
  let main_v12 : IVec S_ 1 := (fun x v => Host.reduce IntOp.andi x v reducesTo_S16x16x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_v13 main_v16
-- ==== Kernel.lean ====
abbrev S16x64x56x56 : Shape := ⟨4, ![16, 64, 56, 56]⟩
abbrev S16x4 : Shape := ⟨2, ![16, 4]⟩
abbrev S16x4x8 : Shape := ⟨3, ![16, 4, 8]⟩
abbrev S16x16x64 : Shape := ⟨3, ![16, 16, 64]⟩
abbrev S64 : Shape := ⟨1, ![64]⟩
abbrev S_ : Shape := ⟨0, ![]⟩
abbrev S16x64x58x58 : Shape := ⟨4, ![16, 64, 58, 58]⟩
abbrev S36 : Shape := ⟨1, ![36]⟩
abbrev S4x16 : Shape := ⟨2, ![4, 16]⟩
abbrev S4x16x1 : Shape := ⟨3, ![4, 16, 1]⟩
abbrev S1x1x36 : Shape := ⟨3, ![1, 1, 36]⟩
abbrev S4x16x36 : Shape := ⟨3, ![4, 16, 36]⟩
abbrev S256x64 : Shape := ⟨2, ![256, 64]⟩
abbrev S1x64 : Shape := ⟨2, ![1, 64]⟩
abbrev S1x64x58x58 : Shape := ⟨4, ![1, 64, 58, 58]⟩
abbrev S1x64x56x56 : Shape := ⟨4, ![1, 64, 56, 56]⟩
abbrev S64x58x58 : Shape := ⟨3, ![64, 58, 58]⟩
abbrev S58x58x64 : Shape := ⟨3, ![58, 58, 64]⟩
abbrev S56x56x64 : Shape := ⟨3, ![56, 56, 64]⟩
abbrev S3136x64 : Shape := ⟨2, ![3136, 64]⟩
abbrev S3136x64x1 : Shape := ⟨3, ![3136, 64, 1]⟩
abbrev S3136x64x9 : Shape := ⟨3, ![3136, 64, 9]⟩
abbrev S3136x576 : Shape := ⟨2, ![3136, 576]⟩
abbrev S3136x16x36 : Shape := ⟨3, ![3136, 16, 36]⟩
abbrev S3136x16 : Shape := ⟨2, ![3136, 16]⟩
abbrev S1x16x36 : Shape := ⟨3, ![1, 16, 36]⟩
abbrev S16x36 : Shape := ⟨2, ![16, 36]⟩
abbrev S3136x16x8 : Shape := ⟨3, ![3136, 16, 8]⟩
abbrev S3136x16x1 : Shape := ⟨3, ![3136, 16, 1]⟩
abbrev S16x1x8 : Shape := ⟨3, ![16, 1, 8]⟩
abbrev S16x8 : Shape := ⟨2, ![16, 8]⟩
abbrev S1x16x8 : Shape := ⟨3, ![1, 16, 8]⟩
abbrev S3136x16x16 : Shape := ⟨3, ![3136, 16, 16]⟩
abbrev S3136x256 : Shape := ⟨2, ![3136, 256]⟩
abbrev S64x56x56 : Shape := ⟨3, ![64, 56, 56]⟩

abbrev nBuf : Space → Nat
  | .hbm => 20
  | .vmem => 8
  | .smem => 0
  | _ => 0

abbrev bufTy : (tb : Table) → Fin (tcTables nBuf tb) → BufTy
  | .hbm, ⟨0, _⟩ => ⟨S16x64x56x56, .f32⟩
  | .hbm, ⟨1, _⟩ => ⟨S16x4, .i32⟩
  | .hbm, ⟨2, _⟩ => ⟨S16x4x8, .f32⟩
  | .hbm, ⟨3, _⟩ => ⟨S16x16x64, .f32⟩
  | .hbm, ⟨4, _⟩ => ⟨S64, .f32⟩
  | .hbm, ⟨5, _⟩ => ⟨S_, .i32⟩
  | .hbm, ⟨6, _⟩ => ⟨S_, .f32⟩
  | .hbm, ⟨7, _⟩ => ⟨S16x64x58x58, .f32⟩
  | .hbm, ⟨8, _⟩ => ⟨S36, .i32⟩
  | .hbm, ⟨9, _⟩ => ⟨S4x16, .i32⟩
  | .hbm, ⟨10, _⟩ => ⟨S4x16x1, .i32⟩
  | .hbm, ⟨11, _⟩ => ⟨S1x1x36, .i32⟩
  | .hbm, ⟨12, _⟩ => ⟨S4x16x36, .i32⟩
  | .hbm, ⟨13, _⟩ => ⟨S4x16x36, .i32⟩
  | .hbm, ⟨14, _⟩ => ⟨S4x16x36, .i1⟩
  | .hbm, ⟨15, _⟩ => ⟨S4x16x36, .f32⟩
  | .hbm, ⟨16, _⟩ => ⟨S256x64, .f32⟩
  | .hbm, ⟨17, _⟩ => ⟨S256x64, .bf16⟩
  | .hbm, ⟨18, _⟩ => ⟨S1x64, .f32⟩
  | .hbm, ⟨19, _⟩ => ⟨S16x64x56x56, .f32⟩
  | .local _ .vmem, ⟨0, _⟩ => ⟨S1x64x58x58, .f32⟩
  | .local _ .vmem, ⟨1, _⟩ => ⟨S1x64x58x58, .f32⟩
  | .local _ .vmem, ⟨2, _⟩ => ⟨S4x16x36, .f32⟩
  | .local _ .vmem, ⟨3, _⟩ => ⟨S16x4x8, .f32⟩
  | .local _ .vmem, ⟨4, _⟩ => ⟨S256x64, .bf16⟩
  | .local _ .vmem, ⟨5, _⟩ => ⟨S1x64, .f32⟩
  | .local _ .vmem, ⟨6, _⟩ => ⟨S1x64x56x56, .f32⟩
  | .local _ .vmem, ⟨7, _⟩ => ⟨S1x64x56x56, .f32⟩
  | _, _ => ⟨S16x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x58x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x16x36 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x56x56 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S16x64x56x56_S16x64x58x58_000_000_110_110 : S16x64x56x56.Pads (![0, 0, 1, 1] : Fin 4 → Nat) ![0, 0, 1, 1] ![0, 0, 0, 0] S16x64x58x58
  h_S_ : 0 < S_.numel
  transposes_S16x4_S4x16_1_0 : S16x4.Transposes [1, 0] S4x16
  bcast_S4x16_S4x16x1_0_1 : S4x16.BroadcastsInDim S4x16x1 (![0, 1] : Fin 2 → Fin S4x16x1.rank)
  bcast_S36_S1x1x36_2 : S36.BroadcastsInDim S1x1x36 (![2] : Fin 1 → Fin S1x1x36.rank)
  bcast_S4x16x1_S4x16x36_0_1_2 : S4x16x1.BroadcastsInDim S4x16x36 (![0, 1, 2] : Fin 3 → Fin S4x16x36.rank)
  bcast_S1x1x36_S4x16x36_0_1_2 : S1x1x36.BroadcastsInDim S4x16x36 (![0, 1, 2] : Fin 3 → Fin S4x16x36.rank)
  shapeCasts_S16x16x64_S256x64 : S16x16x64.ShapeCasts S256x64
  bitsLt_bf16_f32 : FTy.bits .bf16 < FTy.bits .f32
  shapeCasts_S64_S1x64 : S64.ShapeCasts S1x64
  inb_S1x64x58x58_S1x64x58x58_0_0_0_0 : ∀ a, (![0, 0, 0, 0] : Fin 4 → Nat) a + S1x64x58x58.size a ≤ S1x64x58x58.size a
  h_S1x64x58x58 : 0 < S1x64x58x58.numel
  shapeCasts_S1x64x58x58_S64x58x58 : S1x64x58x58.ShapeCasts S64x58x58
  transposes_S64x58x58_p1_2_0_S58x58x64 : S64x58x58.Transposes [1, 2, 0] S58x58x64
  slices_S58x58x64_o0_0_0_S56x56x64 : S58x58x64.Slices ![0, 0, 0] S56x56x64
  shapeCasts_S56x56x64_S3136x64 : S56x56x64.ShapeCasts S3136x64
  slices_S58x58x64_o0_1_0_S56x56x64 : S58x58x64.Slices ![0, 1, 0] S56x56x64
  slices_S58x58x64_o0_2_0_S56x56x64 : S58x58x64.Slices ![0, 2, 0] S56x56x64
  slices_S58x58x64_o1_0_0_S56x56x64 : S58x58x64.Slices ![1, 0, 0] S56x56x64
  slices_S58x58x64_o1_1_0_S56x56x64 : S58x58x64.Slices ![1, 1, 0] S56x56x64
  slices_S58x58x64_o1_2_0_S56x56x64 : S58x58x64.Slices ![1, 2, 0] S56x56x64
  slices_S58x58x64_o2_0_0_S56x56x64 : S58x58x64.Slices ![2, 0, 0] S56x56x64
  slices_S58x58x64_o2_1_0_S56x56x64 : S58x58x64.Slices ![2, 1, 0] S56x56x64
  slices_S58x58x64_o2_2_0_S56x56x64 : S58x58x64.Slices ![2, 2, 0] S56x56x64
  shapeCasts_S3136x64_S3136x64x1 : S3136x64.ShapeCasts S3136x64x1
  concatenates_S3136x64x1_S3136x64x1_S3136x64x1_S3136x64x1_S3136x64x1_S3136x64x1_S3136x64x1_S3136x64x1_S3136x64x1_S3136x64x9_d2 : Shape.Concatenates [S3136x64x1, S3136x64x1, S3136x64x1, S3136x64x1, S3136x64x1, S3136x64x1, S3136x64x1, S3136x64x1, S3136x64x1] S3136x64x9 2
  shapeCasts_S3136x64x9_S3136x576 : S3136x64x9.ShapeCasts S3136x576
  shapeCasts_S3136x576_S3136x16x36 : S3136x576.ShapeCasts S3136x16x36
  inb_S4x16x36_S4x16x36_0_0_0 : ∀ a, (![0, 0, 0] : Fin 3 → Nat) a + S4x16x36.size a ≤ S4x16x36.size a
  h_S4x16x36 : 0 < S4x16x36.numel
  shapeCasts_S4x16x36_S4x16x36 : S4x16x36.ShapeCasts S4x16x36
  inb_S16x4x8_S16x4x8_0_0_0 : ∀ a, (![0, 0, 0] : Fin 3 → Nat) a + S16x4x8.size a ≤ S16x4x8.size a
  h_S16x4x8 : 0 < S16x4x8.numel
  slices_S4x16x36_o0_0_0_S1x16x36 : S4x16x36.Slices ![0, 0, 0] S1x16x36
  shapeCasts_S1x16x36_S16x36 : S1x16x36.ShapeCasts S16x36
  shapeCasts_S16x36_S1x16x36 : S16x36.ShapeCasts S1x16x36
  broadcasts_S1x16x36_S3136x16x36 : S1x16x36.Broadcasts S3136x16x36
  reduces_S3136x16x36_S3136x16 : S3136x16x36.Reduces [2] S3136x16
  iota_S3136x16x8_d2_w32 : S3136x16x8.Iotas .tc 32 [2]
  shapeCasts_S3136x16_S3136x16x1 : S3136x16.ShapeCasts S3136x16x1
  broadcasts_S3136x16x1_S3136x16x8 : S3136x16x1.Broadcasts S3136x16x8
  natLt_1_32 : 1 < 32
  slices_S16x4x8_o0_0_0_S16x1x8 : S16x4x8.Slices ![0, 0, 0] S16x1x8
  shapeCasts_S16x1x8_S16x8 : S16x1x8.ShapeCasts S16x8
  shapeCasts_S16x8_S1x16x8 : S16x8.ShapeCasts S1x16x8
  broadcasts_S1x16x8_S3136x16x8 : S1x16x8.Broadcasts S3136x16x8
  reduces_S3136x16x8_S3136x16 : S3136x16x8.Reduces [2] S3136x16
  slices_S4x16x36_o1_0_0_S1x16x36 : S4x16x36.Slices ![1, 0, 0] S1x16x36
  slices_S16x4x8_o0_1_0_S16x1x8 : S16x4x8.Slices ![0, 1, 0] S16x1x8
  slices_S4x16x36_o2_0_0_S1x16x36 : S4x16x36.Slices ![2, 0, 0] S1x16x36
  slices_S16x4x8_o0_2_0_S16x1x8 : S16x4x8.Slices ![0, 2, 0] S16x1x8
  slices_S4x16x36_o3_0_0_S1x16x36 : S4x16x36.Slices ![3, 0, 0] S1x16x36
  slices_S16x4x8_o0_3_0_S16x1x8 : S16x4x8.Slices ![0, 3, 0] S16x1x8
  iota_S3136x16x16_d2_w32 : S3136x16x16.Iotas .tc 32 [2]
  broadcasts_S3136x16x1_S3136x16x16 : S3136x16x1.Broadcasts S3136x16x16
  shapeCasts_S3136x16x16_S3136x256 : S3136x16x16.ShapeCasts S3136x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3136x64 : S1x64.Broadcasts S3136x64
  shapeCasts_S3136x64_S56x56x64 : S3136x64.ShapeCasts S56x56x64
  transposes_S56x56x64_p2_0_1_S64x56x56 : S56x56x64.Transposes [2, 0, 1] S64x56x56
  inb_S1x64x56x56_S1x64x56x56_0_0_0_0 : ∀ a, (![0, 0, 0, 0] : Fin 4 → Nat) a + S1x64x56x56.size a ≤ S1x64x56x56.size a
  h_S1x64x56x56 : 0 < S1x64x56x56.numel
  shapeCasts_S1x64x56x56_S64x56x56 : S1x64x56x56.ShapeCasts S64x56x56
  shapeCasts_S64x56x56_S1x64x56x56 : S64x56x56.ShapeCasts S1x64x56x56
  dot_S3136x256_S256x64_S3136x64_1_0_0_1_n_n_wf : DotDims.WF S3136x256 S256x64 S3136x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x58x58.size a ≤ S16x64x58x58.size a
  hwx0_0 : ∀ i : grid0.Coords, EltTy.bits .f32 = 32 ∨ (Rect.block (s := S16x64x58x58) S1x64x58x58.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x16x36.size a ≤ S4x16x36.size a
  hwx0_1 : ∀ i : grid0.Coords, EltTy.bits .f32 = 32 ∨ (Rect.block (s := S4x16x36) S4x16x36.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4x8.size a ≤ S16x4x8.size a
  hwx0_2 : ∀ i : grid0.Coords, EltTy.bits .f32 = 32 ∨ (Rect.block (s := S16x4x8) S16x4x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x56x56.size a ≤ S16x64x56x56.size a
  hwx0_5 : ∀ i : grid0.Coords, EltTy.bits .f32 = 32 ∨ (Rect.block (s := S16x64x56x56) S1x64x56x56.size (cc0_transform_5 i) (hinb0_5 i)).WholeWords (EltTy.packing .f32)

variable [Facts₀]

def dot_S3136x256_S256x64_S3136x64_1_0_0_1_n_n : DotDims S3136x256 S256x64 S3136x64 where
  lhsContracting := [1]
  rhsContracting := [0]
  lhsNonContracting := [0]
  rhsNonContracting := [1]
  lhsBatch := []
  rhsBatch := []
  wf := dot_S3136x256_S256x64_S3136x64_1_0_0_1_n_n_wf

abbrev win0_0 : Pipeline.Window sig grid0 :=
  Pipeline.Window.ofSpec (Memref.whole main_v0) S1x64x58x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4x16x36.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x4x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x64x56x56.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x56x56 : Shape := ⟨4, ![16, 64, 56, 56]⟩
abbrev S16x4 : Shape := ⟨2, ![16, 4]⟩
abbrev S16x4x8 : Shape := ⟨3, ![16, 4, 8]⟩
abbrev S16x16x64 : Shape := ⟨3, ![16, 16, 64]⟩
abbrev S64 : Shape := ⟨1, ![64]⟩
abbrev S_ : Shape := ⟨0, ![]⟩
abbrev S16x64x58x58 : Shape := ⟨4, ![16, 64, 58, 58]⟩
abbrev S16x64x1x56x56 : Shape := ⟨5, ![16, 64, 1, 56, 56]⟩
abbrev S16x64x9x56x56 : Shape := ⟨5, ![16, 64, 9, 56, 56]⟩
abbrev S16x576x56x56 : Shape := ⟨4, ![16, 576, 56, 56]⟩
abbrev S16x576x3136 : Shape := ⟨3, ![16, 576, 3136]⟩
abbrev S16x3136x576 : Shape := ⟨3, ![16, 3136, 576]⟩
abbrev S50176x576 : Shape := ⟨2, ![50176, 576]⟩
abbrev S50176x16x36 : Shape := ⟨3, ![50176, 16, 36]⟩
abbrev S16 : Shape := ⟨1, ![16]⟩
abbrev S50176x16 : Shape := ⟨2, ![50176, 16]⟩
abbrev S16x1 : Shape := ⟨2, ![16, 1]⟩
abbrev S16x2 : Shape := ⟨2, ![16, 2]⟩
abbrev S1x16 : Shape := ⟨2, ![1, 16]⟩
abbrev S50176x16x1 : Shape := ⟨3, ![50176, 16, 1]⟩
abbrev S50176x16x3 : Shape := ⟨3, ![50176, 16, 3]⟩
abbrev S50176x16x2 : Shape := ⟨3, ![50176, 16, 2]⟩
abbrev S50176x16x64 : Shape := ⟨3, ![50176, 16, 64]⟩
abbrev S50176x64 : Shape := ⟨2, ![50176, 64]⟩
abbrev S1x64 : Shape := ⟨2, ![1, 64]⟩
abbrev S16x56x56x64 : Shape := ⟨4, ![16, 56, 56, 64]⟩

abbrev nBuf : Space → Nat
  | .hbm => 262
  | .vmem => 0
  | .smem => 0
  | _ => 0

abbrev hbmTy0_0 (i : Nat) : BufTy := match i % 128 with
  | 0 => ⟨S16x64x56x56, .f32⟩
  | 1 => ⟨S16x4, .i32⟩
  | 2 => ⟨S16x4x8, .f32⟩
  | 3 => ⟨S16x16x64, .f32⟩
  | 4 => ⟨S64, .f32⟩
  | 5 => ⟨S_, .i32⟩
  | 6 => ⟨S_, .f32⟩
  | 7 => ⟨S16x64x58x58, .f32⟩
  | 8 => ⟨S16x64x56x56, .f32⟩
  | 9 => ⟨S16x64x56x56, .f32⟩
  | 10 => ⟨S16x64x56x56, .f32⟩
  | 11 => ⟨S16x64x56x56, .f32⟩
  | 12 => ⟨S16x64x56x56, .f32⟩
  | 13 => ⟨S16x64x56x56, .f32⟩
  | 14 => ⟨S16x64x56x56, .f32⟩
  | 15 => ⟨S16x64x56x56, .f32⟩
  | 16 => ⟨S16x64x56x56, .f32⟩
  | 17 => ⟨S16x64x1x56x56, .f32⟩
  | 18 => ⟨S16x64x1x56x56, .f32⟩
  | 19 => ⟨S16x64x1x56x56, .f32⟩
  | 20 => ⟨S16x64x1x56x56, .f32⟩
  | 21 => ⟨S16x64x1x56x56, .f32⟩
  | 22 => ⟨S16x64x1x56x56, .f32⟩
  | 23 => ⟨S16x64x1x56x56, .f32⟩
  | 24 => ⟨S16x64x1x56x56, .f32⟩
  | 25 => ⟨S16x64x1x56x56, .f32⟩
  | 26 => ⟨S16x64x9x56x56, .f32⟩
  | 27 => ⟨S16x576x56x56, .f32⟩
  | 28 => ⟨S16x576x3136, .f32⟩
  | 29 => ⟨S16x3136x576, .f32⟩
  | 30 => ⟨S50176x576, .f32⟩
  | 31 => ⟨S50176x16x36, .f32⟩
  | 32 => ⟨S16, .i32⟩
  | 33 => ⟨S_, .i32⟩
  | 34 => ⟨S50176x16, .i32⟩
  | 35 => ⟨S16x1, .i32⟩
  | 36 => ⟨S16, .i32⟩
  | 37 => ⟨S_, .i32⟩
  | 38 => ⟨S16, .i32⟩
  | 39 => ⟨S16, .i1⟩
  | 40 => ⟨S_, .i32⟩
  | 41 => ⟨S16, .i32⟩
  | 42 => ⟨S16, .i32⟩
  | 43 => ⟨S16, .i32⟩
  | 44 => ⟨S_, .i32⟩
  | 45 => ⟨S16, .i32⟩
  | 46 => ⟨S16, .i1⟩
  | 47 => ⟨S_, .i32⟩
  | 48 => ⟨S16, .i32⟩
  | 49 => ⟨S16, .i32⟩
  | 50 => ⟨S16, .i32⟩
  | 51 => ⟨S16x1, .i32⟩
  | 52 => ⟨S16x1, .i32⟩
  | 53 => ⟨S16x2, .i32⟩
  | 54 => ⟨S50176x16, .f32⟩
  | 55 => ⟨S1x16, .i32⟩
  | 56 => ⟨S_, .i32⟩
  | 57 => ⟨S1x16, .i32⟩
  | 58 => ⟨S1x16, .i1⟩
  | 59 => ⟨S_, .i32⟩
  | 60 => ⟨S1x16, .i32⟩
  | 61 => ⟨S1x16, .i32⟩
  | 62 => ⟨S1x16, .i32⟩
  | 63 => ⟨S_, .i32⟩
  | 64 => ⟨S50176x16, .i32⟩
  | 65 => ⟨S50176x16, .i1⟩
  | 66 => ⟨S_, .i32⟩
  | 67 => ⟨S50176x16, .i32⟩
  | 68 => ⟨S50176x16, .i32⟩
  | 69 => ⟨S50176x16, .i32⟩
  | 70 => ⟨S50176x16, .i32⟩
  | 71 => ⟨S_, .i32⟩
  | 72 => ⟨S50176x16, .i32⟩
  | 73 => ⟨S50176x16, .i32⟩
  | 74 => ⟨S50176x16x1, .i32⟩
  | 75 => ⟨S50176x16x1, .i32⟩
  | 76 => ⟨S50176x16x1, .i32⟩
  | 77 => ⟨S50176x16x3, .i32⟩
  | 78 => ⟨S50176x16, .f32⟩
  | 79 => ⟨S_, .i32⟩
  | 80 => ⟨S50176x16, .i32⟩
  | 81 => ⟨S50176x16, .i32⟩
  | 82 => ⟨S50176x16, .i1⟩
  | 83 => ⟨S50176x16, .i32⟩
  | 84 => ⟨S50176x16, .i32⟩
  | 85 => ⟨S16x1, .i32⟩
  | 86 => ⟨S16, .i32⟩
  | 87 => ⟨S_, .i32⟩
  | 88 => ⟨S16, .i32⟩
  | 89 => ⟨S16, .i1⟩
  | 90 => ⟨S_, .i32⟩
  | 91 => ⟨S16, .i32⟩
  | 92 => ⟨S16, .i32⟩
  | 93 => ⟨S16, .i32⟩
  | 94 => ⟨S_, .i32⟩
  | 95 => ⟨S16, .i32⟩
  | 96 => ⟨S16, .i1⟩
  | 97 => ⟨S_, .i32⟩
  | 98 => ⟨S16, .i32⟩
  | 99 => ⟨S16, .i32⟩
  | 100 => ⟨S16, .i32⟩
  | 101 => ⟨S16x1, .i32⟩
  | 102 => ⟨S16x1, .i32⟩
  | 103 => ⟨S16x2, .i32⟩
  | 104 => ⟨S50176x16, .f32⟩
  | 105 => ⟨S1x16, .i32⟩
  | 106 => ⟨S_, .i32⟩
  | 107 => ⟨S1x16, .i32⟩
  | 108 => ⟨S1x16, .i1⟩
  | 109 => ⟨S_, .i32⟩
  | 110 => ⟨S1x16, .i32⟩
  | 111 => ⟨S1x16, .i32⟩
  | 112 => ⟨S1x16, .i32⟩
  | 113 => ⟨S_, .i32⟩
  | 114 => ⟨S50176x16, .i32⟩
  | 115 => ⟨S50176x16, .i1⟩
  | 116 => ⟨S_, .i32⟩
  | 117 => ⟨S50176x16, .i32⟩
  | 118 => ⟨S50176x16, .i32⟩
  | 119 => ⟨S50176x16, .i32⟩
  | 120 => ⟨S50176x16, .i32⟩
  | 121 => ⟨S_, .i32⟩
  | 122 => ⟨S50176x16, .i32⟩
  | 123 => ⟨S50176x16, .i32⟩
  | 124 => ⟨S50176x16x1, .i32⟩
  | 125 => ⟨S50176x16x1, .i32⟩
  | 126 => ⟨S50176x16x1, .i32⟩
  | 127 => ⟨S50176x16x3, .i32⟩
  | _ => ⟨S16x64x56x56, .f32⟩

abbrev hbmTy0_1 (i : Nat) : BufTy := match i % 128 with
  | 0 => ⟨S50176x16, .f32⟩
  | 1 => ⟨S_, .i32⟩
  | 2 => ⟨S50176x16, .i32⟩
  | 3 => ⟨S50176x16, .i32⟩
  | 4 => ⟨S50176x16, .i1⟩
  | 5 => ⟨S50176x16, .i32⟩
  | 6 => ⟨S50176x16, .i32⟩
  | 7 => ⟨S16x1, .i32⟩
  | 8 => ⟨S16, .i32⟩
  | 9 => ⟨S_, .i32⟩
  | 10 => ⟨S16, .i32⟩
  | 11 => ⟨S16, .i1⟩
  | 12 => ⟨S_, .i32⟩
  | 13 => ⟨S16, .i32⟩
  | 14 => ⟨S16, .i32⟩
  | 15 => ⟨S16, .i32⟩
  | 16 => ⟨S_, .i32⟩
  | 17 => ⟨S16, .i32⟩
  | 18 => ⟨S16, .i1⟩
  | 19 => ⟨S_, .i32⟩
  | 20 => ⟨S16, .i32⟩
  | 21 => ⟨S16, .i32⟩
  | 22 => ⟨S16, .i32⟩
  | 23 => ⟨S16x1, .i32⟩
  | 24 => ⟨S16x1, .i32⟩
  | 25 => ⟨S16x2, .i32⟩
  | 26 => ⟨S50176x16, .f32⟩
  | 27 => ⟨S1x16, .i32⟩
  | 28 => ⟨S_, .i32⟩
  | 29 => ⟨S1x16, .i32⟩
  | 30 => ⟨S1x16, .i1⟩
  | 31 => ⟨S_, .i32⟩
  | 32 => ⟨S1x16, .i32⟩
  | 33 => ⟨S1x16, .i32⟩
  | 34 => ⟨S1x16, .i32⟩
  | 35 => ⟨S_, .i32⟩
  | 36 => ⟨S50176x16, .i32⟩
  | 37 => ⟨S50176x16, .i1⟩
  | 38 => ⟨S_, .i32⟩
  | 39 => ⟨S50176x16, .i32⟩
  | 40 => ⟨S50176x16, .i32⟩
  | 41 => ⟨S50176x16, .i32⟩
  | 42 => ⟨S50176x16, .i32⟩
  | 43 => ⟨S_, .i32⟩
  | 44 => ⟨S50176x16, .i32⟩
  | 45 => ⟨S50176x16, .i32⟩
  | 46 => ⟨S50176x16x1, .i32⟩
  | 47 => ⟨S50176x16x1, .i32⟩
  | 48 => ⟨S50176x16x1, .i32⟩
  | 49 => ⟨S50176x16x3, .i32⟩
  | 50 => ⟨S50176x16, .f32⟩
  | 51 => ⟨S_, .i32⟩
  | 52 => ⟨S50176x16, .i32⟩
  | 53 => ⟨S50176x16, .i32⟩
  | 54 => ⟨S50176x16, .i1⟩
  | 55 => ⟨S50176x16, .i32⟩
  | 56 => ⟨S50176x16, .i32⟩
  | 57 => ⟨S16x1, .i32⟩
  | 58 => ⟨S16, .i32⟩
  | 59 => ⟨S_, .i32⟩
  | 60 => ⟨S16, .i32⟩
  | 61 => ⟨S16, .i1⟩
  | 62 => ⟨S_, .i32⟩
  | 63 => ⟨S16, .i32⟩
  | 64 => ⟨S16, .i32⟩
  | 65 => ⟨S16, .i32⟩
  | 66 => ⟨S_, .i32⟩
  | 67 => ⟨S16, .i32⟩
  | 68 => ⟨S16, .i1⟩
  | 69 => ⟨S_, .i32⟩
  | 70 => ⟨S16, .i32⟩
  | 71 => ⟨S16, .i32⟩
  | 72 => ⟨S16, .i32⟩
  | 73 => ⟨S16x1, .i32⟩
  | 74 => ⟨S16x1, .i32⟩
  | 75 => ⟨S16x2, .i32⟩
  | 76 => ⟨S50176x16, .f32⟩
  | 77 => ⟨S1x16, .i32⟩
  | 78 => ⟨S_, .i32⟩
  | 79 => ⟨S1x16, .i32⟩
  | 80 => ⟨S1x16, .i1⟩
  | 81 => ⟨S_, .i32⟩
  | 82 => ⟨S1x16, .i32⟩
  | 83 => ⟨S1x16, .i32⟩
  | 84 => ⟨S1x16, .i32⟩
  | 85 => ⟨S_, .i32⟩
  | 86 => ⟨S50176x16, .i32⟩
  | 87 => ⟨S50176x16, .i1⟩
  | 88 => ⟨S_, .i32⟩
  | 89 => ⟨S50176x16, .i32⟩
  | 90 => ⟨S50176x16, .i32⟩
  | 91 => ⟨S50176x16, .i32⟩
  | 92 => ⟨S50176x16, .i32⟩
  | 93 => ⟨S_, .i32⟩
  | 94 => ⟨S50176x16, .i32⟩
  | 95 => ⟨S50176x16, .i32⟩
  | 96 => ⟨S50176x16x1, .i32⟩
  | 97 => ⟨S50176x16x1, .i32⟩
  | 98 => ⟨S50176x16x1, .i32⟩
  | 99 => ⟨S50176x16x3, .i32⟩
  | 100 => ⟨S50176x16, .f32⟩
  | 101 => ⟨S_, .i32⟩
  | 102 => ⟨S50176x16, .i32⟩
  | 103 => ⟨S50176x16, .i32⟩
  | 104 => ⟨S50176x16, .i1⟩
  | 105 => ⟨S50176x16, .i32⟩
  | 106 => ⟨S50176x16, .i32⟩
  | 107 => ⟨S1x16, .i32⟩
  | 108 => ⟨S_, .i32⟩
  | 109 => ⟨S1x16, .i32⟩
  | 110 => ⟨S1x16, .i1⟩
  | 111 => ⟨S_, .i32⟩
  | 112 => ⟨S1x16, .i32⟩
  | 113 => ⟨S1x16, .i32⟩
  | 114 => ⟨S1x16, .i32⟩
  | 115 => ⟨S_, .i32⟩
  | 116 => ⟨S50176x16, .i32⟩
  | 117 => ⟨S50176x16, .i1⟩
  | 118 => ⟨S_, .i32⟩
  | 119 => ⟨S50176x16, .i32⟩
  | 120 => ⟨S50176x16, .i32⟩
  | 121 => ⟨S50176x16, .i32⟩
  | 122 => ⟨S50176x16, .i32⟩
  | 123 => ⟨S50176x16x1, .i32⟩
  | 124 => ⟨S50176x16x1, .i32⟩
  | 125 => ⟨S50176x16x2, .i32⟩
  | 126 => ⟨S50176x16x64, .f32⟩
  | 127 => ⟨S_, .f32⟩
  | _ => ⟨S16x64x56x56, .f32⟩

abbrev hbmTy0_2 (i : Nat) : BufTy := match i % 128 with
  | 0 => ⟨S50176x64, .f32⟩
  | 1 => ⟨S1x64, .f32⟩
  | 2 => ⟨S50176x64, .f32⟩
  | 3 => ⟨S50176x64, .f32⟩
  | 4 => ⟨S16x56x56x64, .f32⟩
  | 5 => ⟨S16x64x56x56, .f32⟩
  | _ => ⟨S16x64x56x56, .f32⟩

abbrev hbmTy (i : Nat) : BufTy := match i / 128 with
  | 0 => hbmTy0_0 i
  | 1 => hbmTy0_1 i
  | 2 => hbmTy0_2 i
  | _ => ⟨S16x64x56x56, .f32⟩

abbrev bufTy : (tb : Table) → Fin (tcTables nBuf tb) → BufTy
  | .hbm, ⟨i, _⟩ => hbmTy i
  | _, _ => ⟨S16x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_c_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_10 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_11 : Ref sig .tc := ⟨.hbm, 87, rfl⟩
abbrev main_v69 : Ref sig .tc := ⟨.hbm, 88, rfl⟩
abbrev main_v70 : Ref sig .tc := ⟨.hbm, 89, rfl⟩
abbrev main_c_12 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_c_13 : Ref sig .tc := ⟨.hbm, 94, rfl⟩
abbrev main_v74 : Ref sig .tc := ⟨.hbm, 95, rfl⟩
abbrev main_v75 : Ref sig .tc := ⟨.hbm, 96, rfl⟩
abbrev main_c_14 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_15 : Ref sig .tc := ⟨.hbm, 106, rfl⟩
abbrev main_v84 : Ref sig .tc := ⟨.hbm, 107, rfl⟩
abbrev main_v85 : Ref sig .tc := ⟨.hbm, 108, rfl⟩
abbrev main_c_16 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_c_17 : Ref sig .tc := ⟨.hbm, 113, rfl⟩
abbrev main_v89 : Ref sig .tc := ⟨.hbm, 114, rfl⟩
abbrev main_v90 : Ref sig .tc := ⟨.hbm, 115, rfl⟩
abbrev main_c_18 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_c_19 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_c_20 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_c_21 : Ref sig .tc := ⟨.hbm, 137, rfl⟩
abbrev main_v109 : Ref sig .tc := ⟨.hbm, 138, rfl⟩
abbrev main_v110 : Ref sig .tc := ⟨.hbm, 139, rfl⟩
abbrev main_c_22 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_c_23 : Ref sig .tc := ⟨.hbm, 144, rfl⟩
abbrev main_v114 : Ref sig .tc := ⟨.hbm, 145, rfl⟩
abbrev main_v115 : Ref sig .tc := ⟨.hbm, 146, rfl⟩
abbrev main_c_24 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_c_25 : Ref sig .tc := ⟨.hbm, 156, rfl⟩
abbrev main_v124 : Ref sig .tc := ⟨.hbm, 157, rfl⟩
abbrev main_v125 : Ref sig .tc := ⟨.hbm, 158, rfl⟩
abbrev main_c_26 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_c_27 : Ref sig .tc := ⟨.hbm, 163, rfl⟩
abbrev main_v129 : Ref sig .tc := ⟨.hbm, 164, rfl⟩
abbrev main_v130 : Ref sig .tc := ⟨.hbm, 165, rfl⟩
abbrev main_c_28 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_c_29 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_c_30 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_c_31 : Ref sig .tc := ⟨.hbm, 187, rfl⟩
abbrev main_v149 : Ref sig .tc := ⟨.hbm, 188, rfl⟩
abbrev main_v150 : Ref sig .tc := ⟨.hbm, 189, rfl⟩
abbrev main_c_32 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_c_33 : Ref sig .tc := ⟨.hbm, 194, rfl⟩
abbrev main_v154 : Ref sig .tc := ⟨.hbm, 195, rfl⟩
abbrev main_v155 : Ref sig .tc := ⟨.hbm, 196, rfl⟩
abbrev main_c_34 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_c_35 : Ref sig .tc := ⟨.hbm, 206, rfl⟩
abbrev main_v164 : Ref sig .tc := ⟨.hbm, 207, rfl⟩
abbrev main_v165 : Ref sig .tc := ⟨.hbm, 208, rfl⟩
abbrev main_c_36 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_c_37 : Ref sig .tc := ⟨.hbm, 213, rfl⟩
abbrev main_v169 : Ref sig .tc := ⟨.hbm, 214, rfl⟩
abbrev main_v170 : Ref sig .tc := ⟨.hbm, 215, rfl⟩
abbrev main_c_38 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_c_39 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_c_40 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_c_41 : Ref sig .tc := ⟨.hbm, 236, rfl⟩
abbrev main_v188 : Ref sig .tc := ⟨.hbm, 237, rfl⟩
abbrev main_v189 : Ref sig .tc := ⟨.hbm, 238, rfl⟩
abbrev main_c_42 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_c_43 : Ref sig .tc := ⟨.hbm, 243, rfl⟩
abbrev main_v193 : Ref sig .tc := ⟨.hbm, 244, rfl⟩
abbrev main_v194 : Ref sig .tc := ⟨.hbm, 245, rfl⟩
abbrev main_c_44 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_cst : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩

abbrev nD : Nat := 1
abbrev τ : Topo := Topo.v7x

variable {F : FTy → Type} [FloatOps F]

class Facts₀ : Prop where
  pads_S16x64x56x56_S16x64x58x58_000_000_110_110 : S16x64x56x56.Pads (![0, 0, 1, 1] : Fin 4 → Nat) ![0, 0, 1, 1] ![0, 0, 0, 0] S16x64x58x58
  h_S_ : 0 < S_.numel
  slices_S16x64x58x58_S16x64x56x56_0_0_0_0 : S16x64x58x58.Slices ![0, 0, 0, 0] S16x64x56x56
  slices_S16x64x58x58_S16x64x56x56_0_0_0_1 : S16x64x58x58.Slices ![0, 0, 0, 1] S16x64x56x56
  slices_S16x64x58x58_S16x64x56x56_0_0_0_2 : S16x64x58x58.Slices ![0, 0, 0, 2] S16x64x56x56
  slices_S16x64x58x58_S16x64x56x56_0_0_1_0 : S16x64x58x58.Slices ![0, 0, 1, 0] S16x64x56x56
  slices_S16x64x58x58_S16x64x56x56_0_0_1_1 : S16x64x58x58.Slices ![0, 0, 1, 1] S16x64x56x56
  slices_S16x64x58x58_S16x64x56x56_0_0_1_2 : S16x64x58x58.Slices ![0, 0, 1, 2] S16x64x56x56
  slices_S16x64x58x58_S16x64x56x56_0_0_2_0 : S16x64x58x58.Slices ![0, 0, 2, 0] S16x64x56x56
  slices_S16x64x58x58_S16x64x56x56_0_0_2_1 : S16x64x58x58.Slices ![0, 0, 2, 1] S16x64x56x56
  slices_S16x64x58x58_S16x64x56x56_0_0_2_2 : S16x64x58x58.Slices ![0, 0, 2, 2] S16x64x56x56
  bcast_S16x64x56x56_S16x64x1x56x56_0_1_3_4 : S16x64x56x56.BroadcastsInDim S16x64x1x56x56 (![0, 1, 3, 4] : Fin 4 → Fin S16x64x1x56x56.rank)
  concatenates_S16x64x1x56x56_S16x64x1x56x56_S16x64x1x56x56_S16x64x1x56x56_S16x64x1x56x56_S16x64x1x56x56_S16x64x1x56x56_S16x64x1x56x56_S16x64x1x56x56_S16x64x9x56x56_d2 : Shape.Concatenates [S16x64x1x56x56, S16x64x1x56x56, S16x64x1x56x56, S16x64x1x56x56, S16x64x1x56x56, S16x64x1x56x56, S16x64x1x56x56, S16x64x1x56x56, S16x64x1x56x56] S16x64x9x56x56 2
  shapeCasts_S16x64x9x56x56_S16x576x56x56 : S16x64x9x56x56.ShapeCasts S16x576x56x56
  shapeCasts_S16x576x56x56_S16x576x3136 : S16x576x56x56.ShapeCasts S16x576x3136
  transposes_S16x576x3136_S16x3136x576_0_2_1 : S16x576x3136.Transposes [0, 2, 1] S16x3136x576
  shapeCasts_S16x3136x576_S50176x576 : S16x3136x576.ShapeCasts S50176x576
  shapeCasts_S50176x576_S50176x16x36 : S50176x576.ShapeCasts S50176x16x36
  bcast_S_S50176x16 : S_.BroadcastsInDim S50176x16 (![] : Fin 0 → Fin S50176x16.rank)
  slices_S16x4_S16x1_0_0 : S16x4.Slices ![0, 0] S16x1
  shapeCasts_S16x1_S16 : S16x1.ShapeCasts S16
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  bcast_S16_S1x16_1 : S16.BroadcastsInDim S1x16 (![1] : Fin 1 → Fin S1x16.rank)
  bcast_S_S1x16 : S_.BroadcastsInDim S1x16 (![] : Fin 0 → Fin S1x16.rank)
  bcast_S1x16_S50176x16_0_1 : S1x16.BroadcastsInDim S50176x16 (![0, 1] : Fin 2 → Fin S50176x16.rank)
  bcast_S50176x16_S50176x16x1_0_1 : S50176x16.BroadcastsInDim S50176x16x1 (![0, 1] : Fin 2 → Fin S50176x16x1.rank)
  concatenates_S50176x16x1_S50176x16x1_S50176x16x1_S50176x16x3_d2 : Shape.Concatenates [S50176x16x1, S50176x16x1, S50176x16x1] S50176x16x3 2
  natLt_1_32 : 1 < 32
  slices_S16x4_S16x1_0_1 : S16x4.Slices ![0, 1] S16x1
  slices_S16x4_S16x1_0_2 : S16x4.Slices ![0, 2] S16x1
  slices_S16x4_S16x1_0_3 : S16x4.Slices ![0, 3] S16x1
  concatenates_S50176x16x1_S50176x16x1_S50176x16x2_d2 : Shape.Concatenates [S50176x16x1, S50176x16x1] S50176x16x2 2
  reducesTo_S50176x16x64_S50176x64_d1 : S50176x16x64.ReducesTo [1] S50176x64
  bcast_S64_S1x64_1 : S64.BroadcastsInDim S1x64 (![1] : Fin 1 → Fin S1x64.rank)
  bcast_S1x64_S50176x64_0_1 : S1x64.BroadcastsInDim S50176x64 (![0, 1] : Fin 2 → Fin S50176x64.rank)
  shapeCasts_S50176x64_S16x56x56x64 : S50176x64.ShapeCasts S16x56x56x64
  transposes_S16x56x56x64_S16x64x56x56_0_3_1_2 : S16x56x56x64.Transposes [0, 3, 1, 2] S16x64x56x56
  gather_S50176x16x36_S16x2_S50176x16_0_12_n_n_12_1_5017611_wf : GatherDims.WF S50176x16x36 S16x2 S50176x16 [0] [1, 2] [] [1, 2] [] 1 ![50176, 1, 1]
  gather_S16x4x8_S50176x16x3_S50176x16_n_012_n_n_012_2_111_wf : GatherDims.WF S16x4x8 S50176x16x3 S50176x16 [] [0, 1, 2] [] [0, 1, 2] [] 2 ![1, 1, 1]
  gather_S16x16x64_S50176x16x2_S50176x16x64_2_01_n_n_01_2_1164_wf : GatherDims.WF S16x16x64 S50176x16x2 S50176x16x64 [2] [0, 1] [] [0, 1] [] 2 ![1, 1, 64]

variable [Facts₀]

def gather_S50176x16x36_S16x2_S50176x16_0_12_n_n_12_1_5017611 : GatherDims S50176x16x36 S16x2 S50176x16 where
  offsetDims := [0]
  collapsedSliceDims := [1, 2]
  operandBatchingDims := []
  startIndicesBatchingDims := []
  startIndexMap := [1, 2]
  indexVectorDim := 1
  sliceSizes := ![50176, 1, 1]
  wf := gather_S50176x16x36_S16x2_S50176x16_0_12_n_n_12_1_5017611_wf
def gather_S16x4x8_S50176x16x3_S50176x16_n_012_n_n_012_2_111 : GatherDims S16x4x8 S50176x16x3 S50176x16 where
  offsetDims := []
  collapsedSliceDims := [0, 1, 2]
  operandBatchingDims := []
  startIndicesBatchingDims := []
  startIndexMap := [0, 1, 2]
  indexVectorDim := 2
  sliceSizes := ![1, 1, 1]
  wf := gather_S16x4x8_S50176x16x3_S50176x16_n_012_n_n_012_2_111_wf
def gather_S16x16x64_S50176x16x2_S50176x16x64_2_01_n_n_01_2_1164 : GatherDims S16x16x64 S50176x16x2 S50176x16x64 where
  offsetDims := [2]
  collapsedSliceDims := [0, 1]
  operandBatchingDims := []
  startIndicesBatchingDims := []
  startIndexMap := [0, 1]
  indexVectorDim := 2
  sliceSizes := ![1, 1, 64]
  wf := gather_S16x16x64_S50176x16x2_S50176x16x64_2_01_n_n_01_2_1164_wf

class Facts : Prop extends Facts₀ where

variable [Facts]
-- ==== Proof.Spec.lean ====
/-
  The function both programs compute, one output element at a time.

  A pixel (b, i, j) of the output sees the 576 = 16 · 36 features of its 3×3 neighbourhood in the zero-padded input:
  feature f = c · 36 + s of codebook c is the padded input at channel f / 9 and at the offset ((f % 9) / 3, f % 3) from
  the pixel.  Each codebook walks a binary tree of four levels: at level t it reads ONE of its 36 features (the one the
  index table names) and ONE of eight thresholds (the one its bucket so far names), and its bucket e becomes
  2 · e + [feature ≥ threshold].  After four levels the bucket is below 16 and names a row of that codebook's lookup
  table; the output at channel o is the sum over the 16 codebooks of those rows' entry o, plus the bias.

  `pick g i` is the entry of a table `g` that the word `i` names (0 when `i` is not below the table's length): a
  sum over the table against a one-hot row is exactly `pick`, because a product with 0 is 0 and with 1 is the factor on
  the extended reals, infinities included.
-/
import Idealize.ShloMosaic.PureOps.Ideal
import Idealize.ShloMosaic.Lib.ValueIdx

noncomputable section

open scoped BigOperators

namespace Cert.Madd

open Idealize.ShloMosaic Idealize.ShloMosaic.ValueIdx

/-- The entry of the table `g` named by the word `i`; `0` when `i` (read unsigned) is not below the length. -/
def pick {n : ℕ} (g : Fin n → EReal) (i : BitVec 32) : EReal :=
  if h : i.toNat < n then g ⟨i.toNat, h⟩ else 0

theorem pick_of_lt {n : ℕ} (g : Fin n → EReal) (i : BitVec 32) (h : i.toNat < n) : pick g i = g ⟨i.toNat, h⟩ := by
  unfold pick; rw [dif_pos h]

/-- One level of the tree: the bucket doubles, and gains one exactly when the feature reaches the threshold. -/
def step (v thr : EReal) (e : BitVec 32) : BitVec 32 :=
  IntOp.addi (IntOp.muli 2#32 e) ((Ideal.cmp .oge v thr).setWidth 32)

/-- The bucket after one, two, three and four levels, for one codebook at one pixel: `v t` is the feature read at level
    `t`, `thr t` the eight thresholds of level `t`. -/
def enc1 (v : Fin 4 → EReal) (thr : Fin 4 → Fin 8 → EReal) : BitVec 32 := step (v 0) (pick (thr 0) 0#32) 0#32
def enc2 (v : Fin 4 → EReal) (thr : Fin 4 → Fin 8 → EReal) : BitVec 32 := step (v 1) (pick (thr 1) (enc1 v thr)) (enc1 v thr)
def enc3 (v : Fin 4 → EReal) (thr : Fin 4 → Fin 8 → EReal) : BitVec 32 := step (v 2) (pick (thr 2) (enc2 v thr)) (enc2 v thr)
def enc4 (v : Fin 4 → EReal) (thr : Fin 4 → Fin 8 → EReal) : BitVec 32 := step (v 3) (pick (thr 3) (enc3 v thr)) (enc3 v thr)

/-- A level's result as a number: twice the bucket, plus the comparison's bit. -/
theorem cmp_bit (v thr : EReal) : ((Ideal.cmp .oge v thr).setWidth 32 : BitVec 32).toNat = if thr ≤ v then 1 else 0 := by
  unfold Ideal.cmp
  by_cases h : thr ≤ v
  · simp only [h, decide_true, if_true]; rfl
  · simp only [h, decide_false, if_false]; rfl

theorem step_toNat (v thr : EReal) (e : BitVec 32) (he : e.toNat < 2 ^ 30) :
    (step v thr e).toNat = 2 * e.toNat + (if thr ≤ v then 1 else 0) := by
  unfold step IntOp.addi IntOp.muli
  rw [BitVec.toNat_add, BitVec.toNat_mul, cmp_bit]
  have h2 : (2#32 : BitVec 32).toNat = 2 := rfl
  rw [h2]
  split <;> omega

theorem step_lt (v thr : EReal) (e : BitVec 32) (k : ℕ) (hk : k ≤ 2 ^ 29) (he : e.toNat < k) : (step v thr e).toNat < 2 * k := by
  rw [step_toNat v thr e (by omega)]; split <;> omega

theorem enc1_lt (v : Fin 4 → EReal) (thr : Fin 4 → Fin 8 → EReal) : (enc1 v thr).toNat < 2 :=
  step_lt _ _ _ 1 (by norm_num) (by decide)
theorem enc2_lt (v : Fin 4 → EReal) (thr : Fin 4 → Fin 8 → EReal) : (enc2 v thr).toNat < 4 :=
  step_lt _ _ _ 2 (by norm_num) (enc1_lt v thr)
theorem enc3_lt (v : Fin 4 → EReal) (thr : Fin 4 → Fin 8 → EReal) : (enc3 v thr).toNat < 8 :=
  step_lt _ _ _ 4 (by norm_num) (enc2_lt v thr)
theorem enc4_lt (v : Fin 4 → EReal) (thr : Fin 4 → Fin 8 → EReal) : (enc4 v thr).toNat < 16 :=
  step_lt _ _ _ 8 (by norm_num) (enc3_lt v thr)

/-- One output element: the sum over the codebooks of the lookup row its final bucket names, plus the bias. `v c t` is
    codebook `c`'s feature at level `t`, `thr c t` its thresholds, `lut c` its sixteen rows' entries at the output
    channel. -/
def outpix (v : Fin 16 → Fin 4 → EReal) (thr : Fin 16 → Fin 4 → Fin 8 → EReal) (lut : Fin 16 → Fin 16 → EReal) (bias : EReal) : EReal :=
  (∑ c : Fin 16, pick (lut c) (enc4 (v c) (thr c))) + bias

/-- A sum over a table against the one-hot row "position = e" (the comparison's bit widened to a word and read as a signed
    integer), the one-hot factor on the LEFT: the entry `e` names. -/
theorem cmpi_eq_bit (a b : BitVec 32) : IntOp.cmpi .eq a b = if a = b then 1#1 else 0#1 := by
  unfold IntOp.cmpi
  by_cases h : a = b
  · subst h; simp
  · have hb : (a == b) = false := by simpa using h
    simp [h, hb]

theorem ofNat_eq_iff (k : ℕ) (hk : k < 2 ^ 32) (e : BitVec 32) : BitVec.ofNat 32 k = e ↔ k = e.toNat := by
  constructor
  · intro h; rw [← h, BitVec.toNat_ofNat]; omega
  · intro h; apply BitVec.eq_of_toNat_eq; rw [BitVec.toNat_ofNat]; omega

theorem sum_ite_pick {n : ℕ} (g : Fin n → EReal) (e : BitVec 32) :
    ∑ k : Fin n, (if k.val = e.toNat then g k else 0) = pick g e := by
  unfold pick
  by_cases h : e.toNat < n
  · rw [dif_pos h, Finset.sum_eq_single (⟨e.toNat, h⟩ : Fin n)]
    · simp
    · intro b _ hb; rw [if_neg]; intro hc; exact hb (Fin.ext hc)
    · intro hc; exact absurd (Finset.mem_univ _) hc
  · rw [dif_neg h]; apply Finset.sum_eq_zero; intro k _; rw [if_neg]; have := k.isLt; omega

theorem sum_onehot_mul {n : ℕ} (hn : n ≤ 2 ^ 31) (g : Fin n → EReal) (e : BitVec 32) :
    ∑ k : Fin n, ((((IntOp.cmpi .eq (BitVec.ofNat 32 k.val) e).setWidth 32).toInt : ℝ) : EReal) * g k = pick g e := by
  rw [← sum_ite_pick]
  refine Finset.sum_congr rfl fun k _ => ?_
  have hk : k.val < 2 ^ 32 := by have := k.isLt; omega
  rw [cmpi_eq_bit]
  by_cases h : k.val = e.toNat
  · rw [if_pos ((ofNat_eq_iff _ hk e).2 h), if_pos h]
    have : (((1#1 : BitVec 1).setWidth 32 : BitVec 32).toInt) = 1 := by decide
    rw [this]; simp
  · rw [if_neg (fun hc => h ((ofNat_eq_iff _ hk e).1 hc)), if_neg h]
    have : (((0#1 : BitVec 1).setWidth 32 : BitVec 32).toInt) = 0 := by decide
    rw [this]; simp

/-- The same against the one-hot row "i = position" (the comparison's bit read as an unsigned integer), the one-hot factor on
    the RIGHT. -/
theorem sum_mul_onehot {n : ℕ} (hn : n ≤ 2 ^ 31) (g : Fin n → EReal) (i : BitVec 32) :
    ∑ s : Fin n, g s * (((IntOp.cmpi .eq i (BitVec.ofNat 32 s.val)).toNat : ℝ) : EReal) = pick g i := by
  rw [← sum_ite_pick]
  refine Finset.sum_congr rfl fun k _ => ?_
  have hk : k.val < 2 ^ 32 := by have := k.isLt; omega
  rw [cmpi_eq_bit]
  by_cases h : k.val = i.toNat
  · rw [if_pos ((ofNat_eq_iff _ hk i).2 h).symm, if_pos h]
    have : ((1#1 : BitVec 1).toNat) = 1 := by decide
    rw [this]; simp
  · rw [if_neg (fun hc => h ((ofNat_eq_iff _ hk i).1 hc.symm)), if_neg h]
    have : ((0#1 : BitVec 1).toNat) = 0 := by decide
    rw [this]; simp

/-- Where feature `s` of codebook `c` at pixel `(b, i, j)` sits in the zero-padded input: channel `f / 9`, row
    `i + (f % 9) / 3`, column `j + f % 3`, for `f = c · 36 + s`. -/
def featIdx {B : ℕ} (b : Fin B) (i j : Fin 56) (c : Fin 16) (s : Fin 36) : (⟨4, ![B, 64, 58, 58]⟩ : Shape).Idx :=
  ix4 b (⟨(c.val * 36 + s.val) / 9, by have := c.isLt; have := s.isLt; omega⟩ : Fin 64)
    (⟨i.val + (c.val * 36 + s.val) % 9 / 3, by have := i.isLt; omega⟩ : Fin 58)
    (⟨j.val + (c.val * 36 + s.val) % 3, by have := j.isLt; omega⟩ : Fin 58)

/-- The whole result array as one function of the padded input `xp`, the index table `idx`, the thresholds `sv`, the
    lookup tables `lut` and the bias, at output index `(b, o, i, j)`. -/
def G (xp : (⟨4, ![16, 64, 58, 58]⟩ : Shape).Idx → EReal) (idx : (⟨2, ![16, 4]⟩ : Shape).Idx → BitVec 32)
    (sv : (⟨3, ![16, 4, 8]⟩ : Shape).Idx → EReal) (lut : (⟨3, ![16, 16, 64]⟩ : Shape).Idx → EReal)
    (bias : (⟨1, ![64]⟩ : Shape).Idx → EReal) (b : Fin 16) (o : Fin 64) (i j : Fin 56) : EReal :=
  outpix (fun c t => pick (fun s => xp (featIdx b i j c s)) (idx (ix2 c t)))
    (fun c t e => sv (ix3 c t e)) (fun c k => lut (ix3 c k o)) (bias (ix1 o))

/-- `G` as an array over the output's index set. -/
def Garr (xp : (⟨4, ![16, 64, 58, 58]⟩ : Shape).Idx → EReal) (idx : (⟨2, ![16, 4]⟩ : Shape).Idx → BitVec 32)
    (sv : (⟨3, ![16, 4, 8]⟩ : Shape).Idx → EReal) (lut : (⟨3, ![16, 16, 64]⟩ : Shape).Idx → EReal)
    (bias : (⟨1, ![64]⟩ : Shape).Idx → EReal) : (⟨4, ![16, 64, 56, 56]⟩ : Shape).Idx → EReal :=
  fun y => G xp idx sv lut bias (y 0) (y 1) (y 2) (y 3)

/-- The row of the flattened pixel list that pixel `(i, j)` of one image is. -/
def pix (i j : Fin 56) : Fin 3136 := ⟨i.val * 56 + j.val, by have := i.isLt; have := j.isLt; omega⟩

/-- The row of the flattened pixel list of all sixteen images that pixel `(i, j)` of image `b` is. -/
def gpix (b : Fin 16) (i j : Fin 56) : Fin 50176 :=
  ⟨b.val * 3136 + i.val * 56 + j.val, by have := b.isLt; have := i.isLt; have := j.isLt; omega⟩

/-- The row of the flattened lookup table that row `k` of codebook `c` is. -/
def lrow (c k : Fin 16) : Fin 256 := ⟨c.val * 16 + k.val, by have := c.isLt; have := k.isLt; omega⟩

/-- The input with one ring of zeros around each 56×56 image. -/
def xpad (x : (⟨4, ![16, 64, 56, 56]⟩ : Shape).Idx → EReal) : (⟨4, ![16, 64, 58, 58]⟩ : Shape).Idx → EReal :=
  pad (⟨4, ![16, 64, 58, 58]⟩ : Shape) ![0, 0, 1, 1] ![0, 0, 1, 1] ![0, 0, 0, 0] x
    (sitofp (F := Ideal) .f32 (constantI (⟨0, ![]⟩ : Shape) 32 0#32))

end Cert.Madd

end
-- ==== Proof.Pre.lean ====
/-
  What the precondition says of the index table: its last conjunct is `jnp.all((idx ≥ 0) & (idx < 36))`, an and-reduction
  of the two signed comparisons, and the precondition states that the conjunction of all its and-reductions is 1.  So the
  last one is 1, every element of its operand is 1, both comparisons hold at every entry, and a word that is signed-nonnegative
  and signed-below 36 is, read unsigned, below 36.
-/
import proofs.«431186_j62904091018010_1_alg».proof.Defs
import proofs.«431186_j62904091018010_1_alg».proof.Proof.Spec
import Idealize.ShloMosaic.Lib.ValueIdx
import Idealize.ShloMosaic.Lib.ReduceAll
import Idealize.ShloMosaic.Lib.StableHlo.Predicate

noncomputable section

namespace Cert.Madd.Pre

open Idealize.ShloMosaic Idealize.SL.Sem Idealize.ShloMosaic.ValueIdx

variable [hP : Cert.Pre_finite_inputs.Facts]

instance : Subsingleton Cert.Pre_finite_inputs.S_.Idx := ⟨fun a b => funext fun d => d.elim0⟩

/-- A word that is nonnegative and below 36 as a signed number is below 36 as an unsigned one. -/
theorem toNat_lt_of_signed (w : BitVec 32) (h0 : IntOp.cmpi .sge w 0#32 = 1#1) (h1 : IntOp.cmpi .slt w 36#32 = 1#1) :
    w.toNat < 36 := by
  unfold IntOp.cmpi at h0 h1
  simp only [StableHlo.Predicate.ofBool_eq_one_iff] at h0 h1
  rw [BitVec.sle_eq_decide] at h0
  rw [BitVec.slt_eq_decide] at h1
  simp only [decide_eq_true_eq] at h0 h1
  have e0 : (0#32 : BitVec 32).toInt = 0 := by decide
  have e36 : (36#32 : BitVec 32).toInt = 36 := by decide
  rw [e0] at h0
  rw [e36] at h1
  have := BitVec.toInt_eq_toNat_cond w
  split at this <;> omega

/-- Under the precondition every entry of the index table, read unsigned, is below 36. -/
theorem idx_lt (m : (ℓ : Loc Cert.KernelIdeal.nD Cert.KernelIdeal.τ Cert.KernelIdeal.sig) → Buf (Elt Ideal) ℓ) (h : Cert.Pre_KernelIdeal m)
    (c : Dev Cert.KernelIdeal.nD) (a : Fin 16) (t : Fin 4) :
    (m ((c.tc : Thread Cert.KernelIdeal.nD Cert.KernelIdeal.τ).loc Cert.KernelIdeal.main_arg1) (ix2 a t)).toNat < 36 := by
  have h0 := congrFun (h c) ix0
  dsimp only [Cert.Pre_finite_inputs.fn, Cert.Pre_finite_inputs.fn_part1] at h0
  have h24 := (IntOp.andi_eq_one.1 h0).2
  have hall := Host.reduce_andi_all _ _ _ _ _ h24 (ix2 a t)
  have hb := IntOp.andi_eq_one.1 hall
  exact toNat_lt_of_signed _ hb.1 hb.2

end Cert.Madd.Pre

end
-- ==== Proof.RefRun.lean ====
/-
  The reference program's run, read back stage by stage.

  The reference computes the layer as a straight line of 257 array operations: it pads the input and unfolds its
  3x3 patches into the feature array (16 codebooks of 36 features per pixel), walks each codebook's four-level
  binary tree (at level t the bucket word b becomes 2*b + [feature >= threshold], the feature chosen by the level's
  split index, the threshold by codebook, level and bucket), and sums the table rows the final buckets name, plus the
  bias. This module shows that, on every device and from any launch contents, the run ends with the result buffer
  holding the last stage's value as a function of the five arguments, and with the arguments unchanged.

  The line is cut into six stretches: the unfolding (which also lays down the codebook numbers and the zero bucket
  words), the four tree levels, and the lookup with its sum. Each stretch is read on its own, from what it finds in
  the few buffers it reads to what it leaves in the buffers later stretches read; the stretches are then chained.
  Nothing is ever composed into one term: every intermediate array is named by its stage.
-/
import proofs.«431186_j62904091018010_1_alg».proof.Proof.RefRead
import Idealize.ShloMosaic.Lib.StableHlo.Run

noncomputable section

namespace Cert.Madd.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-! ### Joins as plain functions of their pieces

A join takes its pieces as a list of (shape, array) pairs. Written as a function of the arrays alone, a join of
values that are themselves results of earlier operations can be read piece by piece. -/

/-- Two arrays joined along an axis. -/
def cat2 {α : Type} (t : Shape) (a : Fin t.rank) (s1 s2 : Shape) (h : Shape.Concatenates [s1, s2] t a)
    (p1 : s1.Idx → α) (p2 : s2.Idx → α) : t.Idx → α :=
  concatenate t a [⟨s1, p1⟩, ⟨s2, p2⟩] h

/-- Three arrays joined along an axis. -/
def cat3 {α : Type} (t : Shape) (a : Fin t.rank) (s1 s2 s3 : Shape) (h : Shape.Concatenates [s1, s2, s3] t a)
    (p1 : s1.Idx → α) (p2 : s2.Idx → α) (p3 : s3.Idx → α) : t.Idx → α :=
  concatenate t a [⟨s1, p1⟩, ⟨s2, p2⟩, ⟨s3, p3⟩] h

/-- Nine arrays of one shape joined along an axis. -/
def cat9 {α : Type} (t : Shape) (a : Fin t.rank) (s : Shape) (h : Shape.Concatenates [s, s, s, s, s, s, s, s, s] t a)
    (p1 p2 p3 p4 p5 p6 p7 p8 p9 : s.Idx → α) : t.Idx → α :=
  concatenate t a [⟨s, p1⟩, ⟨s, p2⟩, ⟨s, p3⟩, ⟨s, p4⟩, ⟨s, p5⟩, ⟨s, p6⟩, ⟨s, p7⟩, ⟨s, p8⟩, ⟨s, p9⟩] h

theorem cat2_eq {α : Type} (t : Shape) (a : Fin t.rank) (s1 s2 : Shape) (h)
    (p1 : s1.Idx → α) (p2 : s2.Idx → α) :
    concatenate t a [⟨s1, p1⟩, ⟨s2, p2⟩] h = cat2 t a s1 s2 h p1 p2 := rfl

theorem cat3_eq {α : Type} (t : Shape) (a : Fin t.rank) (s1 s2 s3 : Shape) (h)
    (p1 : s1.Idx → α) (p2 : s2.Idx → α) (p3 : s3.Idx → α) :
    concatenate t a [⟨s1, p1⟩, ⟨s2, p2⟩, ⟨s3, p3⟩] h = cat3 t a s1 s2 s3 h p1 p2 p3 := rfl

theorem cat9_eq {α : Type} (t : Shape) (a : Fin t.rank) (s : Shape) (h) (p1 p2 p3 p4 p5 p6 p7 p8 p9 : s.Idx → α) :
    concatenate t a [⟨s, p1⟩, ⟨s, p2⟩, ⟨s, p3⟩, ⟨s, p4⟩, ⟨s, p5⟩, ⟨s, p6⟩, ⟨s, p7⟩, ⟨s, p8⟩, ⟨s, p9⟩] h
      = cat9 t a s h p1 p2 p3 p4 p5 p6 p7 p8 p9 := rfl

/-! ### The program's joins of more than two pieces, each piece read at its own buffer -/

/-- The nine shifted copies of the padded input, joined into the patch axis. -/
theorem join19 (hxs hy) (V : Valuation τ sig (Elt F)) :
    (nary (τ := τ) ![main_v10, main_v11, main_v12, main_v13, main_v14, main_v15, main_v16, main_v17, main_v18] main_v19 (fun u => concatenate S16x64x9x56x56 2 [⟨S16x64x1x56x56, u 0⟩, ⟨S16x64x1x56x56, u 1⟩, ⟨S16x64x1x56x56, u 2⟩, ⟨S16x64x1x56x56, u 3⟩, ⟨S16x64x1x56x56, u 4⟩, ⟨S16x64x1x56x56, u 5⟩, ⟨S16x64x1x56x56, u 6⟩, ⟨S16x64x1x56x56, u 7⟩, ⟨S16x64x1x56x56, u 8⟩] concatenates_S16x64x1x56x56_S16x64x1x56x56_S16x64x1x56x56_S16x64x1x56x56_S16x64x1x56x56_S16x64x1x56x56_S16x64x1x56x56_S16x64x1x56x56_S16x64x1x56x56_S16x64x9x56x56_d2) hxs hy).result V (no_index (Proc.devRef .tc main_v19))
      = concatenate S16x64x9x56x56 2 [⟨S16x64x1x56x56, V (Proc.devRef .tc main_v10)⟩, ⟨S16x64x1x56x56, V (Proc.devRef .tc main_v11)⟩, ⟨S16x64x1x56x56, V (Proc.devRef .tc main_v12)⟩, ⟨S16x64x1x56x56, V (Proc.devRef .tc main_v13)⟩, ⟨S16x64x1x56x56, V (Proc.devRef .tc main_v14)⟩, ⟨S16x64x1x56x56, V (Proc.devRef .tc main_v15)⟩, ⟨S16x64x1x56x56, V (Proc.devRef .tc main_v16)⟩, ⟨S16x64x1x56x56, V (Proc.devRef .tc main_v17)⟩, ⟨S16x64x1x56x56, V (Proc.devRef .tc main_v18)⟩] concatenates_S16x64x1x56x56_S16x64x1x56x56_S16x64x1x56x56_S16x64x1x56x56_S16x64x1x56x56_S16x64x1x56x56_S16x64x1x56x56_S16x64x1x56x56_S16x64x1x56x56_S16x64x9x56x56_d2 :=
  nary_result _ _ _ hxs hy V

/-- A level's threshold address: codebook, level, bucket. One statement per level, since the buffers differ. -/
theorem join60 (hxs hy) (V : Valuation τ sig (Elt F)) :
    (nary (τ := τ) ![main_v57, main_v58, main_v59] main_v60 (fun u => concatenate S50176x16x3 2 [⟨S50176x16x1, u 0⟩, ⟨S50176x16x1, u 1⟩, ⟨S50176x16x1, u 2⟩] concatenates_S50176x16x1_S50176x16x1_S50176x16x1_S50176x16x3_d2) hxs hy).result V (no_index (Proc.devRef .tc main_v60))
      = concatenate S50176x16x3 2 [⟨S50176x16x1, V (Proc.devRef .tc main_v57)⟩, ⟨S50176x16x1, V (Proc.devRef .tc main_v58)⟩, ⟨S50176x16x1, V (Proc.devRef .tc main_v59)⟩] concatenates_S50176x16x1_S50176x16x1_S50176x16x1_S50176x16x3_d2 :=
  nary_result _ _ _ hxs hy V

theorem join100 (hxs hy) (V : Valuation τ sig (Elt F)) :
    (nary (τ := τ) ![main_v97, main_v98, main_v99] main_v100 (fun u => concatenate S50176x16x3 2 [⟨S50176x16x1, u 0⟩, ⟨S50176x16x1, u 1⟩, ⟨S50176x16x1, u 2⟩] concatenates_S50176x16x1_S50176x16x1_S50176x16x1_S50176x16x3_d2) hxs hy).result V (no_index (Proc.devRef .tc main_v100))
      = concatenate S50176x16x3 2 [⟨S50176x16x1, V (Proc.devRef .tc main_v97)⟩, ⟨S50176x16x1, V (Proc.devRef .tc main_v98)⟩, ⟨S50176x16x1, V (Proc.devRef .tc main_v99)⟩] concatenates_S50176x16x1_S50176x16x1_S50176x16x1_S50176x16x3_d2 :=
  nary_result _ _ _ hxs hy V

theorem join140 (hxs hy) (V : Valuation τ sig (Elt F)) :
    (nary (τ := τ) ![main_v137, main_v138, main_v139] main_v140 (fun u => concatenate S50176x16x3 2 [⟨S50176x16x1, u 0⟩, ⟨S50176x16x1, u 1⟩, ⟨S50176x16x1, u 2⟩] concatenates_S50176x16x1_S50176x16x1_S50176x16x1_S50176x16x3_d2) hxs hy).result V (no_index (Proc.devRef .tc main_v140))
      = concatenate S50176x16x3 2 [⟨S50176x16x1, V (Proc.devRef .tc main_v137)⟩, ⟨S50176x16x1, V (Proc.devRef .tc main_v138)⟩, ⟨S50176x16x1, V (Proc.devRef .tc main_v139)⟩] concatenates_S50176x16x1_S50176x16x1_S50176x16x1_S50176x16x3_d2 :=
  nary_result _ _ _ hxs hy V

theorem join180 (hxs hy) (V : Valuation τ sig (Elt F)) :
    (nary (τ := τ) ![main_v177, main_v178, main_v179] main_v180 (fun u => concatenate S50176x16x3 2 [⟨S50176x16x1, u 0⟩, ⟨S50176x16x1, u 1⟩, ⟨S50176x16x1, u 2⟩] concatenates_S50176x16x1_S50176x16x1_S50176x16x1_S50176x16x3_d2) hxs hy).result V (no_index (Proc.devRef .tc main_v180))
      = concatenate S50176x16x3 2 [⟨S50176x16x1, V (Proc.devRef .tc main_v177)⟩, ⟨S50176x16x1, V (Proc.devRef .tc main_v178)⟩, ⟨S50176x16x1, V (Proc.devRef .tc main_v179)⟩] concatenates_S50176x16x1_S50176x16x1_S50176x16x1_S50176x16x3_d2 :=
  nary_result _ _ _ hxs hy V

/-- The buffers' contents after a stretch of operations, in one pass: each operation's result is read at its own
    buffer as its function of what its operands' buffers held, every other buffer keeps what it held (two buffers are
    told apart by deciding their names), and each join is rewritten as a plain function of its pieces so that the pass
    goes on into the pieces. -/
macro "refrun_stretch_results" : tactic =>
  `(tactic| (simp (disch := decide) only [after_cons, after_nil,
      nullary_result', unary_result', binary_result', ternary_result', reshape_result',
      join19, join60, join100, join140, join180, cat2_eq, cat3_eq, cat9_eq,
      nullary_result_ne', unary_result_ne', binary_result_ne', ternary_result_ne', reshape_result_ne', nary_result_ne']))

/-! ### The six stretches -/

/-- The padded input unfolded into the feature array; the codebook numbers; the zero bucket words. -/
abbrev opsPre : List (HloOp τ sig (Elt F)) := (ops (F := F)).take 30
/-- The four tree levels, fifty operations each. -/
abbrev opsLvl1 : List (HloOp τ sig (Elt F)) := ((ops (F := F)).drop 30).take 50
abbrev opsLvl2 : List (HloOp τ sig (Elt F)) := ((ops (F := F)).drop 80).take 50
abbrev opsLvl3 : List (HloOp τ sig (Elt F)) := ((ops (F := F)).drop 130).take 50
abbrev opsLvl4 : List (HloOp τ sig (Elt F)) := ((ops (F := F)).drop 180).take 50
/-- The table rows named by the final bucket words, their sum over the codebooks, the bias, the result's layout. -/
abbrev opsTail : List (HloOp τ sig (Elt F)) := (ops (F := F)).drop 230

theorem ops_split : (ops : List (HloOp τ sig (Elt F)))
    = opsPre ++ (opsLvl1 ++ (opsLvl2 ++ (opsLvl3 ++ (opsLvl4 ++ opsTail)))) := rfl

/-- What every stretch after the first finds and leaves: the five arguments as launched, the feature array and the
    codebook numbers. -/
structure Base (V : Valuation τ sig (Elt F)) (x0 : (⟨S16x64x56x56, .f32⟩ : BufTy).Contents (Elt F))
    (x1 : (⟨S16x4, .i32⟩ : BufTy).Contents (Elt F)) (x2 : (⟨S16x4x8, .f32⟩ : BufTy).Contents (Elt F))
    (x3 : (⟨S16x16x64, .f32⟩ : BufTy).Contents (Elt F)) (x4 : (⟨S64, .f32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  feat : V (Proc.devRef .tc main_v24) = val_main_v24 x0
  iota : V (Proc.devRef .tc main_v25) = val_main_v25

set_option maxHeartbeats 4000000 in
/-- The first stretch, from any contents: it leaves the feature array of the input, the codebook numbers and the
    zero bucket words, and touches no argument. -/
theorem pre (V : Valuation τ sig (Elt F)) :
    Base (after opsPre V) (V (Proc.devRef .tc main_arg0)) (V (Proc.devRef .tc main_arg1)) (V (Proc.devRef .tc main_arg2))
        (V (Proc.devRef .tc main_arg3)) (V (Proc.devRef .tc main_arg4))
      ∧ after opsPre V (Proc.devRef .tc main_v26) = val_main_v26 := by
  simp only [opsPre, ops, List.take_succ_cons, List.take_zero]
  refine ⟨⟨?_, ?_, ?_, ?_, ?_, ?_, ?_⟩, ?_⟩ <;> refrun_stretch_results <;> rfl

set_option maxHeartbeats 4000000 in
/-- The first tree level: from the zero bucket words to the level-one bucket words. -/
theorem lvl1 {V : Valuation τ sig (Elt F)} {x0 x1 x2 x3 x4} (hB : Base V x0 x1 x2 x3 x4)
    (hw : V (Proc.devRef .tc main_v26) = val_main_v26) :
    Base (after opsLvl1 V) x0 x1 x2 x3 x4
      ∧ after opsLvl1 V (Proc.devRef .tc main_v66) = val_main_v66 x0 x1 x2 := by
  obtain ⟨h0, h1, h2, h3, h4, hf, hi⟩ := hB
  simp only [opsLvl1, ops, List.take_succ_cons, List.take_zero, List.drop_succ_cons, List.drop_zero]
  refine ⟨⟨?_, ?_, ?_, ?_, ?_, ?_, ?_⟩, ?_⟩ <;> refrun_stretch_results
  · exact h0
  · exact h1
  · exact h2
  · exact h3
  · exact h4
  · exact hf
  · exact hi
  · rw [hf, hi, hw, h1, h2]; rfl

set_option maxHeartbeats 4000000 in
/-- The second tree level. -/
theorem lvl2 {V : Valuation τ sig (Elt F)} {x0 x1 x2 x3 x4} (hB : Base V x0 x1 x2 x3 x4)
    (hw : V (Proc.devRef .tc main_v66) = val_main_v66 x0 x1 x2) :
    Base (after opsLvl2 V) x0 x1 x2 x3 x4
      ∧ after opsLvl2 V (Proc.devRef .tc main_v106) = val_main_v106 x0 x1 x2 := by
  obtain ⟨h0, h1, h2, h3, h4, hf, hi⟩ := hB
  simp only [opsLvl2, ops, List.take_succ_cons, List.take_zero, List.drop_succ_cons, List.drop_zero]
  refine ⟨⟨?_, ?_, ?_, ?_, ?_, ?_, ?_⟩, ?_⟩ <;> refrun_stretch_results
  · exact h0
  · exact h1
  · exact h2
  · exact h3
  · exact h4
  · exact hf
  · exact hi
  · rw [hf, hi, hw, h1, h2]; rfl

set_option maxHeartbeats 4000000 in
/-- The third tree level. -/
theorem lvl3 {V : Valuation τ sig (Elt F)} {x0 x1 x2 x3 x4} (hB : Base V x0 x1 x2 x3 x4)
    (hw : V (Proc.devRef .tc main_v106) = val_main_v106 x0 x1 x2) :
    Base (after opsLvl3 V) x0 x1 x2 x3 x4
      ∧ after opsLvl3 V (Proc.devRef .tc main_v146) = val_main_v146 x0 x1 x2 := by
  obtain ⟨h0, h1, h2, h3, h4, hf, hi⟩ := hB
  simp only [opsLvl3, ops, List.take_succ_cons, List.take_zero, List.drop_succ_cons, List.drop_zero]
  refine ⟨⟨?_, ?_, ?_, ?_, ?_, ?_, ?_⟩, ?_⟩ <;> refrun_stretch_results
  · exact h0
  · exact h1
  · exact h2
  · exact h3
  · exact h4
  · exact hf
  · exact hi
  · rw [hf, hi, hw, h1, h2]; rfl

set_option maxHeartbeats 4000000 in
/-- The fourth tree level: its bucket words are the final ones. -/
theorem lvl4 {V : Valuation τ sig (Elt F)} {x0 x1 x2 x3 x4} (hB : Base V x0 x1 x2 x3 x4)
    (hw : V (Proc.devRef .tc main_v146) = val_main_v146 x0 x1 x2) :
    Base (after opsLvl4 V) x0 x1 x2 x3 x4
      ∧ after opsLvl4 V (Proc.devRef .tc main_v186) = val_main_v186 x0 x1 x2 := by
  obtain ⟨h0, h1, h2, h3, h4, hf, hi⟩ := hB
  simp only [opsLvl4, ops, List.take_succ_cons, List.take_zero, List.drop_succ_cons, List.drop_zero]
  refine ⟨⟨?_, ?_, ?_, ?_, ?_, ?_, ?_⟩, ?_⟩ <;> refrun_stretch_results
  · exact h0
  · exact h1
  · exact h2
  · exact h3
  · exact h4
  · exact hf
  · exact hi
  · rw [hf, hi, hw, h1, h2]; rfl

set_option maxHeartbeats 4000000 in
/-- The last stretch: the table rows the final bucket words name, summed over the codebooks, plus the bias, laid out
    as the result. -/
theorem tail {V : Valuation τ sig (Elt F)} {x0 x1 x2 x3 x4} (hB : Base V x0 x1 x2 x3 x4)
    (hw : V (Proc.devRef .tc main_v186) = val_main_v186 x0 x1 x2) :
    Base (after opsTail V) x0 x1 x2 x3 x4
      ∧ after opsTail V (Proc.devRef .tc main_v208) = val_main_v208 x0 x1 x2 x3 x4 := by
  obtain ⟨h0, h1, h2, h3, h4, hf, hi⟩ := hB
  simp only [opsTail, ops, List.drop_succ_cons, List.drop_zero]
  refine ⟨⟨?_, ?_, ?_, ?_, ?_, ?_, ?_⟩, ?_⟩ <;> refrun_stretch_results
  · exact h0
  · exact h1
  · exact h2
  · exact h3
  · exact h4
  · exact hf
  · exact hi
  · rw [hi, hw, h3, h4]; rfl

/-! ### The stretches chained -/

/-- The whole line, from any contents: the result buffer holds the last stage's value of the five arguments, and the
    arguments are as they were. -/
theorem whole (V : Valuation τ sig (Elt F)) :
    Base (after ops V) (V (Proc.devRef .tc main_arg0)) (V (Proc.devRef .tc main_arg1)) (V (Proc.devRef .tc main_arg2))
        (V (Proc.devRef .tc main_arg3)) (V (Proc.devRef .tc main_arg4))
      ∧ after ops V (Proc.devRef .tc main_v208)
        = val_main_v208 (V (Proc.devRef .tc main_arg0)) (V (Proc.devRef .tc main_arg1)) (V (Proc.devRef .tc main_arg2))
            (V (Proc.devRef .tc main_arg3)) (V (Proc.devRef .tc main_arg4)) := by
  have e : after (ops (F := F)) V
      = after opsTail (after opsLvl4 (after opsLvl3 (after opsLvl2 (after opsLvl1 (after opsPre V))))) := by
    rw [ops_split]; simp only [after_append]
  rw [e]
  obtain ⟨b0, w0⟩ := pre V
  obtain ⟨b1, w1⟩ := lvl1 b0 w0
  obtain ⟨b2, w2⟩ := lvl2 b1 w1
  obtain ⟨b3, w3⟩ := lvl3 b2 w2
  obtain ⟨b4, w4⟩ := lvl4 b3 w3
  exact tail b4 w4

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v208) = Cert.ReferenceIdeal.Read.val_main_v208 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_)
    (run_seq scopedRefs_eq scopedSems_eq defs main (fun _ => ops) main_eq (fun _ => ops_sub) m ρ)
  obtain ⟨⟨e0, e1, e2, e3, e4, _, _⟩, e⟩ := whole (launchContents m c)
  exact ⟨(h c main_v208).trans e, (h c main_arg0).trans e0, (h c main_arg1).trans e1, (h c main_arg2).trans e2,
    (h c main_arg3).trans e3, (h c main_arg4).trans e4⟩

end Cert.Madd.RefRun

end
-- ==== Proof.RefLayout.lean ====
/-
  The reference's feature array read at an index.

  The reference builds, from the zero-padded input, an array indexed by (pixel row n, codebook c, feature s): nine
  shifted 56×56 windows of the padded input (offsets (r / 3, r % 3), r = 0 … 8) are stacked along a new axis next to
  the channel axis, the (channel, window) pair is flattened to one feature axis of length 576 = 64 · 9, the two pixel
  axes are flattened to 3136 = 56 · 56, the feature and pixel axes are exchanged, the image axis is merged with the pixel
  axis (50176 = 16 · 3136 rows), and the feature axis is split into 16 codebooks of 36 features.

  Following an entry (n, c, s) with n = b · 3136 + i · 56 + j back through these steps, with f = c · 36 + s: it is entry
  (n, f) before the split, (b, i · 56 + j, f) before the merge, (b, f, i · 56 + j) before the exchange, (b, f, i, j) before
  the pixel flattening, (b, f / 9, f % 9, i, j) before the feature flattening, which is window f % 9 at (b, f / 9, i, j),
  that is the padded input at (b, f / 9, i + (f % 9) / 3, j + (f % 9) % 3); and (f % 9) % 3 = f % 3.  Each step is an
  identity between positions in row-major order, an arithmetic fact about quotients and remainders by literals.
-/
import proofs.«431186_j62904091018010_1_alg».proof.Proof.RefRead
import proofs.«431186_j62904091018010_1_alg».proof.Proof.Spec
import Idealize.ShloMosaic.Lib.ValueIdx
import Idealize.ShloMosaic.Lib.Pipeline.Value

noncomputable section

namespace Cert.Madd.RefLayout

open Cert.ReferenceIdeal Cert.ReferenceIdeal.Read Idealize.ShloMosaic Idealize.ShloMosaic.ValueIdx Cert.Madd

variable {F : FTy → Type} [FloatOps F]

/-! ## The stack of nine windows, one window at a time

Window `k` of the stack is the `k`-th piece: the pieces before it have extent one each along the stacking axis, so they
cover the positions `0 … k − 1`, and the piece is read at position `0` of its own unit axis. -/

theorem v19_piece0 (x0 : (⟨S16x64x56x56, .f32⟩ : BufTy).Contents (Elt F)) (b : Fin 16) (ch : Fin 64) (i j : Fin 56) :
    val_main_v19 (F := F) x0 (ix5 b ch (0 : Fin 9) i j) = val_main_v10 (F := F) x0 (ix5 b ch (0 : Fin 1) i j) := by
  unfold val_main_v19
  refine concatenate_apply_piece (2 : Fin 5) _ _ (ix5 b ch (0 : Fin 9) i j) 0 ?_ S16x64x1x56x56 _ ?_ rfl 0 ?_
    (ix5 b ch (0 : Fin 1) i j) ?_ ?_
  · show (0 : Nat) < 9; omega
  · rfl
  · rfl
  · intro a ha
    match a, ha with
    | ⟨0, _⟩, _ => rfl
    | ⟨1, _⟩, _ => rfl
    | ⟨2, _⟩, ha => exact absurd rfl ha
    | ⟨3, _⟩, _ => rfl
    | ⟨4, _⟩, _ => rfl
  · rfl

theorem v19_piece1 (x0 : (⟨S16x64x56x56, .f32⟩ : BufTy).Contents (Elt F)) (b : Fin 16) (ch : Fin 64) (i j : Fin 56) :
    val_main_v19 (F := F) x0 (ix5 b ch (1 : Fin 9) i j) = val_main_v11 (F := F) x0 (ix5 b ch (0 : Fin 1) i j) := by
  unfold val_main_v19
  refine concatenate_apply_piece (2 : Fin 5) _ _ (ix5 b ch (1 : Fin 9) i j) 1 ?_ S16x64x1x56x56 _ ?_ rfl 1 ?_
    (ix5 b ch (0 : Fin 1) i j) ?_ ?_
  · show (1 : Nat) < 9; omega
  · rfl
  · rfl
  · intro a ha
    match a, ha with
    | ⟨0, _⟩, _ => rfl
    | ⟨1, _⟩, _ => rfl
    | ⟨2, _⟩, ha => exact absurd rfl ha
    | ⟨3, _⟩, _ => rfl
    | ⟨4, _⟩, _ => rfl
  · rfl

theorem v19_piece2 (x0 : (⟨S16x64x56x56, .f32⟩ : BufTy).Contents (Elt F)) (b : Fin 16) (ch : Fin 64) (i j : Fin 56) :
    val_main_v19 (F := F) x0 (ix5 b ch (2 : Fin 9) i j) = val_main_v12 (F := F) x0 (ix5 b ch (0 : Fin 1) i j) := by
  unfold val_main_v19
  refine concatenate_apply_piece (2 : Fin 5) _ _ (ix5 b ch (2 : Fin 9) i j) 2 ?_ S16x64x1x56x56 _ ?_ rfl 2 ?_
    (ix5 b ch (0 : Fin 1) i j) ?_ ?_
  · show (2 : Nat) < 9; omega
  · rfl
  · rfl
  · intro a ha
    match a, ha with
    | ⟨0, _⟩, _ => rfl
    | ⟨1, _⟩, _ => rfl
    | ⟨2, _⟩, ha => exact absurd rfl ha
    | ⟨3, _⟩, _ => rfl
    | ⟨4, _⟩, _ => rfl
  · rfl

theorem v19_piece3 (x0 : (⟨S16x64x56x56, .f32⟩ : BufTy).Contents (Elt F)) (b : Fin 16) (ch : Fin 64) (i j : Fin 56) :
    val_main_v19 (F := F) x0 (ix5 b ch (3 : Fin 9) i j) = val_main_v13 (F := F) x0 (ix5 b ch (0 : Fin 1) i j) := by
  unfold val_main_v19
  refine concatenate_apply_piece (2 : Fin 5) _ _ (ix5 b ch (3 : Fin 9) i j) 3 ?_ S16x64x1x56x56 _ ?_ rfl 3 ?_
    (ix5 b ch (0 : Fin 1) i j) ?_ ?_
  · show (3 : Nat) < 9; omega
  · rfl
  · rfl
  · intro a ha
    match a, ha with
    | ⟨0, _⟩, _ => rfl
    | ⟨1, _⟩, _ => rfl
    | ⟨2, _⟩, ha => exact absurd rfl ha
    | ⟨3, _⟩, _ => rfl
    | ⟨4, _⟩, _ => rfl
  · rfl

theorem v19_piece4 (x0 : (⟨S16x64x56x56, .f32⟩ : BufTy).Contents (Elt F)) (b : Fin 16) (ch : Fin 64) (i j : Fin 56) :
    val_main_v19 (F := F) x0 (ix5 b ch (4 : Fin 9) i j) = val_main_v14 (F := F) x0 (ix5 b ch (0 : Fin 1) i j) := by
  unfold val_main_v19
  refine concatenate_apply_piece (2 : Fin 5) _ _ (ix5 b ch (4 : Fin 9) i j) 4 ?_ S16x64x1x56x56 _ ?_ rfl 4 ?_
    (ix5 b ch (0 : Fin 1) i j) ?_ ?_
  · show (4 : Nat) < 9; omega
  · rfl
  · rfl
  · intro a ha
    match a, ha with
    | ⟨0, _⟩, _ => rfl
    | ⟨1, _⟩, _ => rfl
    | ⟨2, _⟩, ha => exact absurd rfl ha
    | ⟨3, _⟩, _ => rfl
    | ⟨4, _⟩, _ => rfl
  · rfl

theorem v19_piece5 (x0 : (⟨S16x64x56x56, .f32⟩ : BufTy).Contents (Elt F)) (b : Fin 16) (ch : Fin 64) (i j : Fin 56) :
    val_main_v19 (F := F) x0 (ix5 b ch (5 : Fin 9) i j) = val_main_v15 (F := F) x0 (ix5 b ch (0 : Fin 1) i j) := by
  unfold val_main_v19
  refine concatenate_apply_piece (2 : Fin 5) _ _ (ix5 b ch (5 : Fin 9) i j) 5 ?_ S16x64x1x56x56 _ ?_ rfl 5 ?_
    (ix5 b ch (0 : Fin 1) i j) ?_ ?_
  · show (5 : Nat) < 9; omega
  · rfl
  · rfl
  · intro a ha
    match a, ha with
    | ⟨0, _⟩, _ => rfl
    | ⟨1, _⟩, _ => rfl
    | ⟨2, _⟩, ha => exact absurd rfl ha
    | ⟨3, _⟩, _ => rfl
    | ⟨4, _⟩, _ => rfl
  · rfl

theorem v19_piece6 (x0 : (⟨S16x64x56x56, .f32⟩ : BufTy).Contents (Elt F)) (b : Fin 16) (ch : Fin 64) (i j : Fin 56) :
    val_main_v19 (F := F) x0 (ix5 b ch (6 : Fin 9) i j) = val_main_v16 (F := F) x0 (ix5 b ch (0 : Fin 1) i j) := by
  unfold val_main_v19
  refine concatenate_apply_piece (2 : Fin 5) _ _ (ix5 b ch (6 : Fin 9) i j) 6 ?_ S16x64x1x56x56 _ ?_ rfl 6 ?_
    (ix5 b ch (0 : Fin 1) i j) ?_ ?_
  · show (6 : Nat) < 9; omega
  · rfl
  · rfl
  · intro a ha
    match a, ha with
    | ⟨0, _⟩, _ => rfl
    | ⟨1, _⟩, _ => rfl
    | ⟨2, _⟩, ha => exact absurd rfl ha
    | ⟨3, _⟩, _ => rfl
    | ⟨4, _⟩, _ => rfl
  · rfl

theorem v19_piece7 (x0 : (⟨S16x64x56x56, .f32⟩ : BufTy).Contents (Elt F)) (b : Fin 16) (ch : Fin 64) (i j : Fin 56) :
    val_main_v19 (F := F) x0 (ix5 b ch (7 : Fin 9) i j) = val_main_v17 (F := F) x0 (ix5 b ch (0 : Fin 1) i j) := by
  unfold val_main_v19
  refine concatenate_apply_piece (2 : Fin 5) _ _ (ix5 b ch (7 : Fin 9) i j) 7 ?_ S16x64x1x56x56 _ ?_ rfl 7 ?_
    (ix5 b ch (0 : Fin 1) i j) ?_ ?_
  · show (7 : Nat) < 9; omega
  · rfl
  · rfl
  · intro a ha
    match a, ha with
    | ⟨0, _⟩, _ => rfl
    | ⟨1, _⟩, _ => rfl
    | ⟨2, _⟩, ha => exact absurd rfl ha
    | ⟨3, _⟩, _ => rfl
    | ⟨4, _⟩, _ => rfl
  · rfl

theorem v19_piece8 (x0 : (⟨S16x64x56x56, .f32⟩ : BufTy).Contents (Elt F)) (b : Fin 16) (ch : Fin 64) (i j : Fin 56) :
    val_main_v19 (F := F) x0 (ix5 b ch (8 : Fin 9) i j) = val_main_v18 (F := F) x0 (ix5 b ch (0 : Fin 1) i j) := by
  unfold val_main_v19
  refine concatenate_apply_piece (2 : Fin 5) _ _ (ix5 b ch (8 : Fin 9) i j) 8 ?_ S16x64x1x56x56 _ ?_ rfl 8 ?_
    (ix5 b ch (0 : Fin 1) i j) ?_ ?_
  · show (8 : Nat) < 9; omega
  · rfl
  · rfl
  · intro a ha
    match a, ha with
    | ⟨0, _⟩, _ => rfl
    | ⟨1, _⟩, _ => rfl
    | ⟨2, _⟩, ha => exact absurd rfl ha
    | ⟨3, _⟩, _ => rfl
    | ⟨4, _⟩, _ => rfl
  · rfl

/-- The nine shifted windows stacked along one axis, read at window `r`: the padded input at the offset
    `(r / 3, r % 3)` from the pixel. -/
theorem v19_apply (x0 : (⟨S16x64x56x56, .f32⟩ : BufTy).Contents (Elt F)) (b : Fin 16) (ch : Fin 64) (r : Fin 9) (i j : Fin 56) :
    val_main_v19 (F := F) x0 (ix5 b ch r i j)
      = val_main_v0 (F := F) x0 (ix4 b ch (⟨i.val + r.val / 3, by have := i.isLt; have := r.isLt; omega⟩ : Fin 58)
          (⟨j.val + r.val % 3, by have := j.isLt; omega⟩ : Fin 58)) :=
  match r with
  | ⟨0, _⟩ =>
    (v19_piece0 x0 b ch i j).trans ((val_main_v10_apply x0 _).trans ((val_main_v1_apply x0 _).trans
      (congrArg (val_main_v0 (F := F) x0) (funext fun a => match a with
        | ⟨0, _⟩ => rfl
        | ⟨1, _⟩ => rfl
        | ⟨2, _⟩ => Fin.ext (by show (i.val : Nat) = i.val + 0 / 3; omega)
        | ⟨3, _⟩ => Fin.ext (by show (j.val : Nat) = j.val + 0 % 3; omega)))))
  | ⟨1, _⟩ =>
    (v19_piece1 x0 b ch i j).trans ((val_main_v11_apply x0 _).trans ((val_main_v2_apply x0 _).trans
      (congrArg (val_main_v0 (F := F) x0) (funext fun a => match a with
        | ⟨0, _⟩ => rfl
        | ⟨1, _⟩ => rfl
        | ⟨2, _⟩ => Fin.ext (by show (i.val : Nat) = i.val + 1 / 3; omega)
        | ⟨3, _⟩ => Fin.ext (by show (1 + j.val : Nat) = j.val + 1 % 3; omega)))))
  | ⟨2, _⟩ =>
    (v19_piece2 x0 b ch i j).trans ((val_main_v12_apply x0 _).trans ((val_main_v3_apply x0 _).trans
      (congrArg (val_main_v0 (F := F) x0) (funext fun a => match a with
        | ⟨0, _⟩ => rfl
        | ⟨1, _⟩ => rfl
        | ⟨2, _⟩ => Fin.ext (by show (i.val : Nat) = i.val + 2 / 3; omega)
        | ⟨3, _⟩ => Fin.ext (by show (2 + j.val : Nat) = j.val + 2 % 3; omega)))))
  | ⟨3, _⟩ =>
    (v19_piece3 x0 b ch i j).trans ((val_main_v13_apply x0 _).trans ((val_main_v4_apply x0 _).trans
      (congrArg (val_main_v0 (F := F) x0) (funext fun a => match a with
        | ⟨0, _⟩ => rfl
        | ⟨1, _⟩ => rfl
        | ⟨2, _⟩ => Fin.ext (by show (1 + i.val : Nat) = i.val + 3 / 3; omega)
        | ⟨3, _⟩ => Fin.ext (by show (j.val : Nat) = j.val + 3 % 3; omega)))))
  | ⟨4, _⟩ =>
    (v19_piece4 x0 b ch i j).trans ((val_main_v14_apply x0 _).trans ((val_main_v5_apply x0 _).trans
      (congrArg (val_main_v0 (F := F) x0) (funext fun a => match a with
        | ⟨0, _⟩ => rfl
        | ⟨1, _⟩ => rfl
        | ⟨2, _⟩ => Fin.ext (by show (1 + i.val : Nat) = i.val + 4 / 3; omega)
        | ⟨3, _⟩ => Fin.ext (by show (1 + j.val : Nat) = j.val + 4 % 3; omega)))))
  | ⟨5, _⟩ =>
    (v19_piece5 x0 b ch i j).trans ((val_main_v15_apply x0 _).trans ((val_main_v6_apply x0 _).trans
      (congrArg (val_main_v0 (F := F) x0) (funext fun a => match a with
        | ⟨0, _⟩ => rfl
        | ⟨1, _⟩ => rfl
        | ⟨2, _⟩ => Fin.ext (by show (1 + i.val : Nat) = i.val + 5 / 3; omega)
        | ⟨3, _⟩ => Fin.ext (by show (2 + j.val : Nat) = j.val + 5 % 3; omega)))))
  | ⟨6, _⟩ =>
    (v19_piece6 x0 b ch i j).trans ((val_main_v16_apply x0 _).trans ((val_main_v7_apply x0 _).trans
      (congrArg (val_main_v0 (F := F) x0) (funext fun a => match a with
        | ⟨0, _⟩ => rfl
        | ⟨1, _⟩ => rfl
        | ⟨2, _⟩ => Fin.ext (by show (2 + i.val : Nat) = i.val + 6 / 3; omega)
        | ⟨3, _⟩ => Fin.ext (by show (j.val : Nat) = j.val + 6 % 3; omega)))))
  | ⟨7, _⟩ =>
    (v19_piece7 x0 b ch i j).trans ((val_main_v17_apply x0 _).trans ((val_main_v8_apply x0 _).trans
      (congrArg (val_main_v0 (F := F) x0) (funext fun a => match a with
        | ⟨0, _⟩ => rfl
        | ⟨1, _⟩ => rfl
        | ⟨2, _⟩ => Fin.ext (by show (2 + i.val : Nat) = i.val + 7 / 3; omega)
        | ⟨3, _⟩ => Fin.ext (by show (1 + j.val : Nat) = j.val + 7 % 3; omega)))))
  | ⟨8, _⟩ =>
    (v19_piece8 x0 b ch i j).trans ((val_main_v18_apply x0 _).trans ((val_main_v9_apply x0 _).trans
      (congrArg (val_main_v0 (F := F) x0) (funext fun a => match a with
        | ⟨0, _⟩ => rfl
        | ⟨1, _⟩ => rfl
        | ⟨2, _⟩ => Fin.ext (by show (2 + i.val : Nat) = i.val + 8 / 3; omega)
        | ⟨3, _⟩ => Fin.ext (by show (2 + j.val : Nat) = j.val + 8 % 3; omega)))))

/-! ## The flattenings, the exchange of axes and the splits, one step at a time -/

/-- Splitting the 576 features of a pixel into 16 codebooks of 36: entry `(n, c, s)` is entry `(n, c · 36 + s)`. -/
theorem v24_to_v23 (x0 : (⟨S16x64x56x56, .f32⟩ : BufTy).Contents (Elt F)) (n : Fin 50176) (c : Fin 16) (s : Fin 36) :
    val_main_v24 (F := F) x0 (ix3 n c s)
      = val_main_v23 (F := F) x0 (ix2 n (⟨c.val * 36 + s.val, by have := c.isLt; have := s.isLt; omega⟩ : Fin 576)) := by
  refine (val_main_v24_apply x0 _).trans (congrArg (val_main_v23 (F := F) x0) ?_)
  have hn := n.isLt; have hc := c.isLt; have hs := s.isLt
  funext a
  match a with
  | ⟨0, _⟩ => exact Fin.ext (by show ((n.val * 16 + c.val) * 36 + s.val) / 576 = n.val; omega)
  | ⟨1, _⟩ => exact Fin.ext (by show ((n.val * 16 + c.val) * 36 + s.val) % 576 = c.val * 36 + s.val; omega)

/-- Merging the image axis with the pixel axis: row `b · 3136 + p` is pixel `p` of image `b`. -/
theorem v23_to_v22 (x0 : (⟨S16x64x56x56, .f32⟩ : BufTy).Contents (Elt F)) (b : Fin 16) (i j : Fin 56) (f : Fin 576) :
    val_main_v23 (F := F) x0 (ix2 (gpix b i j) f) = val_main_v22 (F := F) x0 (ix3 b (pix i j) f) := by
  refine (val_main_v23_apply x0 _).trans (congrArg (val_main_v22 (F := F) x0) ?_)
  have hb := b.isLt; have hi := i.isLt; have hj := j.isLt; have hf := f.isLt
  funext a
  match a with
  | ⟨0, _⟩ => exact Fin.ext (by show ((b.val * 3136 + i.val * 56 + j.val) * 576 + f.val) / 1806336 = b.val; omega)
  | ⟨1, _⟩ => exact Fin.ext (by show ((b.val * 3136 + i.val * 56 + j.val) * 576 + f.val) / 576 % 3136 = i.val * 56 + j.val; omega)
  | ⟨2, _⟩ => exact Fin.ext (by show ((b.val * 3136 + i.val * 56 + j.val) * 576 + f.val) % 576 = f.val; omega)

/-- Exchanging the feature axis and the pixel axis. -/
theorem v22_to_v21 (x0 : (⟨S16x64x56x56, .f32⟩ : BufTy).Contents (Elt F)) (b : Fin 16) (p : Fin 3136) (f : Fin 576) :
    val_main_v22 (F := F) x0 (ix3 b p f) = val_main_v21 (F := F) x0 (ix3 b f p) := by
  refine (val_main_v22_apply x0 _).trans (congrArg (val_main_v21 (F := F) x0) ?_)
  funext a
  match a with
  | ⟨0, _⟩ => rfl
  | ⟨1, _⟩ => rfl
  | ⟨2, _⟩ => rfl

/-- Splitting the pixel axis into rows and columns: pixel `i · 56 + j` is `(i, j)`. -/
theorem v21_to_v20 (x0 : (⟨S16x64x56x56, .f32⟩ : BufTy).Contents (Elt F)) (b : Fin 16) (f : Fin 576) (i j : Fin 56) :
    val_main_v21 (F := F) x0 (ix3 b f (pix i j)) = val_main_v20 (F := F) x0 (ix4 b f i j) := by
  refine (val_main_v21_apply x0 _).trans (congrArg (val_main_v20 (F := F) x0) ?_)
  have hb := b.isLt; have hi := i.isLt; have hj := j.isLt; have hf := f.isLt
  funext a
  match a with
  | ⟨0, _⟩ => exact Fin.ext (by show ((b.val * 576 + f.val) * 3136 + (i.val * 56 + j.val)) / 1806336 = b.val; omega)
  | ⟨1, _⟩ => exact Fin.ext (by show ((b.val * 576 + f.val) * 3136 + (i.val * 56 + j.val)) / 3136 % 576 = f.val; omega)
  | ⟨2, _⟩ => exact Fin.ext (by show ((b.val * 576 + f.val) * 3136 + (i.val * 56 + j.val)) / 56 % 56 = i.val; omega)
  | ⟨3, _⟩ => exact Fin.ext (by show ((b.val * 576 + f.val) * 3136 + (i.val * 56 + j.val)) % 56 = j.val; omega)

/-- Splitting the feature axis into channel and window: feature `f` is window `f % 9` of channel `f / 9`. -/
theorem v20_to_v19 (x0 : (⟨S16x64x56x56, .f32⟩ : BufTy).Contents (Elt F)) (b : Fin 16) (f : Fin 576) (i j : Fin 56) :
    val_main_v20 (F := F) x0 (ix4 b f i j)
      = val_main_v19 (F := F) x0 (ix5 b (⟨f.val / 9, by have := f.isLt; omega⟩ : Fin 64)
          (⟨f.val % 9, Nat.mod_lt _ (by norm_num)⟩ : Fin 9) i j) := by
  refine (val_main_v20_apply x0 _).trans (congrArg (val_main_v19 (F := F) x0) ?_)
  have hb := b.isLt; have hi := i.isLt; have hj := j.isLt; have hf := f.isLt
  funext a
  match a with
  | ⟨0, _⟩ => exact Fin.ext (by show (((b.val * 576 + f.val) * 56 + i.val) * 56 + j.val) / 1806336 = b.val; omega)
  | ⟨1, _⟩ => exact Fin.ext (by show (((b.val * 576 + f.val) * 56 + i.val) * 56 + j.val) / 28224 % 64 = f.val / 9; omega)
  | ⟨2, _⟩ => exact Fin.ext (by show (((b.val * 576 + f.val) * 56 + i.val) * 56 + j.val) / 3136 % 9 = f.val % 9; omega)
  | ⟨3, _⟩ => exact Fin.ext (by show (((b.val * 576 + f.val) * 56 + i.val) * 56 + j.val) / 56 % 56 = i.val; omega)
  | ⟨4, _⟩ => exact Fin.ext (by show (((b.val * 576 + f.val) * 56 + i.val) * 56 + j.val) % 56 = j.val; omega)

/-- The feature array at pixel `(b, i, j)`, codebook `c`, feature `s`: the padded input at channel `f / 9`, row
    `i + (f % 9) / 3`, column `j + f % 3`, for `f = c · 36 + s`. -/
theorem val_v24_apply (x0 : (⟨S16x64x56x56, .f32⟩ : BufTy).Contents (Elt F)) (b : Fin 16) (i j : Fin 56) (c : Fin 16) (s : Fin 36) :
    val_main_v24 (F := F) x0 (ix3 (gpix b i j) c s) = val_main_v0 (F := F) x0 (featIdx b i j c s) := by
  refine (v24_to_v23 x0 (gpix b i j) c s).trans ((v23_to_v22 x0 b i j _).trans ((v22_to_v21 x0 b (pix i j) _).trans
    ((v21_to_v20 x0 b _ i j).trans ((v20_to_v19 x0 b _ i j).trans ((v19_apply x0 b _ _ i j).trans
      (congrArg (val_main_v0 (F := F) x0) ?_))))))
  have hc := c.isLt; have hs := s.isLt
  funext a
  match a with
  | ⟨0, _⟩ => rfl
  | ⟨1, _⟩ => rfl
  | ⟨2, _⟩ => rfl
  | ⟨3, _⟩ => exact Fin.ext (by show j.val + (c.val * 36 + s.val) % 9 % 3 = j.val + (c.val * 36 + s.val) % 3; omega)

end Cert.Madd.RefLayout

end
-- ==== Proof.RefTree.lean ====
/-
  The reference program read at one output element (b, o, i, j).

  Pixel (i, j) of image b is row n = b · 3136 + i · 56 + j of the flattened pixel list. For each of the sixteen
  codebooks c the reference walks the four levels of the tree with real gathers: at level t it gathers the feature at
  (n, c, idx[c, t]) and the threshold at (c, t, bucket so far), and the bucket becomes 2 · bucket + [feature ≥ threshold];
  then it gathers row (c, final bucket) of the lookup tables, sums the sixteen rows' entry o onto 0 and adds the bias.

  Every gather's start index passes through two guards before it is used: a negative index is wrapped by adding the
  axis' extent, and the result is read as a signed integer and clamped into the axis. Both are the identity here: the
  codebook's number is below 16, the index table's entries are below 36 by hypothesis, and the bucket after t levels is
  below 2^t. So each gather reads exactly the entry its start index names, which is `pick` of that table at that word,
  and the four levels compose to `enc1 … enc4`, the sum to `outpix`.

  The file proves, in order: the two guards are the identity on in-range words; each of the three gathers read at an
  index; the joined start-index columns read column by column; one block per level (the start indices' columns, the
  gathered feature, the gathered threshold, the new bucket); the lookup gather, the sum and the bias.
-/
import proofs.«431186_j62904091018010_1_alg».proof.Proof.RefRead
import proofs.«431186_j62904091018010_1_alg».proof.Proof.Spec
import Idealize.ShloMosaic.Lib.ValueIdx
import Idealize.ShloMosaic.Lib.Pipeline.Value
import Idealize.ShloMosaic.PureOps.Ideal.Laws

noncomputable section

open scoped BigOperators

namespace Cert.Madd.RefTree

open Cert.ReferenceIdeal Cert.ReferenceIdeal.Read Idealize.ShloMosaic Idealize.ShloMosaic.ValueIdx Cert.Madd

/-- A word below 2^31 reads the same signed and unsigned. -/
theorem toInt_of_lt (w : BitVec 32) (h : w.toNat < 2 ^ 31) : w.toInt = (w.toNat : Int) := by
  rw [BitVec.toInt_eq_toNat_cond, if_pos (by omega)]

/-- The negative-index wrap "w < 0 ? w + k : w" is the identity on a word that reads non-negative. -/
theorem wrap_id (w k : BitVec 32) (h : w.toNat < 2 ^ 31) :
    Scalar.select (IntOp.cmpi .slt w 0#32) (IntOp.addi w k) w = w := by
  have h0 : IntOp.cmpi .slt w 0#32 = 0#1 := by
    unfold IntOp.cmpi
    have : w.slt 0#32 = false := by
      rw [BitVec.slt, toInt_of_lt w h]; simp
    rw [this]; rfl
  rw [h0]; exact select_zero _ _

/-- Clamping a word that is already inside the axis changes nothing. -/
theorem clamp_id (w : BitVec 32) (M : Nat) (hM : M < 2 ^ 31) (h : w.toNat ≤ M) : min w.toInt.toNat M = w.toNat := by
  rw [toInt_of_lt w (by omega)]; simp; omega

/-- A number below 2^31, made a word, reads back as itself. -/
theorem ofNat_toNat_lt (k N : Nat) (hN : N ≤ 2 ^ 31) (hk : k < N) : (BitVec.ofNat 32 k).toNat = k := by
  rw [BitVec.toNat_ofNat]; omega

/-- A number below 2^31, made a word, reads non-negative. -/
theorem ofNat_small (k : Nat) (hk : k < 2 ^ 31) : (BitVec.ofNat 32 k).toNat < 2 ^ 31 := by
  rw [BitVec.toNat_ofNat]; omega

/-- The feature gather at a result index: the operand at the pixel, at the codebook and the feature the two start
    indices name (each read signed and clamped into its axis). -/
theorem gather_feat_apply {α : Type} (x : S50176x16x36.Idx → α) (idx : IVec S16x2 32) (n : Fin 50176) (c : Fin 16) :
    Host.gather gather_S50176x16x36_S16x2_S50176x16_0_12_n_n_12_1_5017611 x idx (ix2 n c)
      = x (ix3 n ⟨min (idx (ix2 c 0)).toInt.toNat 15, by omega⟩ ⟨min (idx (ix2 c 1)).toInt.toNat 35, by omega⟩) := by
  unfold Host.gather
  congr 1
  funext a
  refine Fin.ext ?_
  match a with
  | ⟨0, _⟩ =>
    show GatherDims.start gather_S50176x16x36_S16x2_S50176x16_0_12_n_n_12_1_5017611 (ix2 n c) idx (0 : Fin 3) + GatherDims.batchCoord gather_S50176x16x36_S16x2_S50176x16_0_12_n_n_12_1_5017611 (ix2 n c) (0 : Fin 3) + GatherDims.offCoord gather_S50176x16x36_S16x2_S50176x16_0_12_n_n_12_1_5017611 (ix2 n c) (0 : Fin 3) = _
    rw [GatherDims.batchCoord_eq_zero _ _ _ List.not_mem_nil]
    unfold GatherDims.start GatherDims.offCoord
    rw [dif_neg (by decide), dif_pos (by decide)]
    have h : ∀ (p : List.idxOf (0 : Fin 3) gather_S50176x16x36_S16x2_S50176x16_0_12_n_n_12_1_5017611.sKept < gather_S50176x16x36_S16x2_S50176x16_0_12_n_n_12_1_5017611.offsetDims.length),
        gather_S50176x16x36_S16x2_S50176x16_0_12_n_n_12_1_5017611.offsetDims[List.idxOf (0 : Fin 3) gather_S50176x16x36_S16x2_S50176x16_0_12_n_n_12_1_5017611.sKept]'p = (0 : Fin 2) := by decide
    rw [h]
    simp
  | ⟨1, _⟩ =>
    show GatherDims.start gather_S50176x16x36_S16x2_S50176x16_0_12_n_n_12_1_5017611 (ix2 n c) idx (1 : Fin 3) + GatherDims.batchCoord gather_S50176x16x36_S16x2_S50176x16_0_12_n_n_12_1_5017611 (ix2 n c) (1 : Fin 3) + GatherDims.offCoord gather_S50176x16x36_S16x2_S50176x16_0_12_n_n_12_1_5017611 (ix2 n c) (1 : Fin 3) = _
    rw [GatherDims.batchCoord_eq_zero _ _ _ List.not_mem_nil]
    unfold GatherDims.start GatherDims.offCoord
    rw [dif_pos (by decide), dif_neg (by decide)]
    have hsi : gather_S50176x16x36_S16x2_S50176x16_0_12_n_n_12_1_5017611.siIdx (ix2 n c)
        ⟨List.idxOf (1 : Fin 3) gather_S50176x16x36_S16x2_S50176x16_0_12_n_n_12_1_5017611.startIndexMap, List.idxOf_lt_length_iff.2 (by decide)⟩ = ix2 c 0 := by
      funext b; refine Fin.ext ?_
      match b with
      | ⟨0, _⟩ => rfl
      | ⟨1, _⟩ => rfl
    rw [hsi]
    rfl
  | ⟨2, _⟩ =>
    show GatherDims.start gather_S50176x16x36_S16x2_S50176x16_0_12_n_n_12_1_5017611 (ix2 n c) idx (2 : Fin 3) + GatherDims.batchCoord gather_S50176x16x36_S16x2_S50176x16_0_12_n_n_12_1_5017611 (ix2 n c) (2 : Fin 3) + GatherDims.offCoord gather_S50176x16x36_S16x2_S50176x16_0_12_n_n_12_1_5017611 (ix2 n c) (2 : Fin 3) = _
    rw [GatherDims.batchCoord_eq_zero _ _ _ List.not_mem_nil]
    unfold GatherDims.start GatherDims.offCoord
    rw [dif_pos (by decide), dif_neg (by decide)]
    have hsi : gather_S50176x16x36_S16x2_S50176x16_0_12_n_n_12_1_5017611.siIdx (ix2 n c)
        ⟨List.idxOf (2 : Fin 3) gather_S50176x16x36_S16x2_S50176x16_0_12_n_n_12_1_5017611.startIndexMap, List.idxOf_lt_length_iff.2 (by decide)⟩ = ix2 c 1 := by
      funext b; refine Fin.ext ?_
      match b with
      | ⟨0, _⟩ => rfl
      | ⟨1, _⟩ => rfl
    rw [hsi]
    rfl

/-- The threshold gather at a result index: the operand at the three start indices (each read signed and clamped). -/
theorem gather_thr_apply {α : Type} (x : S16x4x8.Idx → α) (idx : IVec S50176x16x3 32) (n : Fin 50176) (c : Fin 16) :
    Host.gather gather_S16x4x8_S50176x16x3_S50176x16_n_012_n_n_012_2_111 x idx (ix2 n c)
      = x (ix3 ⟨min (idx (ix3 n c 0)).toInt.toNat 15, by omega⟩ ⟨min (idx (ix3 n c 1)).toInt.toNat 3, by omega⟩
          ⟨min (idx (ix3 n c 2)).toInt.toNat 7, by omega⟩) := by
  unfold Host.gather
  congr 1
  funext a
  refine Fin.ext ?_
  match a with
  | ⟨0, _⟩ =>
    show GatherDims.start gather_S16x4x8_S50176x16x3_S50176x16_n_012_n_n_012_2_111 (ix2 n c) idx (0 : Fin 3) + GatherDims.batchCoord gather_S16x4x8_S50176x16x3_S50176x16_n_012_n_n_012_2_111 (ix2 n c) (0 : Fin 3) + GatherDims.offCoord gather_S16x4x8_S50176x16x3_S50176x16_n_012_n_n_012_2_111 (ix2 n c) (0 : Fin 3) = _
    rw [GatherDims.batchCoord_eq_zero _ _ _ List.not_mem_nil]
    unfold GatherDims.start GatherDims.offCoord
    rw [dif_pos (by decide), dif_neg (by decide)]
    have hsi : gather_S16x4x8_S50176x16x3_S50176x16_n_012_n_n_012_2_111.siIdx (ix2 n c)
        ⟨List.idxOf (0 : Fin 3) gather_S16x4x8_S50176x16x3_S50176x16_n_012_n_n_012_2_111.startIndexMap, List.idxOf_lt_length_iff.2 (by decide)⟩ = ix3 n c 0 := by
      funext b; refine Fin.ext ?_
      match b with
      | ⟨0, _⟩ => rfl
      | ⟨1, _⟩ => rfl
      | ⟨2, _⟩ => rfl
    rw [hsi]
    rfl
  | ⟨1, _⟩ =>
    show GatherDims.start gather_S16x4x8_S50176x16x3_S50176x16_n_012_n_n_012_2_111 (ix2 n c) idx (1 : Fin 3) + GatherDims.batchCoord gather_S16x4x8_S50176x16x3_S50176x16_n_012_n_n_012_2_111 (ix2 n c) (1 : Fin 3) + GatherDims.offCoord gather_S16x4x8_S50176x16x3_S50176x16_n_012_n_n_012_2_111 (ix2 n c) (1 : Fin 3) = _
    rw [GatherDims.batchCoord_eq_zero _ _ _ List.not_mem_nil]
    unfold GatherDims.start GatherDims.offCoord
    rw [dif_pos (by decide), dif_neg (by decide)]
    have hsi : gather_S16x4x8_S50176x16x3_S50176x16_n_012_n_n_012_2_111.siIdx (ix2 n c)
        ⟨List.idxOf (1 : Fin 3) gather_S16x4x8_S50176x16x3_S50176x16_n_012_n_n_012_2_111.startIndexMap, List.idxOf_lt_length_iff.2 (by decide)⟩ = ix3 n c 1 := by
      funext b; refine Fin.ext ?_
      match b with
      | ⟨0, _⟩ => rfl
      | ⟨1, _⟩ => rfl
      | ⟨2, _⟩ => rfl
    rw [hsi]
    rfl
  | ⟨2, _⟩ =>
    show GatherDims.start gather_S16x4x8_S50176x16x3_S50176x16_n_012_n_n_012_2_111 (ix2 n c) idx (2 : Fin 3) + GatherDims.batchCoord gather_S16x4x8_S50176x16x3_S50176x16_n_012_n_n_012_2_111 (ix2 n c) (2 : Fin 3) + GatherDims.offCoord gather_S16x4x8_S50176x16x3_S50176x16_n_012_n_n_012_2_111 (ix2 n c) (2 : Fin 3) = _
    rw [GatherDims.batchCoord_eq_zero _ _ _ List.not_mem_nil]
    unfold GatherDims.start GatherDims.offCoord
    rw [dif_pos (by decide), dif_neg (by decide)]
    have hsi : gather_S16x4x8_S50176x16x3_S50176x16_n_012_n_n_012_2_111.siIdx (ix2 n c)
        ⟨List.idxOf (2 : Fin 3) gather_S16x4x8_S50176x16x3_S50176x16_n_012_n_n_012_2_111.startIndexMap, List.idxOf_lt_length_iff.2 (by decide)⟩ = ix3 n c 2 := by
      funext b; refine Fin.ext ?_
      match b with
      | ⟨0, _⟩ => rfl
      | ⟨1, _⟩ => rfl
      | ⟨2, _⟩ => rfl
    rw [hsi]
    rfl

/-- The lookup-row gather at a result index: the operand at the two start indices (each read signed and clamped) and at
    the output channel. -/
theorem gather_lut_apply {α : Type} (x : S16x16x64.Idx → α) (idx : IVec S50176x16x2 32) (n : Fin 50176) (c : Fin 16) (o : Fin 64) :
    Host.gather gather_S16x16x64_S50176x16x2_S50176x16x64_2_01_n_n_01_2_1164 x idx (ix3 n c o)
      = x (ix3 ⟨min (idx (ix3 n c 0)).toInt.toNat 15, by omega⟩ ⟨min (idx (ix3 n c 1)).toInt.toNat 15, by omega⟩ o) := by
  unfold Host.gather
  congr 1
  funext a
  refine Fin.ext ?_
  match a with
  | ⟨0, _⟩ =>
    show GatherDims.start gather_S16x16x64_S50176x16x2_S50176x16x64_2_01_n_n_01_2_1164 (ix3 n c o) idx (0 : Fin 3) + GatherDims.batchCoord gather_S16x16x64_S50176x16x2_S50176x16x64_2_01_n_n_01_2_1164 (ix3 n c o) (0 : Fin 3) + GatherDims.offCoord gather_S16x16x64_S50176x16x2_S50176x16x64_2_01_n_n_01_2_1164 (ix3 n c o) (0 : Fin 3) = _
    rw [GatherDims.batchCoord_eq_zero _ _ _ List.not_mem_nil]
    unfold GatherDims.start GatherDims.offCoord
    rw [dif_pos (by decide), dif_neg (by decide)]
    have hsi : gather_S16x16x64_S50176x16x2_S50176x16x64_2_01_n_n_01_2_1164.siIdx (ix3 n c o)
        ⟨List.idxOf (0 : Fin 3) gather_S16x16x64_S50176x16x2_S50176x16x64_2_01_n_n_01_2_1164.startIndexMap, List.idxOf_lt_length_iff.2 (by decide)⟩ = ix3 n c 0 := by
      funext b; refine Fin.ext ?_
      match b with
      | ⟨0, _⟩ => rfl
      | ⟨1, _⟩ => rfl
      | ⟨2, _⟩ => rfl
    rw [hsi]
    rfl
  | ⟨1, _⟩ =>
    show GatherDims.start gather_S16x16x64_S50176x16x2_S50176x16x64_2_01_n_n_01_2_1164 (ix3 n c o) idx (1 : Fin 3) + GatherDims.batchCoord gather_S16x16x64_S50176x16x2_S50176x16x64_2_01_n_n_01_2_1164 (ix3 n c o) (1 : Fin 3) + GatherDims.offCoord gather_S16x16x64_S50176x16x2_S50176x16x64_2_01_n_n_01_2_1164 (ix3 n c o) (1 : Fin 3) = _
    rw [GatherDims.batchCoord_eq_zero _ _ _ List.not_mem_nil]
    unfold GatherDims.start GatherDims.offCoord
    rw [dif_pos (by decide), dif_neg (by decide)]
    have hsi : gather_S16x16x64_S50176x16x2_S50176x16x64_2_01_n_n_01_2_1164.siIdx (ix3 n c o)
        ⟨List.idxOf (1 : Fin 3) gather_S16x16x64_S50176x16x2_S50176x16x64_2_01_n_n_01_2_1164.startIndexMap, List.idxOf_lt_length_iff.2 (by decide)⟩ = ix3 n c 1 := by
      funext b; refine Fin.ext ?_
      match b with
      | ⟨0, _⟩ => rfl
      | ⟨1, _⟩ => rfl
      | ⟨2, _⟩ => rfl
    rw [hsi]
    rfl
  | ⟨2, _⟩ =>
    show GatherDims.start gather_S16x16x64_S50176x16x2_S50176x16x64_2_01_n_n_01_2_1164 (ix3 n c o) idx (2 : Fin 3) + GatherDims.batchCoord gather_S16x16x64_S50176x16x2_S50176x16x64_2_01_n_n_01_2_1164 (ix3 n c o) (2 : Fin 3) + GatherDims.offCoord gather_S16x16x64_S50176x16x2_S50176x16x64_2_01_n_n_01_2_1164 (ix3 n c o) (2 : Fin 3) = _
    rw [GatherDims.batchCoord_eq_zero _ _ _ List.not_mem_nil]
    unfold GatherDims.start GatherDims.offCoord
    rw [dif_neg (by decide), dif_pos (by decide)]
    have h : ∀ (p : List.idxOf (2 : Fin 3) gather_S16x16x64_S50176x16x2_S50176x16x64_2_01_n_n_01_2_1164.sKept < gather_S16x16x64_S50176x16x2_S50176x16x64_2_01_n_n_01_2_1164.offsetDims.length),
        gather_S16x16x64_S50176x16x2_S50176x16x64_2_01_n_n_01_2_1164.offsetDims[List.idxOf (2 : Fin 3) gather_S16x16x64_S50176x16x2_S50176x16x64_2_01_n_n_01_2_1164.sKept]'p = (2 : Fin 3) := by decide
    rw [h]
    simp

/-- The feature gather when its start indices are the codebook itself and a word below 36: the entry that word names
    among the codebook's 36 features at the pixel. -/
theorem gather_feat_pick (x : S50176x16x36.Idx → EReal) (idx : IVec S16x2 32) (n : Fin 50176) (c : Fin 16) (w : BitVec 32)
    (hw : w.toNat < 36) (h0 : idx (ix2 c 0) = BitVec.ofNat 32 c.val) (h1 : idx (ix2 c 1) = w) :
    Host.gather gather_S50176x16x36_S16x2_S50176x16_0_12_n_n_12_1_5017611 x idx (ix2 n c) = pick (fun s => x (ix3 n c s)) w := by
  rw [gather_feat_apply, pick_of_lt _ _ hw]
  refine congrArg x ?_
  funext a; refine Fin.ext ?_
  match a with
  | ⟨0, _⟩ => rfl
  | ⟨1, _⟩ =>
    show min (idx (ix2 c 0)).toInt.toNat 15 = c.val
    have hc := ofNat_toNat_lt c.val 16 (by norm_num) c.isLt
    rw [h0, clamp_id _ 15 (by norm_num) (by omega), hc]
  | ⟨2, _⟩ =>
    show min (idx (ix2 c 1)).toInt.toNat 35 = w.toNat
    rw [h1, clamp_id _ 35 (by norm_num) (by omega)]

/-- The threshold gather when its start indices are the codebook, the level and a bucket below 8: the threshold that
    bucket names among the level's eight. -/
theorem gather_thr_pick (x : S16x4x8.Idx → EReal) (idx : IVec S50176x16x3 32) (n : Fin 50176) (c : Fin 16) (t : Fin 4)
    (e : BitVec 32) (he : e.toNat < 8) (h0 : idx (ix3 n c 0) = BitVec.ofNat 32 c.val)
    (h1 : idx (ix3 n c 1) = BitVec.ofNat 32 t.val) (h2 : idx (ix3 n c 2) = e) :
    Host.gather gather_S16x4x8_S50176x16x3_S50176x16_n_012_n_n_012_2_111 x idx (ix2 n c) = pick (fun k => x (ix3 c t k)) e := by
  rw [gather_thr_apply, pick_of_lt _ _ he]
  refine congrArg x ?_
  funext a; refine Fin.ext ?_
  match a with
  | ⟨0, _⟩ =>
    show min (idx (ix3 n c 0)).toInt.toNat 15 = c.val
    have hc := ofNat_toNat_lt c.val 16 (by norm_num) c.isLt
    rw [h0, clamp_id _ 15 (by norm_num) (by omega), hc]
  | ⟨1, _⟩ =>
    show min (idx (ix3 n c 1)).toInt.toNat 3 = t.val
    have ht := ofNat_toNat_lt t.val 4 (by norm_num) t.isLt
    rw [h1, clamp_id _ 3 (by norm_num) (by omega), ht]
  | ⟨2, _⟩ =>
    show min (idx (ix3 n c 2)).toInt.toNat 7 = e.toNat
    rw [h2, clamp_id _ 7 (by norm_num) (by omega)]

/-- The lookup gather when its start indices are the codebook and a bucket below 16: the entry, at the output channel, of
    the row that bucket names. -/
theorem gather_lut_pick (x : S16x16x64.Idx → EReal) (idx : IVec S50176x16x2 32) (n : Fin 50176) (c : Fin 16) (o : Fin 64)
    (e : BitVec 32) (he : e.toNat < 16) (h0 : idx (ix3 n c 0) = BitVec.ofNat 32 c.val) (h1 : idx (ix3 n c 1) = e) :
    Host.gather gather_S16x16x64_S50176x16x2_S50176x16x64_2_01_n_n_01_2_1164 x idx (ix3 n c o) = pick (fun k => x (ix3 c k o)) e := by
  rw [gather_lut_apply, pick_of_lt _ _ he]
  refine congrArg x ?_
  funext a; refine Fin.ext ?_
  match a with
  | ⟨0, _⟩ =>
    show min (idx (ix3 n c 0)).toInt.toNat 15 = c.val
    have hc := ofNat_toNat_lt c.val 16 (by norm_num) c.isLt
    rw [h0, clamp_id _ 15 (by norm_num) (by omega), hc]
  | ⟨1, _⟩ =>
    show min (idx (ix3 n c 1)).toInt.toNat 15 = e.toNat
    rw [h1, clamp_id _ 15 (by norm_num) (by omega)]
  | ⟨2, _⟩ => rfl

/-- The pair of start-index columns (codebook, feature) joined along the last axis, read at either column. -/
theorem cat2_16 {α : Type} (p q : S16x1.Idx → α) (h : Shape.Concatenates [S16x1, S16x1] S16x2 1) (c : Fin 16) :
    concatenate S16x2 1 [⟨S16x1, p⟩, ⟨S16x1, q⟩] h (ix2 c 0) = p (ix2 c 0)
      ∧ concatenate S16x2 1 [⟨S16x1, p⟩, ⟨S16x1, q⟩] h (ix2 c 1) = q (ix2 c 0) := by
  constructor
  · exact concatenate_pair_apply_left _ _ _ h (ix2 c 0) rfl (ix2 c 0) (fun b => match b with | ⟨0, _⟩ => rfl | ⟨1, _⟩ => rfl)
  · exact concatenate_pair_apply_right _ _ _ h (ix2 c 1) rfl rfl (ix2 c 0)
      (fun b => match b with | ⟨0, _⟩ => fun _ => rfl | ⟨1, _⟩ => fun hb => absurd rfl hb) rfl

/-- The pair of start-index columns (codebook, bucket) of every pixel joined along the last axis, read at either column. -/
theorem cat2_lut {α : Type} (p q : S50176x16x1.Idx → α) (h : Shape.Concatenates [S50176x16x1, S50176x16x1] S50176x16x2 2)
    (n : Fin 50176) (c : Fin 16) :
    concatenate S50176x16x2 2 [⟨S50176x16x1, p⟩, ⟨S50176x16x1, q⟩] h (ix3 n c 0) = p (ix3 n c 0)
      ∧ concatenate S50176x16x2 2 [⟨S50176x16x1, p⟩, ⟨S50176x16x1, q⟩] h (ix3 n c 1) = q (ix3 n c 0) := by
  constructor
  · exact concatenate_pair_apply_left _ _ _ h (ix3 n c 0) rfl (ix3 n c 0)
      (fun b => match b with | ⟨0, _⟩ => rfl | ⟨1, _⟩ => rfl | ⟨2, _⟩ => rfl)
  · exact concatenate_pair_apply_right _ _ _ h (ix3 n c 1) rfl rfl (ix3 n c 0)
      (fun b => match b with | ⟨0, _⟩ => fun _ => rfl | ⟨1, _⟩ => fun _ => rfl | ⟨2, _⟩ => fun hb => absurd rfl hb) rfl

/-- The three start-index columns (codebook, level, bucket) of every pixel joined along the last axis, read at each. -/
theorem cat3_thr {α : Type} (p q r : S50176x16x1.Idx → α)
    (h : Shape.Concatenates [S50176x16x1, S50176x16x1, S50176x16x1] S50176x16x3 2) (n : Fin 50176) (c : Fin 16) :
    concatenate S50176x16x3 2 [⟨S50176x16x1, p⟩, ⟨S50176x16x1, q⟩, ⟨S50176x16x1, r⟩] h (ix3 n c 0) = p (ix3 n c 0)
      ∧ concatenate S50176x16x3 2 [⟨S50176x16x1, p⟩, ⟨S50176x16x1, q⟩, ⟨S50176x16x1, r⟩] h (ix3 n c 1) = q (ix3 n c 0)
      ∧ concatenate S50176x16x3 2 [⟨S50176x16x1, p⟩, ⟨S50176x16x1, q⟩, ⟨S50176x16x1, r⟩] h (ix3 n c 2) = r (ix3 n c 0) := by
  refine ⟨?_, ?_, ?_⟩
  · exact concatenate_apply_piece (t := S50176x16x3) (2 : Fin 3) ([⟨S50176x16x1, p⟩, ⟨S50176x16x1, q⟩, ⟨S50176x16x1, r⟩] : List ((s : Shape) × (s.Idx → α))) h (ix3 n c 0) 0 (by simp) S50176x16x1 p rfl rfl 0 rfl (ix3 n c 0)
      (fun b => match b with | ⟨0, _⟩ => fun _ => rfl | ⟨1, _⟩ => fun _ => rfl | ⟨2, _⟩ => fun hb => absurd rfl hb) rfl
  · exact concatenate_apply_piece (t := S50176x16x3) (2 : Fin 3) ([⟨S50176x16x1, p⟩, ⟨S50176x16x1, q⟩, ⟨S50176x16x1, r⟩] : List ((s : Shape) × (s.Idx → α))) h (ix3 n c 1) 1 (by simp) S50176x16x1 q rfl rfl 1 rfl (ix3 n c 0)
      (fun b => match b with | ⟨0, _⟩ => fun _ => rfl | ⟨1, _⟩ => fun _ => rfl | ⟨2, _⟩ => fun hb => absurd rfl hb) rfl
  · exact concatenate_apply_piece (t := S50176x16x3) (2 : Fin 3) ([⟨S50176x16x1, p⟩, ⟨S50176x16x1, q⟩, ⟨S50176x16x1, r⟩] : List ((s : Shape) × (s.Idx → α))) h (ix3 n c 2) 2 (by simp) S50176x16x1 r rfl rfl 2 rfl (ix3 n c 0)
      (fun b => match b with | ⟨0, _⟩ => fun _ => rfl | ⟨1, _⟩ => fun _ => rfl | ⟨2, _⟩ => fun hb => absurd rfl hb) rfl

/-- Codebook `c`'s four features at pixel `n`: at each level, the entry the index table names among the 36. -/
abbrev feats (x0 : FVec Ideal S16x64x56x56 .f32) (x1 : IVec S16x4 32) (n : Fin 50176) (c : Fin 16) : Fin 4 → EReal :=
  fun t => pick (fun s => val_main_v24 (F := Ideal) x0 (ix3 n c s)) (x1 (ix2 c t))

/-- Codebook `c`'s thresholds. -/
abbrev thrs (x2 : FVec Ideal S16x4x8 .f32) (c : Fin 16) : Fin 4 → Fin 8 → EReal := fun t e => x2 (ix3 c t e)

/-- Before the first level every bucket is 0. -/
theorem bucket0 (n : Fin 50176) (c : Fin 16) : val_main_v26 (F := Ideal) (ix2 n c) = 0#32 := by
  rw [val_main_v26_apply, val_main_c_0_apply]

/-! ### Level 0 of the tree -/

/-- The codebook column of level 0's feature start indices is the codebook's own number. -/
theorem cb0 (c : Fin 16) : val_main_v39 (F := Ideal) (ix2 c 0) = BitVec.ofNat 32 c.val := by
  rw [val_main_v39_apply, val_main_v33_apply, val_main_v30_apply, val_main_v32_apply, val_main_v25_apply, val_main_v29_apply, val_main_v31_apply,
    val_main_c_1_apply, val_main_c_2_apply]
  exact wrap_id (BitVec.ofNat 32 c.val) _ (ofNat_small c.val (by have := c.isLt; omega))

/-- The feature column of level 0's feature start indices is the index table's entry for the level. -/
theorem sp0 (x1 : IVec S16x4 32) (hidx : ∀ (c : Fin 16) (t : Fin 4), (x1 (ix2 c t)).toNat < 36) (c : Fin 16) :
    val_main_v40 (F := Ideal) x1 (ix2 c 0) = x1 (ix2 c 0) := by
  rw [val_main_v40_apply, val_main_v38_apply, val_main_v35_apply, val_main_v37_apply, val_main_v28_apply, val_main_v27_apply, val_main_v34_apply,
    val_main_v36_apply, val_main_c_3_apply, val_main_c_4_apply]
  have hi : idx_main_v27 (idx_main_v28 (idx_main_v40 (ix2 c 0))) = ix2 c 0 := by
    funext a; refine Fin.ext ?_
    match a with
    | ⟨0, _⟩ => exact Nat.div_one _
    | ⟨1, _⟩ => rfl
  rw [hi]
  exact wrap_id _ _ (by have := hidx c 0; omega)

/-- Level 0's feature: the entry the index table names among the codebook's 36 features at the pixel. -/
theorem feat0 (x0 : FVec Ideal S16x64x56x56 .f32) (x1 : IVec S16x4 32) (hidx : ∀ (c : Fin 16) (t : Fin 4), (x1 (ix2 c t)).toNat < 36) (n : Fin 50176) (c : Fin 16) :
    val_main_v42 (F := Ideal) x0 x1 (ix2 n c) = pick (fun s => val_main_v24 (F := Ideal) x0 (ix3 n c s)) (x1 (ix2 c 0)) := by
  unfold val_main_v42
  exact gather_feat_pick _ _ n c _ (hidx c 0)
    ((cat2_16 (val_main_v39 (F := Ideal)) (val_main_v40 (F := Ideal) x1) _ c).1.trans (cb0 c))
    ((cat2_16 (val_main_v39 (F := Ideal)) (val_main_v40 (F := Ideal) x1) _ c).2.trans (sp0 x1 hidx c))

/-- The codebook column of level 0's threshold start indices. -/
theorem tcb0 (n : Fin 50176) (c : Fin 16) : val_main_v57 (F := Ideal) (ix3 n c 0) = BitVec.ofNat 32 c.val := by
  rw [val_main_v57_apply, val_main_v54_apply, val_main_v48_apply, val_main_v45_apply, val_main_v47_apply, val_main_v43_apply, val_main_v25_apply,
    val_main_v44_apply, val_main_v46_apply, val_main_c_5_apply, val_main_c_6_apply]
  exact wrap_id (BitVec.ofNat 32 c.val) _ (ofNat_small c.val (by have := c.isLt; omega))

/-- The level column of level 0's threshold start indices. -/
theorem tlv0 (n : Fin 50176) (c : Fin 16) : val_main_v58 (F := Ideal) (ix3 n c 0) = BitVec.ofNat 32 (0 : Fin 4).val := by
  rw [val_main_v58_apply, val_main_v56_apply, val_main_v55_apply, val_main_c_9_apply]
  rfl

/-- The bucket column of level 0's threshold start indices is the bucket so far, when that reads non-negative. -/
theorem tbk0 (n : Fin 50176) (c : Fin 16) (he : (val_main_v26 (F := Ideal) (ix2 n c)).toNat < 2 ^ 31) :
    val_main_v59 (F := Ideal) (ix3 n c 0) = val_main_v26 (F := Ideal) (ix2 n c) := by
  rw [val_main_v59_apply, val_main_v53_apply, val_main_v50_apply, val_main_v52_apply, val_main_v49_apply, val_main_v51_apply, val_main_c_7_apply,
    val_main_c_8_apply]
  have hi : idx_main_v59 (ix3 n c 0) = ix2 n c := by
    funext a
    match a with
    | ⟨0, _⟩ => rfl
    | ⟨1, _⟩ => rfl
  rw [hi]
  exact wrap_id _ _ he

/-- Level 0's threshold: the one the bucket so far names among the level's eight. -/
theorem thr0 (x2 : FVec Ideal S16x4x8 .f32) (n : Fin 50176) (c : Fin 16) (he : (val_main_v26 (F := Ideal) (ix2 n c)).toNat < 8) :
    val_main_v61 (F := Ideal) x2 (ix2 n c) = pick (fun k => x2 (ix3 c (0 : Fin 4) k)) (val_main_v26 (F := Ideal) (ix2 n c)) := by
  unfold val_main_v61
  exact gather_thr_pick _ _ n c 0 _ he
    ((cat3_thr (val_main_v57 (F := Ideal)) (val_main_v58 (F := Ideal)) (val_main_v59 (F := Ideal)) _ n c).1.trans (tcb0 n c))
    ((cat3_thr (val_main_v57 (F := Ideal)) (val_main_v58 (F := Ideal)) (val_main_v59 (F := Ideal)) _ n c).2.1.trans (tlv0 n c))
    ((cat3_thr (val_main_v57 (F := Ideal)) (val_main_v58 (F := Ideal)) (val_main_v59 (F := Ideal)) _ n c).2.2.trans
      (tbk0 n c (by omega)))

/-- The bucket after level 0. -/
theorem lvl0 (x0 : FVec Ideal S16x64x56x56 .f32) (x1 : IVec S16x4 32) (x2 : FVec Ideal S16x4x8 .f32) (hidx : ∀ (c : Fin 16) (t : Fin 4), (x1 (ix2 c t)).toNat < 36) (n : Fin 50176) (c : Fin 16) :
    val_main_v66 (F := Ideal) x0 x1 x2 (ix2 n c) = enc1 (feats x0 x1 n c) (thrs x2 c) := by
  have hp : val_main_v26 (F := Ideal) (ix2 n c) = 0#32 := (bucket0 n c)
  rw [val_main_v66_apply, val_main_v63_apply, val_main_v65_apply, val_main_v64_apply, val_main_v62_apply, val_main_c_10_apply,
    feat0 x0 x1 hidx n c, thr0 x2 n c (by rw [hp]; exact (by decide)), hp]
  rfl

/-! ### Level 1 of the tree -/

/-- The codebook column of level 1's feature start indices is the codebook's own number. -/
theorem cb1 (c : Fin 16) : val_main_v79 (F := Ideal) (ix2 c 0) = BitVec.ofNat 32 c.val := by
  rw [val_main_v79_apply, val_main_v73_apply, val_main_v70_apply, val_main_v72_apply, val_main_v25_apply, val_main_v69_apply, val_main_v71_apply,
    val_main_c_11_apply, val_main_c_12_apply]
  exact wrap_id (BitVec.ofNat 32 c.val) _ (ofNat_small c.val (by have := c.isLt; omega))

/-- The feature column of level 1's feature start indices is the index table's entry for the level. -/
theorem sp1 (x1 : IVec S16x4 32) (hidx : ∀ (c : Fin 16) (t : Fin 4), (x1 (ix2 c t)).toNat < 36) (c : Fin 16) :
    val_main_v80 (F := Ideal) x1 (ix2 c 0) = x1 (ix2 c 1) := by
  rw [val_main_v80_apply, val_main_v78_apply, val_main_v75_apply, val_main_v77_apply, val_main_v68_apply, val_main_v67_apply, val_main_v74_apply,
    val_main_v76_apply, val_main_c_13_apply, val_main_c_14_apply]
  have hi : idx_main_v67 (idx_main_v68 (idx_main_v80 (ix2 c 0))) = ix2 c 1 := by
    funext a; refine Fin.ext ?_
    match a with
    | ⟨0, _⟩ => exact Nat.div_one _
    | ⟨1, _⟩ => rfl
  rw [hi]
  exact wrap_id _ _ (by have := hidx c 1; omega)

/-- Level 1's feature: the entry the index table names among the codebook's 36 features at the pixel. -/
theorem feat1 (x0 : FVec Ideal S16x64x56x56 .f32) (x1 : IVec S16x4 32) (hidx : ∀ (c : Fin 16) (t : Fin 4), (x1 (ix2 c t)).toNat < 36) (n : Fin 50176) (c : Fin 16) :
    val_main_v82 (F := Ideal) x0 x1 (ix2 n c) = pick (fun s => val_main_v24 (F := Ideal) x0 (ix3 n c s)) (x1 (ix2 c 1)) := by
  unfold val_main_v82
  exact gather_feat_pick _ _ n c _ (hidx c 1)
    ((cat2_16 (val_main_v79 (F := Ideal)) (val_main_v80 (F := Ideal) x1) _ c).1.trans (cb1 c))
    ((cat2_16 (val_main_v79 (F := Ideal)) (val_main_v80 (F := Ideal) x1) _ c).2.trans (sp1 x1 hidx c))

/-- The codebook column of level 1's threshold start indices. -/
theorem tcb1 (n : Fin 50176) (c : Fin 16) : val_main_v97 (F := Ideal) (ix3 n c 0) = BitVec.ofNat 32 c.val := by
  rw [val_main_v97_apply, val_main_v94_apply, val_main_v88_apply, val_main_v85_apply, val_main_v87_apply, val_main_v83_apply, val_main_v25_apply,
    val_main_v84_apply, val_main_v86_apply, val_main_c_15_apply, val_main_c_16_apply]
  exact wrap_id (BitVec.ofNat 32 c.val) _ (ofNat_small c.val (by have := c.isLt; omega))

/-- The level column of level 1's threshold start indices. -/
theorem tlv1 (n : Fin 50176) (c : Fin 16) : val_main_v98 (F := Ideal) (ix3 n c 0) = BitVec.ofNat 32 (1 : Fin 4).val := by
  rw [val_main_v98_apply, val_main_v96_apply, val_main_v95_apply, val_main_c_19_apply]
  rfl

/-- The bucket column of level 1's threshold start indices is the bucket so far, when that reads non-negative. -/
theorem tbk1 (x0 : FVec Ideal S16x64x56x56 .f32) (x1 : IVec S16x4 32) (x2 : FVec Ideal S16x4x8 .f32) (n : Fin 50176) (c : Fin 16) (he : (val_main_v66 (F := Ideal) x0 x1 x2 (ix2 n c)).toNat < 2 ^ 31) :
    val_main_v99 (F := Ideal) x0 x1 x2 (ix3 n c 0) = val_main_v66 (F := Ideal) x0 x1 x2 (ix2 n c) := by
  rw [val_main_v99_apply, val_main_v93_apply, val_main_v90_apply, val_main_v92_apply, val_main_v89_apply, val_main_v91_apply, val_main_c_17_apply,
    val_main_c_18_apply]
  have hi : idx_main_v99 (ix3 n c 0) = ix2 n c := by
    funext a
    match a with
    | ⟨0, _⟩ => rfl
    | ⟨1, _⟩ => rfl
  rw [hi]
  exact wrap_id _ _ he

/-- Level 1's threshold: the one the bucket so far names among the level's eight. -/
theorem thr1 (x0 : FVec Ideal S16x64x56x56 .f32) (x1 : IVec S16x4 32) (x2 : FVec Ideal S16x4x8 .f32) (n : Fin 50176) (c : Fin 16) (he : (val_main_v66 (F := Ideal) x0 x1 x2 (ix2 n c)).toNat < 8) :
    val_main_v101 (F := Ideal) x0 x1 x2 (ix2 n c) = pick (fun k => x2 (ix3 c (1 : Fin 4) k)) (val_main_v66 (F := Ideal) x0 x1 x2 (ix2 n c)) := by
  unfold val_main_v101
  exact gather_thr_pick _ _ n c 1 _ he
    ((cat3_thr (val_main_v97 (F := Ideal)) (val_main_v98 (F := Ideal)) (val_main_v99 (F := Ideal) x0 x1 x2) _ n c).1.trans (tcb1 n c))
    ((cat3_thr (val_main_v97 (F := Ideal)) (val_main_v98 (F := Ideal)) (val_main_v99 (F := Ideal) x0 x1 x2) _ n c).2.1.trans (tlv1 n c))
    ((cat3_thr (val_main_v97 (F := Ideal)) (val_main_v98 (F := Ideal)) (val_main_v99 (F := Ideal) x0 x1 x2) _ n c).2.2.trans
      (tbk1 x0 x1 x2 n c (by omega)))

/-- The bucket after level 1. -/
theorem lvl1 (x0 : FVec Ideal S16x64x56x56 .f32) (x1 : IVec S16x4 32) (x2 : FVec Ideal S16x4x8 .f32) (hidx : ∀ (c : Fin 16) (t : Fin 4), (x1 (ix2 c t)).toNat < 36) (n : Fin 50176) (c : Fin 16) :
    val_main_v106 (F := Ideal) x0 x1 x2 (ix2 n c) = enc2 (feats x0 x1 n c) (thrs x2 c) := by
  have hp : val_main_v66 (F := Ideal) x0 x1 x2 (ix2 n c) = enc1 (feats x0 x1 n c) (thrs x2 c) := (lvl0 x0 x1 x2 hidx n c)
  rw [val_main_v106_apply, val_main_v103_apply, val_main_v105_apply, val_main_v104_apply, val_main_v102_apply, val_main_c_20_apply,
    feat1 x0 x1 hidx n c, thr1 x0 x1 x2 n c (by rw [hp]; exact (by have := enc1_lt (feats x0 x1 n c) (thrs x2 c); omega)), hp]
  rfl

/-! ### Level 2 of the tree -/

/-- The codebook column of level 2's feature start indices is the codebook's own number. -/
theorem cb2 (c : Fin 16) : val_main_v119 (F := Ideal) (ix2 c 0) = BitVec.ofNat 32 c.val := by
  rw [val_main_v119_apply, val_main_v113_apply, val_main_v110_apply, val_main_v112_apply, val_main_v25_apply, val_main_v109_apply, val_main_v111_apply,
    val_main_c_21_apply, val_main_c_22_apply]
  exact wrap_id (BitVec.ofNat 32 c.val) _ (ofNat_small c.val (by have := c.isLt; omega))

/-- The feature column of level 2's feature start indices is the index table's entry for the level. -/
theorem sp2 (x1 : IVec S16x4 32) (hidx : ∀ (c : Fin 16) (t : Fin 4), (x1 (ix2 c t)).toNat < 36) (c : Fin 16) :
    val_main_v120 (F := Ideal) x1 (ix2 c 0) = x1 (ix2 c 2) := by
  rw [val_main_v120_apply, val_main_v118_apply, val_main_v115_apply, val_main_v117_apply, val_main_v108_apply, val_main_v107_apply, val_main_v114_apply,
    val_main_v116_apply, val_main_c_23_apply, val_main_c_24_apply]
  have hi : idx_main_v107 (idx_main_v108 (idx_main_v120 (ix2 c 0))) = ix2 c 2 := by
    funext a; refine Fin.ext ?_
    match a with
    | ⟨0, _⟩ => exact Nat.div_one _
    | ⟨1, _⟩ => rfl
  rw [hi]
  exact wrap_id _ _ (by have := hidx c 2; omega)

/-- Level 2's feature: the entry the index table names among the codebook's 36 features at the pixel. -/
theorem feat2 (x0 : FVec Ideal S16x64x56x56 .f32) (x1 : IVec S16x4 32) (hidx : ∀ (c : Fin 16) (t : Fin 4), (x1 (ix2 c t)).toNat < 36) (n : Fin 50176) (c : Fin 16) :
    val_main_v122 (F := Ideal) x0 x1 (ix2 n c) = pick (fun s => val_main_v24 (F := Ideal) x0 (ix3 n c s)) (x1 (ix2 c 2)) := by
  unfold val_main_v122
  exact gather_feat_pick _ _ n c _ (hidx c 2)
    ((cat2_16 (val_main_v119 (F := Ideal)) (val_main_v120 (F := Ideal) x1) _ c).1.trans (cb2 c))
    ((cat2_16 (val_main_v119 (F := Ideal)) (val_main_v120 (F := Ideal) x1) _ c).2.trans (sp2 x1 hidx c))

/-- The codebook column of level 2's threshold start indices. -/
theorem tcb2 (n : Fin 50176) (c : Fin 16) : val_main_v137 (F := Ideal) (ix3 n c 0) = BitVec.ofNat 32 c.val := by
  rw [val_main_v137_apply, val_main_v134_apply, val_main_v128_apply, val_main_v125_apply, val_main_v127_apply, val_main_v123_apply, val_main_v25_apply,
    val_main_v124_apply, val_main_v126_apply, val_main_c_25_apply, val_main_c_26_apply]
  exact wrap_id (BitVec.ofNat 32 c.val) _ (ofNat_small c.val (by have := c.isLt; omega))

/-- The level column of level 2's threshold start indices. -/
theorem tlv2 (n : Fin 50176) (c : Fin 16) : val_main_v138 (F := Ideal) (ix3 n c 0) = BitVec.ofNat 32 (2 : Fin 4).val := by
  rw [val_main_v138_apply, val_main_v136_apply, val_main_v135_apply, val_main_c_29_apply]
  rfl

/-- The bucket column of level 2's threshold start indices is the bucket so far, when that reads non-negative. -/
theorem tbk2 (x0 : FVec Ideal S16x64x56x56 .f32) (x1 : IVec S16x4 32) (x2 : FVec Ideal S16x4x8 .f32) (n : Fin 50176) (c : Fin 16) (he : (val_main_v106 (F := Ideal) x0 x1 x2 (ix2 n c)).toNat < 2 ^ 31) :
    val_main_v139 (F := Ideal) x0 x1 x2 (ix3 n c 0) = val_main_v106 (F := Ideal) x0 x1 x2 (ix2 n c) := by
  rw [val_main_v139_apply, val_main_v133_apply, val_main_v130_apply, val_main_v132_apply, val_main_v129_apply, val_main_v131_apply, val_main_c_27_apply,
    val_main_c_28_apply]
  have hi : idx_main_v139 (ix3 n c 0) = ix2 n c := by
    funext a
    match a with
    | ⟨0, _⟩ => rfl
    | ⟨1, _⟩ => rfl
  rw [hi]
  exact wrap_id _ _ he

/-- Level 2's threshold: the one the bucket so far names among the level's eight. -/
theorem thr2 (x0 : FVec Ideal S16x64x56x56 .f32) (x1 : IVec S16x4 32) (x2 : FVec Ideal S16x4x8 .f32) (n : Fin 50176) (c : Fin 16) (he : (val_main_v106 (F := Ideal) x0 x1 x2 (ix2 n c)).toNat < 8) :
    val_main_v141 (F := Ideal) x0 x1 x2 (ix2 n c) = pick (fun k => x2 (ix3 c (2 : Fin 4) k)) (val_main_v106 (F := Ideal) x0 x1 x2 (ix2 n c)) := by
  unfold val_main_v141
  exact gather_thr_pick _ _ n c 2 _ he
    ((cat3_thr (val_main_v137 (F := Ideal)) (val_main_v138 (F := Ideal)) (val_main_v139 (F := Ideal) x0 x1 x2) _ n c).1.trans (tcb2 n c))
    ((cat3_thr (val_main_v137 (F := Ideal)) (val_main_v138 (F := Ideal)) (val_main_v139 (F := Ideal) x0 x1 x2) _ n c).2.1.trans (tlv2 n c))
    ((cat3_thr (val_main_v137 (F := Ideal)) (val_main_v138 (F := Ideal)) (val_main_v139 (F := Ideal) x0 x1 x2) _ n c).2.2.trans
      (tbk2 x0 x1 x2 n c (by omega)))

/-- The bucket after level 2. -/
theorem lvl2 (x0 : FVec Ideal S16x64x56x56 .f32) (x1 : IVec S16x4 32) (x2 : FVec Ideal S16x4x8 .f32) (hidx : ∀ (c : Fin 16) (t : Fin 4), (x1 (ix2 c t)).toNat < 36) (n : Fin 50176) (c : Fin 16) :
    val_main_v146 (F := Ideal) x0 x1 x2 (ix2 n c) = enc3 (feats x0 x1 n c) (thrs x2 c) := by
  have hp : val_main_v106 (F := Ideal) x0 x1 x2 (ix2 n c) = enc2 (feats x0 x1 n c) (thrs x2 c) := (lvl1 x0 x1 x2 hidx n c)
  rw [val_main_v146_apply, val_main_v143_apply, val_main_v145_apply, val_main_v144_apply, val_main_v142_apply, val_main_c_30_apply,
    feat2 x0 x1 hidx n c, thr2 x0 x1 x2 n c (by rw [hp]; exact (by have := enc2_lt (feats x0 x1 n c) (thrs x2 c); omega)), hp]
  rfl

/-! ### Level 3 of the tree -/

/-- The codebook column of level 3's feature start indices is the codebook's own number. -/
theorem cb3 (c : Fin 16) : val_main_v159 (F := Ideal) (ix2 c 0) = BitVec.ofNat 32 c.val := by
  rw [val_main_v159_apply, val_main_v153_apply, val_main_v150_apply, val_main_v152_apply, val_main_v25_apply, val_main_v149_apply, val_main_v151_apply,
    val_main_c_31_apply, val_main_c_32_apply]
  exact wrap_id (BitVec.ofNat 32 c.val) _ (ofNat_small c.val (by have := c.isLt; omega))

/-- The feature column of level 3's feature start indices is the index table's entry for the level. -/
theorem sp3 (x1 : IVec S16x4 32) (hidx : ∀ (c : Fin 16) (t : Fin 4), (x1 (ix2 c t)).toNat < 36) (c : Fin 16) :
    val_main_v160 (F := Ideal) x1 (ix2 c 0) = x1 (ix2 c 3) := by
  rw [val_main_v160_apply, val_main_v158_apply, val_main_v155_apply, val_main_v157_apply, val_main_v148_apply, val_main_v147_apply, val_main_v154_apply,
    val_main_v156_apply, val_main_c_33_apply, val_main_c_34_apply]
  have hi : idx_main_v147 (idx_main_v148 (idx_main_v160 (ix2 c 0))) = ix2 c 3 := by
    funext a; refine Fin.ext ?_
    match a with
    | ⟨0, _⟩ => exact Nat.div_one _
    | ⟨1, _⟩ => rfl
  rw [hi]
  exact wrap_id _ _ (by have := hidx c 3; omega)

/-- Level 3's feature: the entry the index table names among the codebook's 36 features at the pixel. -/
theorem feat3 (x0 : FVec Ideal S16x64x56x56 .f32) (x1 : IVec S16x4 32) (hidx : ∀ (c : Fin 16) (t : Fin 4), (x1 (ix2 c t)).toNat < 36) (n : Fin 50176) (c : Fin 16) :
    val_main_v162 (F := Ideal) x0 x1 (ix2 n c) = pick (fun s => val_main_v24 (F := Ideal) x0 (ix3 n c s)) (x1 (ix2 c 3)) := by
  unfold val_main_v162
  exact gather_feat_pick _ _ n c _ (hidx c 3)
    ((cat2_16 (val_main_v159 (F := Ideal)) (val_main_v160 (F := Ideal) x1) _ c).1.trans (cb3 c))
    ((cat2_16 (val_main_v159 (F := Ideal)) (val_main_v160 (F := Ideal) x1) _ c).2.trans (sp3 x1 hidx c))

/-- The codebook column of level 3's threshold start indices. -/
theorem tcb3 (n : Fin 50176) (c : Fin 16) : val_main_v177 (F := Ideal) (ix3 n c 0) = BitVec.ofNat 32 c.val := by
  rw [val_main_v177_apply, val_main_v174_apply, val_main_v168_apply, val_main_v165_apply, val_main_v167_apply, val_main_v163_apply, val_main_v25_apply,
    val_main_v164_apply, val_main_v166_apply, val_main_c_35_apply, val_main_c_36_apply]
  exact wrap_id (BitVec.ofNat 32 c.val) _ (ofNat_small c.val (by have := c.isLt; omega))

/-- The level column of level 3's threshold start indices. -/
theorem tlv3 (n : Fin 50176) (c : Fin 16) : val_main_v178 (F := Ideal) (ix3 n c 0) = BitVec.ofNat 32 (3 : Fin 4).val := by
  rw [val_main_v178_apply, val_main_v176_apply, val_main_v175_apply, val_main_c_39_apply]
  rfl

/-- The bucket column of level 3's threshold start indices is the bucket so far, when that reads non-negative. -/
theorem tbk3 (x0 : FVec Ideal S16x64x56x56 .f32) (x1 : IVec S16x4 32) (x2 : FVec Ideal S16x4x8 .f32) (n : Fin 50176) (c : Fin 16) (he : (val_main_v146 (F := Ideal) x0 x1 x2 (ix2 n c)).toNat < 2 ^ 31) :
    val_main_v179 (F := Ideal) x0 x1 x2 (ix3 n c 0) = val_main_v146 (F := Ideal) x0 x1 x2 (ix2 n c) := by
  rw [val_main_v179_apply, val_main_v173_apply, val_main_v170_apply, val_main_v172_apply, val_main_v169_apply, val_main_v171_apply, val_main_c_37_apply,
    val_main_c_38_apply]
  have hi : idx_main_v179 (ix3 n c 0) = ix2 n c := by
    funext a
    match a with
    | ⟨0, _⟩ => rfl
    | ⟨1, _⟩ => rfl
  rw [hi]
  exact wrap_id _ _ he

/-- Level 3's threshold: the one the bucket so far names among the level's eight. -/
theorem thr3 (x0 : FVec Ideal S16x64x56x56 .f32) (x1 : IVec S16x4 32) (x2 : FVec Ideal S16x4x8 .f32) (n : Fin 50176) (c : Fin 16) (he : (val_main_v146 (F := Ideal) x0 x1 x2 (ix2 n c)).toNat < 8) :
    val_main_v181 (F := Ideal) x0 x1 x2 (ix2 n c) = pick (fun k => x2 (ix3 c (3 : Fin 4) k)) (val_main_v146 (F := Ideal) x0 x1 x2 (ix2 n c)) := by
  unfold val_main_v181
  exact gather_thr_pick _ _ n c 3 _ he
    ((cat3_thr (val_main_v177 (F := Ideal)) (val_main_v178 (F := Ideal)) (val_main_v179 (F := Ideal) x0 x1 x2) _ n c).1.trans (tcb3 n c))
    ((cat3_thr (val_main_v177 (F := Ideal)) (val_main_v178 (F := Ideal)) (val_main_v179 (F := Ideal) x0 x1 x2) _ n c).2.1.trans (tlv3 n c))
    ((cat3_thr (val_main_v177 (F := Ideal)) (val_main_v178 (F := Ideal)) (val_main_v179 (F := Ideal) x0 x1 x2) _ n c).2.2.trans
      (tbk3 x0 x1 x2 n c (by omega)))

/-- The bucket after level 3. -/
theorem lvl3 (x0 : FVec Ideal S16x64x56x56 .f32) (x1 : IVec S16x4 32) (x2 : FVec Ideal S16x4x8 .f32) (hidx : ∀ (c : Fin 16) (t : Fin 4), (x1 (ix2 c t)).toNat < 36) (n : Fin 50176) (c : Fin 16) :
    val_main_v186 (F := Ideal) x0 x1 x2 (ix2 n c) = enc4 (feats x0 x1 n c) (thrs x2 c) := by
  have hp : val_main_v146 (F := Ideal) x0 x1 x2 (ix2 n c) = enc3 (feats x0 x1 n c) (thrs x2 c) := (lvl2 x0 x1 x2 hidx n c)
  rw [val_main_v186_apply, val_main_v183_apply, val_main_v185_apply, val_main_v184_apply, val_main_v182_apply, val_main_c_40_apply,
    feat3 x0 x1 hidx n c, thr3 x0 x1 x2 n c (by rw [hp]; exact (by have := enc3_lt (feats x0 x1 n c) (thrs x2 c); omega)), hp]
  rfl

/-! ### The lookup rows, their sum over the codebooks, and the bias -/

/-- The codebook column of the lookup start indices. -/
theorem lcb (n : Fin 50176) (c : Fin 16) : val_main_v199 (F := Ideal) (ix3 n c 0) = BitVec.ofNat 32 c.val := by
  rw [val_main_v199_apply, val_main_v198_apply, val_main_v192_apply, val_main_v189_apply, val_main_v191_apply,
    val_main_v187_apply, val_main_v25_apply, val_main_v188_apply, val_main_v190_apply, val_main_c_41_apply,
    val_main_c_42_apply]
  exact wrap_id (BitVec.ofNat 32 c.val) _ (ofNat_small c.val (by have := c.isLt; omega))

/-- The bucket column of the lookup start indices is the final bucket, when that reads non-negative. -/
theorem lbk (x0 : FVec Ideal S16x64x56x56 .f32) (x1 : IVec S16x4 32) (x2 : FVec Ideal S16x4x8 .f32) (n : Fin 50176)
    (c : Fin 16) (he : (val_main_v186 (F := Ideal) x0 x1 x2 (ix2 n c)).toNat < 2 ^ 31) :
    val_main_v200 (F := Ideal) x0 x1 x2 (ix3 n c 0) = val_main_v186 (F := Ideal) x0 x1 x2 (ix2 n c) := by
  rw [val_main_v200_apply, val_main_v197_apply, val_main_v194_apply, val_main_v196_apply, val_main_v193_apply,
    val_main_v195_apply, val_main_c_43_apply, val_main_c_44_apply]
  have hi : idx_main_v200 (ix3 n c 0) = ix2 n c := by
    funext a
    match a with
    | ⟨0, _⟩ => rfl
    | ⟨1, _⟩ => rfl
  rw [hi]
  exact wrap_id _ _ he

/-- The gathered lookup entry: at the output channel, the row of the codebook's table that its final bucket names. -/
theorem lut_read (x0 : FVec Ideal S16x64x56x56 .f32) (x1 : IVec S16x4 32) (x2 : FVec Ideal S16x4x8 .f32)
    (x3 : FVec Ideal S16x16x64 .f32) (hidx : ∀ (c : Fin 16) (t : Fin 4), (x1 (ix2 c t)).toNat < 36)
    (n : Fin 50176) (c : Fin 16) (o : Fin 64) :
    val_main_v202 (F := Ideal) x0 x1 x2 x3 (ix3 n c o) = pick (fun k => x3 (ix3 c k o)) (enc4 (feats x0 x1 n c) (thrs x2 c)) := by
  have hp := lvl3 x0 x1 x2 hidx n c
  have hlt := enc4_lt (feats x0 x1 n c) (thrs x2 c)
  rw [← hp]
  unfold val_main_v202
  exact gather_lut_pick _ _ n c o _ (by rw [hp]; exact hlt)
    ((cat2_lut (val_main_v199 (F := Ideal)) (val_main_v200 (F := Ideal) x0 x1 x2) _ n c).1.trans (lcb n c))
    ((cat2_lut (val_main_v199 (F := Ideal)) (val_main_v200 (F := Ideal) x0 x1 x2) _ n c).2.trans
      (lbk x0 x1 x2 n c (by rw [hp]; omega)))

theorem ref_pix (x0 : FVec Ideal S16x64x56x56 .f32) (x1 : IVec S16x4 32) (x2 : FVec Ideal S16x4x8 .f32) (x3 : FVec Ideal S16x16x64 .f32) (x4 : FVec Ideal S64 .f32)
    (hidx : ∀ (c : Fin 16) (t : Fin 4), (x1 (ix2 c t)).toNat < 36) (b : Fin 16) (o : Fin 64) (i j : Fin 56) :
    val_main_v208 (F := Ideal) x0 x1 x2 x3 x4 (ix4 b o i j)
      = outpix (fun c t => pick (fun s => val_main_v24 (F := Ideal) x0 (ix3 (gpix b i j) c s)) (x1 (ix2 c t)))
          (fun c t e => x2 (ix3 c t e)) (fun c k => x3 (ix3 c k o)) (x4 (ix1 o)) := by
  rw [val_main_v208_apply, val_main_v207_apply, val_main_v206_apply, val_main_v203_apply, val_main_v205_apply,
    val_main_v204_apply, val_main_cst_apply]
  have hi : idx_main_v207 (idx_main_v208 (ix4 b o i j)) = ix2 (gpix b i j) o := by
    funext a; refine Fin.ext ?_
    match a with
    | ⟨0, _⟩ =>
      show (((b.val * 56 + i.val) * 56 + j.val) * 64 + o.val) / 64 = b.val * 3136 + i.val * 56 + j.val
      have := o.isLt; omega
    | ⟨1, _⟩ =>
      show (((b.val * 56 + i.val) * 56 + j.val) * 64 + o.val) % 64 = o.val
      have := o.isLt; omega
  rw [hi]
  have hs : ∀ k : Fin 16, val_main_v202 (F := Ideal) x0 x1 x2 x3 (idx_main_v203 (ix2 (gpix b i j) o) k)
      = pick (fun r => x3 (ix3 k r o)) (enc4 (feats x0 x1 (gpix b i j) k) (thrs x2 k)) := by
    intro k
    have hk : idx_main_v203 (ix2 (gpix b i j) o) k = ix3 (gpix b i j) k o := by
      funext a
      match a with
      | ⟨0, _⟩ => rfl
      | ⟨1, _⟩ => rfl
      | ⟨2, _⟩ => rfl
    rw [hk]
    exact lut_read x0 x1 x2 x3 hidx (gpix b i j) k o
  have hb : idx_main_v204 (idx_main_v205 (ix2 (gpix b i j) o)) = ix1 o := by
    funext a
    match a with
    | ⟨0, _⟩ => rfl
  rw [Finset.sum_congr rfl (fun k _ => hs k), hb]
  show (Ideal.ofBits .f32 0x00000000#32 + _) + _ = _
  rw [Ideal.ofBits_zero_f32, zero_add]
  rfl

end Cert.Madd.RefTree

end
-- ==== Proof.KernelLayout.lean ====
/-
  The kernel's unfolded feature block, read at one index.

  From the loaded block of the zero-padded input (one image, 64 channels, 58 × 58 positions) the kernel drops the unit
  axis, moves the channel axis last, takes the nine 56 × 56 windows at the offsets (0,0), (0,1), …, (2,2), flattens the
  two pixel axes of each to one axis of 3136 rows, lays the nine windows side by side along a new last axis, and reads
  the 64 × 9 entries of a row as 576 features, then as 16 codebooks of 36 features.  Following one index through these
  re-layouts: feature f = c · 36 + s of the pixel (i, j) is entry (f / 9, f % 9) of the row i · 56 + j, that is window
  f % 9 at channel f / 9, which is the padded input at channel f / 9, row i + (f % 9) / 3 and column j + (f % 9) % 3 =
  j + f % 3.
-/
import proofs.«431186_j62904091018010_1_alg».proof.Proof.Gen.KernelIdeal.Skeleton
import proofs.«431186_j62904091018010_1_alg».proof.Proof.Spec
import Idealize.ShloMosaic.Lib.ValueIdx
import Idealize.ShloMosaic.Lib.Pipeline.Value

noncomputable section

namespace Cert.Madd.KernelLayout

open Cert.KernelIdeal Cert.KernelIdeal.Gen Idealize.ShloMosaic Idealize.ShloMosaic.ValueIdx Cert.Madd

variable {F : FTy → Type} [FloatOps F]

/-- The block with its unit axis dropped and the channel axis moved last, read at (row, column, channel): the block at
    (0, channel, row, column). -/
theorem chanLast_apply {α : Type} (P : S1x64x58x58.Idx → α) (h1 : S1x64x58x58.ShapeCasts S64x58x58)
    (h2 : S64x58x58.Transposes [1, 2, 0] S58x58x64) (a b : Fin 58) (ch : Fin 64) :
    transpose S58x58x64 [1, 2, 0] (shapeCast S64x58x58 P h1) h2 (ix3 a b ch) = P (ix4 (0 : Fin 1) ch a b) := by
  have ha := a.isLt
  have hb := b.isLt
  have hch := ch.isLt
  refine (transpose_apply _ _ _ _ (ix3 ch a b) (fun d => match d with | ⟨0, _⟩ => rfl | ⟨1, _⟩ => rfl | ⟨2, _⟩ => rfl)).trans ?_
  refine shapeCast_apply _ _ _ (ix4 (0 : Fin 1) ch a b) ?_
  rw [Shape.rowMajor_val_four, Shape.rowMajor_val_three]
  show ((0 * 64 + ch.val) * 58 + a.val) * 58 + b.val = (ch.val * 58 + a.val) * 58 + b.val
  omega

/-- The 56 × 56 window at the offset (ki, kj), read at (i, j, channel): the whole at (ki + i, kj + j, channel). -/
theorem window_apply {α : Type} (T : S58x58x64.Idx → α) (ki kj : ℕ) (h : S58x58x64.Slices ![ki, kj, 0] S56x56x64)
    (i j : Fin 56) (ch : Fin 64) (a b : Fin 58) (ha : a.val = ki + i.val) (hb : b.val = kj + j.val) :
    extractStridedSlice S56x56x64 ![ki, kj, 0] T h (ix3 i j ch) = T (ix3 a b ch) := by
  refine extractStridedSlice_apply _ _ _ _ (ix3 a b ch) (fun d => match d with
    | ⟨0, _⟩ => by show a.val = ki + i.val; exact ha
    | ⟨1, _⟩ => by show b.val = kj + j.val; exact hb
    | ⟨2, _⟩ => by show ch.val = 0 + ch.val; omega)

/-- A window with its two pixel axes flattened to one and a unit axis added last, read at (i · 56 + j, channel, 0): the
    window at (i, j, channel). -/
theorem flat_apply {α : Type} (T : S56x56x64.Idx → α) (h1 : S56x56x64.ShapeCasts S3136x64)
    (h2 : S3136x64.ShapeCasts S3136x64x1) (i j : Fin 56) (ch : Fin 64) (z : Fin 1) :
    shapeCast S3136x64x1 (shapeCast S3136x64 T h1) h2 (ix3 (pix i j) ch z) = T (ix3 i j ch) := by
  have hi := i.isLt
  have hj := j.isLt
  have hch := ch.isLt
  have hz := z.isLt
  refine (shapeCast_apply _ _ _ (ix2 (pix i j) ch) ?_).trans ?_
  · rw [Shape.rowMajor_val_two, Shape.rowMajor_val_three]
    show (i.val * 56 + j.val) * 64 + ch.val = ((i.val * 56 + j.val) * 64 + ch.val) * 1 + z.val
    omega
  · refine shapeCast_apply _ _ _ (ix3 i j ch) ?_
    rw [Shape.rowMajor_val_three, Shape.rowMajor_val_two]
    show (i.val * 56 + j.val) * 64 + ch.val = (i.val * 56 + j.val) * 64 + ch.val
    rfl

/-- Nine unit-width pieces laid side by side along the last axis, read at (row, channel, r): piece r at
    (row, channel, 0). -/
theorem sideBySide_apply {α : Type} (x0 x1 x2 x3 x4 x5 x6 x7 x8 : S3136x64x1.Idx → α)
    (h : Shape.Concatenates [S3136x64x1, S3136x64x1, S3136x64x1, S3136x64x1, S3136x64x1, S3136x64x1, S3136x64x1,
      S3136x64x1, S3136x64x1] S3136x64x9 2)
    (p : Fin 3136) (ch : Fin 64) (r : Fin 9) :
    concatenate S3136x64x9 2 [⟨S3136x64x1, x0⟩, ⟨S3136x64x1, x1⟩, ⟨S3136x64x1, x2⟩, ⟨S3136x64x1, x3⟩, ⟨S3136x64x1, x4⟩,
      ⟨S3136x64x1, x5⟩, ⟨S3136x64x1, x6⟩, ⟨S3136x64x1, x7⟩, ⟨S3136x64x1, x8⟩] h (ix3 p ch r)
      = (![x0, x1, x2, x3, x4, x5, x6, x7, x8] r) (ix3 p ch (0 : Fin 1)) := by
  have key : ∀ (k : ℕ) (hk : k < 9) (x₁ : S3136x64x1.Idx → α),
      [(⟨S3136x64x1, x0⟩ : (s : Shape) × (s.Idx → α)), ⟨S3136x64x1, x1⟩, ⟨S3136x64x1, x2⟩, ⟨S3136x64x1, x3⟩, ⟨S3136x64x1, x4⟩,
        ⟨S3136x64x1, x5⟩, ⟨S3136x64x1, x6⟩, ⟨S3136x64x1, x7⟩, ⟨S3136x64x1, x8⟩][k]'(by simpa using hk) = ⟨S3136x64x1, x₁⟩ →
      r.val = k →
      concatenate S3136x64x9 2 [⟨S3136x64x1, x0⟩, ⟨S3136x64x1, x1⟩, ⟨S3136x64x1, x2⟩, ⟨S3136x64x1, x3⟩, ⟨S3136x64x1, x4⟩,
        ⟨S3136x64x1, x5⟩, ⟨S3136x64x1, x6⟩, ⟨S3136x64x1, x7⟩, ⟨S3136x64x1, x8⟩] h (ix3 p ch r) = x₁ (ix3 p ch (0 : Fin 1)) := by
    intro k hk x₁ hxk hr
    refine concatenate_apply_piece (t := S3136x64x9) 2 _ _ (ix3 p ch r) k (by simpa using hk) S3136x64x1 x₁ hxk rfl k ?_ (ix3 p ch (0 : Fin 1)) ?_ ?_
    · interval_cases k <;> rfl
    · intro b hb
      match b with
      | ⟨0, _⟩ => rfl
      | ⟨1, _⟩ => rfl
      | ⟨2, _⟩ => exact absurd rfl hb
    · show k + 0 = r.val
      omega
  match r with
  | ⟨0, _⟩ => exact key 0 (by omega) x0 rfl rfl
  | ⟨1, _⟩ => exact key 1 (by omega) x1 rfl rfl
  | ⟨2, _⟩ => exact key 2 (by omega) x2 rfl rfl
  | ⟨3, _⟩ => exact key 3 (by omega) x3 rfl rfl
  | ⟨4, _⟩ => exact key 4 (by omega) x4 rfl rfl
  | ⟨5, _⟩ => exact key 5 (by omega) x5 rfl rfl
  | ⟨6, _⟩ => exact key 6 (by omega) x6 rfl rfl
  | ⟨7, _⟩ => exact key 7 (by omega) x7 rfl rfl
  | ⟨8, _⟩ => exact key 8 (by omega) x8 rfl rfl

/-- A row's 64 × 9 entries read as 576 features, then as 16 codebooks of 36: feature s of codebook c is entry
    (channel, r) whenever c · 36 + s = channel · 9 + r. -/
theorem regroup_apply {α : Type} (X : S3136x64x9.Idx → α) (h1 : S3136x64x9.ShapeCasts S3136x576)
    (h2 : S3136x576.ShapeCasts S3136x16x36) (p : Fin 3136) (c : Fin 16) (s : Fin 36) (ch : Fin 64) (r : Fin 9)
    (hf : c.val * 36 + s.val = ch.val * 9 + r.val) :
    shapeCast S3136x16x36 (shapeCast S3136x576 X h1) h2 (ix3 p c s) = X (ix3 p ch r) := by
  have hp := p.isLt
  have hc := c.isLt
  have hs := s.isLt
  have hch := ch.isLt
  have hr := r.isLt
  refine (shapeCast_apply _ _ _ (ix2 p (⟨c.val * 36 + s.val, by omega⟩ : Fin 576)) ?_).trans ?_
  · rw [Shape.rowMajor_val_two, Shape.rowMajor_val_three]
    show p.val * 576 + (c.val * 36 + s.val) = (p.val * 16 + c.val) * 36 + s.val
    omega
  · refine shapeCast_apply _ _ _ (ix3 p ch r) ?_
    rw [Shape.rowMajor_val_three, Shape.rowMajor_val_two]
    show (p.val * 64 + ch.val) * 9 + r.val = p.val * 576 + (c.val * 36 + s.val)
    omega

/-- The nine flattened windows of one array, piece r read at (i · 56 + j, channel, 0): the array at
    (i + r / 3, j + r % 3, channel). -/
theorem windows_apply {α : Type} (T : S58x58x64.Idx → α)
    (h00 : S58x58x64.Slices ![0, 0, 0] S56x56x64) (h01 : S58x58x64.Slices ![0, 1, 0] S56x56x64)
    (h02 : S58x58x64.Slices ![0, 2, 0] S56x56x64) (h10 : S58x58x64.Slices ![1, 0, 0] S56x56x64)
    (h11 : S58x58x64.Slices ![1, 1, 0] S56x56x64) (h12 : S58x58x64.Slices ![1, 2, 0] S56x56x64)
    (h20 : S58x58x64.Slices ![2, 0, 0] S56x56x64) (h21 : S58x58x64.Slices ![2, 1, 0] S56x56x64)
    (h22 : S58x58x64.Slices ![2, 2, 0] S56x56x64)
    (hA : S56x56x64.ShapeCasts S3136x64) (hB : S3136x64.ShapeCasts S3136x64x1)
    (i j : Fin 56) (ch : Fin 64) (r : Fin 9) (a b : Fin 58) (ha : a.val = i.val + r.val / 3) (hb : b.val = j.val + r.val % 3) :
    (![shapeCast S3136x64x1 (shapeCast S3136x64 (extractStridedSlice S56x56x64 ![0, 0, 0] T h00) hA) hB,
       shapeCast S3136x64x1 (shapeCast S3136x64 (extractStridedSlice S56x56x64 ![0, 1, 0] T h01) hA) hB,
       shapeCast S3136x64x1 (shapeCast S3136x64 (extractStridedSlice S56x56x64 ![0, 2, 0] T h02) hA) hB,
       shapeCast S3136x64x1 (shapeCast S3136x64 (extractStridedSlice S56x56x64 ![1, 0, 0] T h10) hA) hB,
       shapeCast S3136x64x1 (shapeCast S3136x64 (extractStridedSlice S56x56x64 ![1, 1, 0] T h11) hA) hB,
       shapeCast S3136x64x1 (shapeCast S3136x64 (extractStridedSlice S56x56x64 ![1, 2, 0] T h12) hA) hB,
       shapeCast S3136x64x1 (shapeCast S3136x64 (extractStridedSlice S56x56x64 ![2, 0, 0] T h20) hA) hB,
       shapeCast S3136x64x1 (shapeCast S3136x64 (extractStridedSlice S56x56x64 ![2, 1, 0] T h21) hA) hB,
       shapeCast S3136x64x1 (shapeCast S3136x64 (extractStridedSlice S56x56x64 ![2, 2, 0] T h22) hA) hB] r)
      (ix3 (pix i j) ch (0 : Fin 1)) = T (ix3 a b ch) := by
  match r, ha, hb with
  | ⟨0, _⟩, ha, hb =>
    exact (flat_apply _ hA hB i j ch 0).trans (window_apply T 0 0 h00 i j ch a b (by simpa using ha) (by simpa using hb))
  | ⟨1, _⟩, ha, hb =>
    exact (flat_apply _ hA hB i j ch 0).trans (window_apply T 0 1 h01 i j ch a b (by simp at ha; omega) (by simp at hb; omega))
  | ⟨2, _⟩, ha, hb =>
    exact (flat_apply _ hA hB i j ch 0).trans (window_apply T 0 2 h02 i j ch a b (by simp at ha; omega) (by simp at hb; omega))
  | ⟨3, _⟩, ha, hb =>
    exact (flat_apply _ hA hB i j ch 0).trans (window_apply T 1 0 h10 i j ch a b (by simp at ha; omega) (by simp at hb; omega))
  | ⟨4, _⟩, ha, hb =>
    exact (flat_apply _ hA hB i j ch 0).trans (window_apply T 1 1 h11 i j ch a b (by simp at ha; omega) (by simp at hb; omega))
  | ⟨5, _⟩, ha, hb =>
    exact (flat_apply _ hA hB i j ch 0).trans (window_apply T 1 2 h12 i j ch a b (by simp at ha; omega) (by simp at hb; omega))
  | ⟨6, _⟩, ha, hb =>
    exact (flat_apply _ hA hB i j ch 0).trans (window_apply T 2 0 h20 i j ch a b (by simp at ha; omega) (by simp at hb; omega))
  | ⟨7, _⟩, ha, hb =>
    exact (flat_apply _ hA hB i j ch 0).trans (window_apply T 2 1 h21 i j ch a b (by simp at ha; omega) (by simp at hb; omega))
  | ⟨8, _⟩, ha, hb =>
    exact (flat_apply _ hA hB i j ch 0).trans (window_apply T 2 2 h22 i j ch a b (by simp at ha; omega) (by simp at hb; omega))

/-- The index the chain of re-layouts arrives at is the one the specification names. -/
theorem feat_eq (i j : Fin 56) (c : Fin 16) (s : Fin 36) (ch : Fin 64) (a b : Fin 58)
    (hch : ch.val = (c.val * 36 + s.val) / 9) (ha : a.val = i.val + (c.val * 36 + s.val) % 9 / 3)
    (hb : b.val = j.val + (c.val * 36 + s.val) % 3) :
    ix4 (0 : Fin 1) ch a b = featIdx (0 : Fin 1) i j c s := by
  unfold featIdx
  funext d
  match d with
  | ⟨0, _⟩ => rfl
  | ⟨1, _⟩ => exact Fin.ext hch
  | ⟨2, _⟩ => exact Fin.ext ha
  | ⟨3, _⟩ => exact Fin.ext hb

theorem pay2_apply (P0 : Vec F S1x64x58x58 .f32) (i j : Fin 56) (c : Fin 16) (s : Fin 36) :
    k0_pay2 (F := F) P0 (ix3 (pix i j) c s) = P0 (featIdx (0 : Fin 1) i j c s) := by
  have hi := i.isLt
  have hj := j.isLt
  have hc := c.isLt
  have hs := s.isLt
  -- the channel, the window and the position the feature comes from
  obtain ⟨ch, hch⟩ : ∃ ch : Fin 64, ch.val = (c.val * 36 + s.val) / 9 := ⟨⟨(c.val * 36 + s.val) / 9, by omega⟩, rfl⟩
  obtain ⟨r, hr⟩ : ∃ r : Fin 9, r.val = (c.val * 36 + s.val) % 9 := ⟨⟨(c.val * 36 + s.val) % 9, by omega⟩, rfl⟩
  obtain ⟨a, ha⟩ : ∃ a : Fin 58, a.val = i.val + r.val / 3 := ⟨⟨i.val + r.val / 3, by omega⟩, rfl⟩
  obtain ⟨b, hb⟩ : ∃ b : Fin 58, b.val = j.val + r.val % 3 := ⟨⟨j.val + r.val % 3, by omega⟩, rfl⟩
  unfold k0_pay2
  refine (regroup_apply _ _ _ (pix i j) c s ch r (by omega)).trans ?_
  refine (sideBySide_apply _ _ _ _ _ _ _ _ _ _ (pix i j) ch r).trans ?_
  refine (windows_apply _ _ _ _ _ _ _ _ _ _ _ _ i j ch r a b ha hb).trans ?_
  refine (chanLast_apply P0 _ _ a b ch).trans ?_
  exact congrArg P0 (feat_eq i j c s ch a b hch (by omega) (by omega))

end Cert.Madd.KernelLayout

end
-- ==== Proof.KernelTree.lean ====
/-
  The kernel body at one output element.  For a pixel p = (i, j) and an output channel o the kernel's stored value is
  the sum over the sixteen codebooks of the lookup-table row named by the codebook's bucket after a four-level tree
  walk, plus the bias.  Each level's feature is a sum of the pixel's 36 patch entries against a one-hot weight row, each
  threshold is a sum of the level's eight thresholds against the one-hot row of the bucket so far, and the final lookup
  is a product of a one-hot [pixels, 256] matrix with the flattened table.  Every such sum against a one-hot row is the
  entry the word names (`pick`), and the bucket words are the specification's `enc1 … enc4`.
-/
import proofs.«431186_j62904091018010_1_alg».proof.Proof.Gen.KernelIdeal.Skeleton
import proofs.«431186_j62904091018010_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StackMember

noncomputable section

open scoped BigOperators

namespace Cert.Madd.KernelTree

open Cert.KernelIdeal Cert.KernelIdeal.Gen Idealize.ShloMosaic Idealize.ShloMosaic.ValueIdx Cert.Madd

/-! ## The stages of one tree level, as functions of whole arrays -/

/-- The level's feature for every pixel and codebook: the patch entries summed against the level's weight row. -/
def featV (xs : FVec Ideal S3136x16x36 .f32) (w : FVec Ideal S4x16x36 .f32) (off : Fin S4x16x36.rank → Nat)
    (hs : S4x16x36.Slices off S1x16x36) : FVec Ideal S3136x16 .f32 :=
  multiReduction (F := Ideal) .add [2] S3136x16
    (mulf xs (broadcastTo S3136x16x36 (shapeCast S1x16x36 (shapeCast S16x36 (extractStridedSlice S1x16x36 off w hs)
      shapeCasts_S1x16x36_S16x36) shapeCasts_S16x36_S1x16x36) broadcasts_S1x16x36_S3136x16x36))
    0x00000000#32 reduces_S3136x16x36_S3136x16 (.inl rfl) rfl

/-- The one-hot rows "position = bucket" over eight positions. -/
def ohV (b : IVec S3136x16 32) : IVec S3136x16x8 1 :=
  cmpi .eq (iota .tc S3136x16x8 32 [2] iota_S3136x16x8_d2_w32)
    (broadcastTo S3136x16x8 (shapeCast S3136x16x1 b shapeCasts_S3136x16_S3136x16x1) broadcasts_S3136x16x1_S3136x16x8)

/-- The one-hot rows times the level's thresholds. -/
def prodV (oh : IVec S3136x16x8 1) (th : FVec Ideal S16x4x8 .f32) (off : Fin S16x4x8.rank → Nat)
    (hs : S16x4x8.Slices off S16x1x8) : FVec Ideal S3136x16x8 .f32 :=
  mulf (sitofp (F := Ideal) .f32 (extui 32 oh natLt_1_32))
    (broadcastTo S3136x16x8 (shapeCast S1x16x8 (shapeCast S16x8 (extractStridedSlice S16x1x8 off th hs)
      shapeCasts_S16x1x8_S16x8) shapeCasts_S16x8_S1x16x8) broadcasts_S1x16x8_S3136x16x8)

/-- The sum over the eight positions. -/
def thrV (pr : FVec Ideal S3136x16x8 .f32) : FVec Ideal S3136x16 .f32 :=
  multiReduction (F := Ideal) .add [2] S3136x16 pr 0x00000000#32 reduces_S3136x16x8_S3136x16 (.inl rfl) rfl

/-- The bucket after the level. -/
def stepV (b : IVec S3136x16 32) (f th : FVec Ideal S3136x16 .f32) : IVec S3136x16 32 :=
  addi (muli (broadcast S3136x16 2#32) b) (extui 32 (cmpf .oge f th) natLt_1_32)

/-! ## Each stage at an index -/

theorem lift36 (p : Fin 3136) (c : Fin 16) (s : Fin 36) :
    reduces_S3136x16x36_S3136x16.lift (ix2 p c) s = ix3 p c s := by
  funext a; apply Fin.ext
  match a with
  | ⟨0, _⟩ => rfl
  | ⟨1, _⟩ => rfl
  | ⟨2, _⟩ => rfl

theorem lift8 (p : Fin 3136) (c : Fin 16) (e : Fin 8) :
    reduces_S3136x16x8_S3136x16.lift (ix2 p c) e = ix3 p c e := by
  funext a; apply Fin.ext
  match a with
  | ⟨0, _⟩ => rfl
  | ⟨1, _⟩ => rfl
  | ⟨2, _⟩ => rfl

theorem featV_apply (xs : FVec Ideal S3136x16x36 .f32) (w : FVec Ideal S4x16x36 .f32) (off : Fin S4x16x36.rank → Nat)
    (hs : S4x16x36.Slices off S1x16x36) (t : Fin 4) (h0 : off 0 = t.val) (h1 : off 1 = 0) (h2 : off 2 = 0)
    (p : Fin 3136) (c : Fin 16) :
    featV xs w off hs (ix2 p c) = ∑ s : Fin 36, xs (ix3 p c s) * w (ix3 t c s) := by
  unfold featV
  refine (Ideal.multiReduction_add_single _ _ reduces_S3136x16x36_S3136x16 _ _ (ix2 p c)).trans ?_
  show ∑ s : Fin 36, _ = _
  refine Finset.sum_congr rfl fun s _ => ?_
  rw [lift36, mulf_apply, shapeCast_shapeCast]
  congr 1
  refine (broadcastTo_apply _ _ (ix3 p c s) (ix3 (0 : Fin 1) c s) fun a => ?_).trans ?_
  · match a with
    | ⟨0, _⟩ => rfl
    | ⟨1, _⟩ => rfl
    | ⟨2, _⟩ => rfl
  · refine extractStridedSlice_apply off w hs _ (ix3 t c s) fun a => ?_
    match a with
    | ⟨0, _⟩ => show t.val = off 0 + 0; omega
    | ⟨1, _⟩ => show c.val = off 1 + c.val; omega
    | ⟨2, _⟩ => show s.val = off 2 + s.val; omega

theorem ohV_apply (b : IVec S3136x16 32) (p : Fin 3136) (c : Fin 16) (e : Fin 8) :
    ohV b (ix3 p c e) = IntOp.cmpi .eq (BitVec.ofNat 32 e.val) (b (ix2 p c)) := by
  unfold ohV
  show IntOp.cmpi .eq (iota .tc S3136x16x8 32 [2] iota_S3136x16x8_d2_w32 (ix3 p c e)) _ = _
  rw [iota_single_apply]
  congr 1
  refine (broadcastTo_apply _ _ (ix3 p c e) (ix3 p c (0 : Fin 1)) fun a => ?_).trans ?_
  · match a with
    | ⟨0, _⟩ => rfl
    | ⟨1, _⟩ => rfl
    | ⟨2, _⟩ => rfl
  · refine shapeCast_apply b _ (ix3 p c (0 : Fin 1)) (ix2 p c) ?_
    rw [Shape.rowMajor_val_two, Shape.rowMajor_val_three]
    show p.val * 16 + c.val = (p.val * 16 + c.val) * 1 + 0
    omega

theorem prodV_apply (oh : IVec S3136x16x8 1) (th : FVec Ideal S16x4x8 .f32) (off : Fin S16x4x8.rank → Nat)
    (hs : S16x4x8.Slices off S16x1x8) (t : Fin 4) (h0 : off 0 = 0) (h1 : off 1 = t.val) (h2 : off 2 = 0)
    (p : Fin 3136) (c : Fin 16) (e : Fin 8) :
    prodV oh th off hs (ix3 p c e) = ((((oh (ix3 p c e)).setWidth 32).toInt : ℝ) : EReal) * th (ix3 c t e) := by
  unfold prodV
  rw [mulf_apply]
  congr 1
  refine (broadcastTo_apply _ _ (ix3 p c e) (ix3 (0 : Fin 1) c e) fun a => ?_).trans ?_
  · match a with
    | ⟨0, _⟩ => rfl
    | ⟨1, _⟩ => rfl
    | ⟨2, _⟩ => rfl
  refine (shapeCast_apply _ _ (ix3 (0 : Fin 1) c e) (ix2 c e) ?_).trans ?_
  · rw [Shape.rowMajor_val_two, Shape.rowMajor_val_three]
    show c.val * 8 + e.val = (0 * 16 + c.val) * 8 + e.val
    omega
  refine (shapeCast_apply _ _ (ix2 c e) (ix3 c (0 : Fin 1) e) ?_).trans ?_
  · rw [Shape.rowMajor_val_two, Shape.rowMajor_val_three]
    show (c.val * 1 + 0) * 8 + e.val = c.val * 8 + e.val
    omega
  refine extractStridedSlice_apply off th hs _ (ix3 c t e) fun a => ?_
  match a with
  | ⟨0, _⟩ => show c.val = off 0 + c.val; omega
  | ⟨1, _⟩ => show t.val = off 1 + 0; omega
  | ⟨2, _⟩ => show e.val = off 2 + e.val; omega

theorem thrV_apply (pr : FVec Ideal S3136x16x8 .f32) (p : Fin 3136) (c : Fin 16) :
    thrV pr (ix2 p c) = ∑ e : Fin 8, pr (ix3 p c e) := by
  unfold thrV
  refine (Ideal.multiReduction_add_single _ _ reduces_S3136x16x8_S3136x16 _ _ (ix2 p c)).trans ?_
  show ∑ e : Fin 8, _ = _
  refine Finset.sum_congr rfl fun e _ => ?_
  rw [lift8]

theorem stepV_apply (b : IVec S3136x16 32) (f th : FVec Ideal S3136x16 .f32) (p : Fin 3136) (c : Fin 16) :
    stepV b f th (ix2 p c) = step (f (ix2 p c)) (th (ix2 p c)) (b (ix2 p c)) := rfl

/-- A level's threshold: the entry of the level's eight thresholds that the bucket so far names. -/
theorem thr_pick (b : IVec S3136x16 32) (th : FVec Ideal S16x4x8 .f32) (off : Fin S16x4x8.rank → Nat)
    (hs : S16x4x8.Slices off S16x1x8) (t : Fin 4) (h0 : off 0 = 0) (h1 : off 1 = t.val) (h2 : off 2 = 0)
    (p : Fin 3136) (c : Fin 16) :
    thrV (prodV (ohV b) th off hs) (ix2 p c) = pick (fun e : Fin 8 => th (ix3 c t e)) (b (ix2 p c)) := by
  rw [thrV_apply, ← sum_onehot_mul (by norm_num)]
  refine Finset.sum_congr rfl fun e _ => ?_
  rw [prodV_apply _ _ off hs t h0 h1 h2, ohV_apply]

/-! ## The four bucket words -/

section Buckets
variable (xs : FVec Ideal S3136x16x36 .f32) (w : FVec Ideal S4x16x36 .f32) (th : FVec Ideal S16x4x8 .f32)

/-- The buckets after one, two, three and four levels, for every pixel and codebook. -/
def b1V : IVec S3136x16 32 :=
  stepV k0_pay4 (featV xs w ![0, 0, 0] slices_S4x16x36_o0_0_0_S1x16x36)
    (thrV (prodV (ohV k0_pay4) th ![0, 0, 0] slices_S16x4x8_o0_0_0_S16x1x8))
def b2V : IVec S3136x16 32 :=
  stepV (b1V xs w th) (featV xs w ![1, 0, 0] slices_S4x16x36_o1_0_0_S1x16x36)
    (thrV (prodV (ohV (b1V xs w th)) th ![0, 1, 0] slices_S16x4x8_o0_1_0_S16x1x8))
def b3V : IVec S3136x16 32 :=
  stepV (b2V xs w th) (featV xs w ![2, 0, 0] slices_S4x16x36_o2_0_0_S1x16x36)
    (thrV (prodV (ohV (b2V xs w th)) th ![0, 2, 0] slices_S16x4x8_o0_2_0_S16x1x8))
def b4V : IVec S3136x16 32 :=
  stepV (b3V xs w th) (featV xs w ![3, 0, 0] slices_S4x16x36_o3_0_0_S1x16x36)
    (thrV (prodV (ohV (b3V xs w th)) th ![0, 3, 0] slices_S16x4x8_o0_3_0_S16x1x8))

/-- One pixel's and codebook's four features and thresholds, as the specification takes them. -/
abbrev vOf (p : Fin 3136) (c : Fin 16) : Fin 4 → EReal := fun t => ∑ s : Fin 36, xs (ix3 p c s) * w (ix3 t c s)
abbrev thOf (c : Fin 16) : Fin 4 → Fin 8 → EReal := fun t e => th (ix3 c t e)

theorem b1V_apply (p : Fin 3136) (c : Fin 16) : b1V xs w th (ix2 p c) = enc1 (vOf xs w p c) (thOf th c) := by
  unfold b1V enc1
  rw [stepV_apply, featV_apply xs w _ _ 0 rfl rfl rfl, thr_pick _ th _ _ 0 rfl rfl rfl]
  rfl

theorem b2V_apply (p : Fin 3136) (c : Fin 16) : b2V xs w th (ix2 p c) = enc2 (vOf xs w p c) (thOf th c) := by
  unfold b2V enc2
  rw [stepV_apply, featV_apply xs w _ _ 1 rfl rfl rfl, thr_pick _ th _ _ 1 rfl rfl rfl, b1V_apply]

theorem b3V_apply (p : Fin 3136) (c : Fin 16) : b3V xs w th (ix2 p c) = enc3 (vOf xs w p c) (thOf th c) := by
  unfold b3V enc3
  rw [stepV_apply, featV_apply xs w _ _ 2 rfl rfl rfl, thr_pick _ th _ _ 2 rfl rfl rfl, b2V_apply]

theorem b4V_apply (p : Fin 3136) (c : Fin 16) : b4V xs w th (ix2 p c) = enc4 (vOf xs w p c) (thOf th c) := by
  unfold b4V enc4
  rw [stepV_apply, featV_apply xs w _ _ 3 rfl rfl rfl, thr_pick _ th _ _ 3 rfl rfl rfl, b3V_apply]

end Buckets

/-! ## The lookup: a one-hot matrix times the flattened table, plus the bias -/

/-- The result rows before the final layout: the one-hot [pixels, 256] matrix of the final buckets times the table, plus the
    bias row. -/
def outV (b : IVec S3136x16 32) (lut : FVec Ideal S256x64 .bf16) (bias : FVec Ideal S1x64 .f32) : FVec Ideal S3136x64 .f32 :=
  addf
    (matmul dot_S3136x256_S256x64_S3136x64_1_0_0_1_n_n none
      (shapeCast S3136x256
        (truncf (F := Ideal) .bf16
          (sitofp (F := Ideal) .f32
            (extui 32
              (cmpi .eq (iota .tc S3136x16x16 32 [2] iota_S3136x16x16_d2_w32)
                (broadcastTo S3136x16x16 (shapeCast S3136x16x1 b shapeCasts_S3136x16_S3136x16x1)
                  broadcasts_S3136x16x1_S3136x16x16))
              natLt_1_32))
          bitsLt_bf16_f32)
        shapeCasts_S3136x16x16_S3136x256)
      (shapeCast S256x64 lut shapeCasts_S256x64_S256x64) (constant (F := Ideal) S3136x64 .f32 0x00000000#32))
    (broadcastTo S3136x64 (shapeCast S1x64 bias shapeCasts_S1x64_S1x64) broadcasts_S1x64_S3136x64)

/-- A sum over the 256 flattened table rows is the double sum over codebooks and rows. -/
theorem sum_lrow (f : Fin 256 → EReal) : ∑ k : Fin 256, f k = ∑ c : Fin 16, ∑ e : Fin 16, f (lrow c e) := by
  refine (Equiv.sum_comp (finProdFinEquiv : Fin 16 × Fin 16 ≃ Fin (16 * 16)) (fun k => f k)).symm.trans ?_
  rw [Fintype.sum_prod_type]
  refine Finset.sum_congr rfl fun c _ => Finset.sum_congr rfl fun e _ => ?_
  congr 1
  apply Fin.ext
  show e.val + 16 * c.val = c.val * 16 + e.val
  omega

/-- The one-hot matrix at pixel p and flattened row (c, e): the bit "e = bucket of (p, c)". -/
theorem onehot256_apply (b : IVec S3136x16 32) (p : Fin 3136) (c e : Fin 16) :
    shapeCast S3136x256
        (truncf (F := Ideal) .bf16
          (sitofp (F := Ideal) .f32
            (extui 32
              (cmpi .eq (iota .tc S3136x16x16 32 [2] iota_S3136x16x16_d2_w32)
                (broadcastTo S3136x16x16 (shapeCast S3136x16x1 b shapeCasts_S3136x16_S3136x16x1)
                  broadcasts_S3136x16x1_S3136x16x16))
              natLt_1_32))
          bitsLt_bf16_f32)
        shapeCasts_S3136x16x16_S3136x256 (ix2 p (lrow c e))
      = ((((IntOp.cmpi .eq (BitVec.ofNat 32 e.val) (b (ix2 p c))).setWidth 32).toInt : ℝ) : EReal) := by
  refine (shapeCast_apply _ _ (ix2 p (lrow c e)) (ix3 p c e) ?_).trans ?_
  · rw [Shape.rowMajor_val_two, Shape.rowMajor_val_three]
    show (p.val * 16 + c.val) * 16 + e.val = p.val * 256 + (c.val * 16 + e.val)
    omega
  show ((((IntOp.cmpi .eq (iota .tc S3136x16x16 32 [2] iota_S3136x16x16_d2_w32 (ix3 p c e)) _).setWidth 32).toInt : ℝ) : EReal) = _
  rw [iota_single_apply]
  congr 5
  refine (broadcastTo_apply _ _ (ix3 p c e) (ix3 p c (0 : Fin 1)) fun a => ?_).trans ?_
  · match a with
    | ⟨0, _⟩ => rfl
    | ⟨1, _⟩ => rfl
    | ⟨2, _⟩ => rfl
  · refine shapeCast_apply b _ (ix3 p c (0 : Fin 1)) (ix2 p c) ?_
    rw [Shape.rowMajor_val_two, Shape.rowMajor_val_three]
    show p.val * 16 + c.val = (p.val * 16 + c.val) * 1 + 0
    omega

theorem outV_apply (b : IVec S3136x16 32) (lut : FVec Ideal S256x64 .bf16) (bias : FVec Ideal S1x64 .f32)
    (p : Fin 3136) (o : Fin 64) :
    outV b lut bias (ix2 p o)
      = (∑ c : Fin 16, pick (fun k : Fin 16 => lut (ix2 (lrow c k) o)) (b (ix2 p c))) + bias (ix2 (0 : Fin 1) o) := by
  unfold outV
  rw [addf_apply, shapeCast_self, shapeCast_self, broadcastTo_1b_ab_apply, matmul_zero_eq_dotGeneral]
  congr 1
  have hD : dot_S3136x256_S256x64_S3136x64_1_0_0_1_n_n = DotDims.plain 3136 256 64 := rfl
  rw [hD]
  refine (StackMember.dotGeneral_plain_apply none _ lut p o).trans ?_
  rw [sum_lrow]
  refine Finset.sum_congr rfl fun c _ => ?_
  rw [← sum_onehot_mul (by norm_num)]
  refine Finset.sum_congr rfl fun e _ => ?_
  rw [onehot256_apply]

/-! ## The final layout -/

theorem tail_apply (v : FVec Ideal S3136x64 .f32) (o : Fin 64) (i j : Fin 56) :
    k0_pay1 (F := Ideal)
        (transpose S64x56x56 [2, 0, 1] (shapeCast S56x56x64 v shapeCasts_S3136x64_S56x56x64)
          transposes_S56x56x64_p2_0_1_S64x56x56) (ix4 (0 : Fin 1) o i j)
      = v (ix2 (pix i j) o) := by
  unfold k0_pay1
  refine (shapeCast_apply _ _ (ix4 (0 : Fin 1) o i j) (ix3 o i j) ?_).trans ?_
  · rw [Shape.rowMajor_val_three, Shape.rowMajor_val_four]
    show (o.val * 56 + i.val) * 56 + j.val = ((0 * 64 + o.val) * 56 + i.val) * 56 + j.val
    omega
  refine (transpose_apply _ _ _ (ix3 o i j) (ix3 i j o) fun b => ?_).trans ?_
  · match b with
    | ⟨0, _⟩ => rfl
    | ⟨1, _⟩ => rfl
    | ⟨2, _⟩ => rfl
  refine shapeCast_apply v _ (ix3 i j o) (ix2 (pix i j) o) ?_
  rw [Shape.rowMajor_val_two, Shape.rowMajor_val_three]
  show (i.val * 56 + j.val) * 64 + o.val = (i.val * 56 + j.val) * 64 + o.val
  rfl

/-! ## The printed payloads are these stages -/

section Payloads
variable (xs : FVec Ideal S3136x16x36 .f32) (w : FVec Ideal S4x16x36 .f32) (th : FVec Ideal S16x4x8 .f32)

theorem pay7_eq :
    k0_pay7 (F := Ideal) xs w th k0_pay4 (featV xs w ![0, 0, 0] slices_S4x16x36_o0_0_0_S1x16x36) (ohV k0_pay4) = b2V xs w th := rfl

theorem pay8_eq : k0_pay8 (F := Ideal) xs w = featV xs w ![2, 0, 0] slices_S4x16x36_o2_0_0_S1x16x36 := rfl

theorem pay9_eq :
    k0_pay9 (F := Ideal) xs w th k0_pay4 (featV xs w ![0, 0, 0] slices_S4x16x36_o0_0_0_S1x16x36) (ohV k0_pay4)
      = prodV (ohV (b2V xs w th)) th ![0, 2, 0] slices_S16x4x8_o0_2_0_S16x1x8 := rfl

theorem pay10_eq (lut : FVec Ideal S256x64 .bf16) (bias : FVec Ideal S1x64 .f32) :
    k0_pay10 (F := Ideal) xs w th (b2V xs w th) (featV xs w ![2, 0, 0] slices_S4x16x36_o2_0_0_S1x16x36)
        (prodV (ohV (b2V xs w th)) th ![0, 2, 0] slices_S16x4x8_o0_2_0_S16x1x8) lut bias
      = transpose S64x56x56 [2, 0, 1] (shapeCast S56x56x64 (outV (b4V xs w th) lut bias) shapeCasts_S3136x64_S56x56x64)
          transposes_S56x56x64_p2_0_1_S64x56x56 := rfl

end Payloads

theorem kernel_pix (P0 : Vec Ideal S1x64x58x58 .f32) (P1 : Vec Ideal S4x16x36 .f32) (P2 : Vec Ideal S16x4x8 .f32) (P3 : Vec Ideal S256x64 .bf16) (P4 : Vec Ideal S1x64 .f32)
    (o : Fin 64) (i j : Fin 56) :
    k0_pay1 (F := Ideal) (k0_pay10 (F := Ideal) (k0_pay2 (F := Ideal) P0) (k0_pay3 (F := Ideal) P1) P2 (k0_pay7 (F := Ideal) (k0_pay2 (F := Ideal) P0) (k0_pay3 (F := Ideal) P1) P2 k0_pay4 (k0_pay5 (F := Ideal) P0 P1) k0_pay6) (k0_pay8 (F := Ideal) (k0_pay2 (F := Ideal) P0) (k0_pay3 (F := Ideal) P1)) (k0_pay9 (F := Ideal) (k0_pay2 (F := Ideal) P0) (k0_pay3 (F := Ideal) P1) P2 k0_pay4 (k0_pay5 (F := Ideal) P0 P1) k0_pay6) P3 P4) (ix4 (0 : Fin 1) o i j)
      = outpix (fun c t => ∑ s : Fin 36, k0_pay2 (F := Ideal) P0 (ix3 (pix i j) c s) * P1 (ix3 t c s))
          (fun c t e => P2 (ix3 c t e)) (fun c k => P3 (ix2 (lrow c k) o)) (P4 (ix2 (0 : Fin 1) o)) := by
  have h5 : k0_pay5 (F := Ideal) P0 P1
      = featV (k0_pay2 (F := Ideal) P0) (k0_pay3 (F := Ideal) P1) ![0, 0, 0] slices_S4x16x36_o0_0_0_S1x16x36 := rfl
  have h6 : k0_pay6 = ohV k0_pay4 := rfl
  have h3 : k0_pay3 (F := Ideal) P1 = P1 := shapeCast_self _ _
  rw [h5, h6, h3]
  generalize k0_pay2 (F := Ideal) P0 = xs
  rw [pay7_eq, pay8_eq, pay9_eq, pay10_eq, tail_apply, outV_apply]
  unfold outpix
  refine congrArg (fun z => z + P4 (ix2 (0 : Fin 1) o)) (Finset.sum_congr rfl fun c _ => ?_)
  rw [b4V_apply]

end Cert.Madd.KernelTree

end
-- ==== Proof.KernelArr.lean ====
/-
  From one image's block to the whole result array, and the run.

  The program works image by image: sixteen steps, step b reading image b of the zero-padded input (one ring of zeros
  around each 56×56 image) and four tables that stay whole — the one-hot rows of the split indices, the thresholds, the
  lookup table with its codebook and row axes flattened into one, the bias as one row — and writing image b of the result.
  Here:
    • what the tables hold when the steps begin, entry by entry: the padded input is `xpad` of the input; the one-hot
      table at (level t, codebook c, feature s) is 1 exactly when the index table names s there; the flattened lookup
      table at row c · 16 + k is the lookup table at (c, k); the bias row is the bias;
    • one step's block, element (0, o, i, j), is the specification's `G` at (b, o, i, j): the per-pixel tree walk is the
      neighbouring module's, a codebook's features sit in the padded image where the unfolding puts them, and the sum of
      the 36 features of a codebook against a one-hot row is the feature the index table names (`pick`);
    • the sixteen blocks tile the result array, so after the last step the array is `Garr` of the arguments, and the
      arguments are as they were.
-/
import proofs.«431186_j62904091018010_1_alg».proof.Proof.Gen.KernelIdeal.Value
import proofs.«431186_j62904091018010_1_alg».proof.Proof.KernelLayout
import proofs.«431186_j62904091018010_1_alg».proof.Proof.KernelTree
import proofs.«431186_j62904091018010_1_alg».proof.Proof.Spec
import Idealize.ShloMosaic.Lib.ValueIdx
import Idealize.ShloMosaic.Lib.Pipeline.Value
import Idealize.ShloMosaic.Lib.StableHlo.Run

noncomputable section

open scoped BigOperators

namespace Cert.Madd.KernelArr

open Cert.KernelIdeal Cert.KernelIdeal.Gen Idealize.ShloMosaic Idealize.ShloMosaic.TcCoe Idealize.SL.Sem Idealize.ShloMosaic.ValueIdx Cert.Madd

variable (m : (ℓ : Loc nD τ sig) → Buf (Elt Ideal) ℓ) (ρ : Dev nD → PrngReg)

/-- The zero-padded input is what the region finds in its first window's array. -/
theorem V_v0 (c : Dev nD) : (V m c main_v0 : S16x64x58x58.Idx → EReal) = xpad (m ((c.tc : Thread nD τ).loc main_arg0)) := by
  dsimp only [Gen.V]; simp only [Gen.hostOps0, Gen.hostOps0_1, Gen.hostOps0_2, List.flatten_cons, List.flatten_nil, List.append_nil, List.cons_append, List.nil_append]; after_results
  rfl

/-- The second window's array is the one-hot table of the split indices: entry (t, c, s) is 1 exactly when the index
    table names feature s for level t of codebook c. -/
theorem V_v8 (c : Dev nD) (t : Fin 4) (cb : Fin 16) (s : Fin 36) :
    (V m c main_v8 : S4x16x36.Idx → EReal) (ix3 t cb s)
      = (((IntOp.cmpi .eq ((m ((c.tc : Thread nD τ).loc main_arg1) : S16x4.Idx → BitVec 32) (ix2 cb t)) (BitVec.ofNat 32 s.val)).toNat : ℝ) : EReal) := by
  have e : (V m c main_v8 : S4x16x36.Idx → EReal) = uitofp (F := Ideal) .f32 (cmpi .eq (broadcastInDim S4x16x36 ![0, 1, 2] bcast_S4x16x1_S4x16x36_0_1_2 (broadcastInDim S4x16x1 ![0, 1] bcast_S4x16_S4x16x1_0_1 (transpose S4x16 [1, 0] (m ((c.tc : Thread nD τ).loc main_arg1) : S16x4.Idx → BitVec 32) transposes_S16x4_S4x16_1_0))) (broadcastInDim S4x16x36 ![0, 1, 2] bcast_S1x1x36_S4x16x36_0_1_2 (broadcastInDim S1x1x36 ![2] bcast_S36_S1x1x36_2 (iotaInDim S36 32 0)))) := by
    dsimp only [Gen.V]; simp only [Gen.hostOps0, Gen.hostOps0_1, Gen.hostOps0_2, List.flatten_cons, List.flatten_nil, List.append_nil, List.cons_append, List.nil_append]; after_results
  rw [e]
  have hA : (broadcastInDim S4x16x36 ![0, 1, 2] bcast_S4x16x1_S4x16x36_0_1_2 (broadcastInDim S4x16x1 ![0, 1] bcast_S4x16_S4x16x1_0_1 (transpose S4x16 [1, 0] (m ((c.tc : Thread nD τ).loc main_arg1) : S16x4.Idx → BitVec 32) transposes_S16x4_S4x16_1_0))) (ix3 t cb s) = (m ((c.tc : Thread nD τ).loc main_arg1) : S16x4.Idx → BitVec 32) (ix2 cb t) := by
    refine (broadcastInDim_apply _ _ _ (ix3 t cb s) (ix3 t cb (0 : Fin 1)) (fun a => ?_)).trans ?_
    · match a with | ⟨0, _⟩ => rfl | ⟨1, _⟩ => rfl | ⟨2, _⟩ => rfl
    refine (broadcastInDim_apply _ _ _ (ix3 t cb (0 : Fin 1)) (ix2 t cb) (fun a => ?_)).trans ?_
    · match a with | ⟨0, _⟩ => rfl | ⟨1, _⟩ => rfl
    exact transpose_apply _ _ _ (ix2 t cb) (ix2 cb t) (fun b => by match b with | ⟨0, _⟩ => rfl | ⟨1, _⟩ => rfl)
  have hB : (broadcastInDim S4x16x36 ![0, 1, 2] bcast_S1x1x36_S4x16x36_0_1_2 (broadcastInDim S1x1x36 ![2] bcast_S36_S1x1x36_2 (iotaInDim S36 32 0))) (ix3 t cb s) = BitVec.ofNat 32 s.val := by
    refine (broadcastInDim_apply _ _ _ (ix3 t cb s) (ix3 (0 : Fin 1) (0 : Fin 1) s) (fun a => ?_)).trans ?_
    · match a with | ⟨0, _⟩ => rfl | ⟨1, _⟩ => rfl | ⟨2, _⟩ => rfl
    refine (broadcastInDim_apply _ _ _ (ix3 (0 : Fin 1) (0 : Fin 1) s) (ix1 s) (fun a => ?_)).trans ?_
    · match a with | ⟨0, _⟩ => rfl
    rfl
  exact congrArg₂ (fun a b : BitVec 32 => (((IntOp.cmpi .eq a b).toNat : ℝ) : EReal)) hA hB

/-- The fourth window's array is the lookup table with its codebook and row axes flattened. -/
theorem V_v10 (c : Dev nD) (cb k : Fin 16) (o : Fin 64) :
    (V m c main_v10 : S256x64.Idx → EReal) (ix2 (lrow cb k) o) = (m ((c.tc : Thread nD τ).loc main_arg3) : S16x16x64.Idx → EReal) (ix3 cb k o) := by
  have e : (V m c main_v10 : S256x64.Idx → EReal) = truncf (F := Ideal) .bf16 (shapeCast S256x64 (m ((c.tc : Thread nD τ).loc main_arg3) : S16x16x64.Idx → EReal) shapeCasts_S16x16x64_S256x64) bitsLt_bf16_f32 := by
    dsimp only [Gen.V]; simp only [Gen.hostOps0, Gen.hostOps0_1, Gen.hostOps0_2, List.flatten_cons, List.flatten_nil, List.append_nil, List.cons_append, List.nil_append]; after_results
    rfl
  rw [e]
  show shapeCast S256x64 (m ((c.tc : Thread nD τ).loc main_arg3) : S16x16x64.Idx → EReal) shapeCasts_S16x16x64_S256x64 (ix2 (lrow cb k) o) = _
  refine shapeCast_apply _ _ (ix2 (lrow cb k) o) (ix3 cb k o) ?_
  rw [Shape.rowMajor_val_three, Shape.rowMajor_val_two]
  rfl

/-- The fifth window's array is the bias as one row. -/
theorem V_v11 (c : Dev nD) (o : Fin 64) :
    (V m c main_v11 : S1x64.Idx → EReal) (ix2 (0 : Fin 1) o) = (m ((c.tc : Thread nD τ).loc main_arg4) : S64.Idx → EReal) (ix1 o) := by
  have e : (V m c main_v11 : S1x64.Idx → EReal) = shapeCast S1x64 (m ((c.tc : Thread nD τ).loc main_arg4) : S64.Idx → EReal) shapeCasts_S64_S1x64 := by
    dsimp only [Gen.V]; simp only [Gen.hostOps0, Gen.hostOps0_1, Gen.hostOps0_2, List.flatten_cons, List.flatten_nil, List.append_nil, List.cons_append, List.nil_append]; after_results
    rfl
  rw [e]
  refine shapeCast_apply _ _ (ix2 (0 : Fin 1) o) (ix1 o) ?_
  rw [Shape.rowMajor_val_one, Shape.rowMajor_val_two]
  show o.val = 0 * 64 + o.val
  omega

/-- Every index of a one-image block is (0, o, i, j). -/
theorem exists_ix4_unit (y : S1x64x56x56.Idx) : ∃ (o : Fin 64) (i j : Fin 56), y = ix4 (0 : Fin 1) o i j :=
  ⟨y 1, y 2, y 3, funext fun a => by
    match a with
    | ⟨0, h⟩ => exact Fin.ext (Nat.lt_one_iff.mp (y ⟨0, h⟩).isLt)
    | ⟨1, _⟩ => rfl
    | ⟨2, _⟩ => rfl
    | ⟨3, _⟩ => rfl⟩

/-- One grid point's result block, element by element, is the specification's function at image `b`, when the five
    blocks the point reads are: image `b` of the padded input, the one-hot table of the split indices, the thresholds,
    the flattened lookup table and the bias row. The features a codebook reads come out of the padded input by the
    unfolding's layout; the sum against a one-hot row is the entry the index table names. -/
theorem point_eq (P0 : Vec Ideal S1x64x58x58 .f32) (P1 : Vec Ideal S4x16x36 .f32) (P2 : Vec Ideal S16x4x8 .f32) (P3 : Vec Ideal S256x64 .bf16) (P4 : Vec Ideal S1x64 .f32)
    (xp : S16x64x58x58.Idx → EReal) (idx : S16x4.Idx → BitVec 32) (sv : S16x4x8.Idx → EReal) (lut : S16x16x64.Idx → EReal) (bias : S64.Idx → EReal) (b : Fin 16)
    (h0 : ∀ (ch : Fin 64) (h w : Fin 58), P0 (ix4 (0 : Fin 1) ch h w) = xp (ix4 b ch h w))
    (h1 : ∀ (t : Fin 4) (c : Fin 16) (s : Fin 36), P1 (ix3 t c s) = (((IntOp.cmpi .eq (idx (ix2 c t)) (BitVec.ofNat 32 s.val)).toNat : ℝ) : EReal))
    (h2 : ∀ (c : Fin 16) (t : Fin 4) (e : Fin 8), P2 (ix3 c t e) = sv (ix3 c t e))
    (h3 : ∀ (c k : Fin 16) (o : Fin 64), P3 (ix2 (lrow c k) o) = lut (ix3 c k o))
    (h4 : ∀ o : Fin 64, P4 (ix2 (0 : Fin 1) o) = bias (ix1 o))
    (o : Fin 64) (i j : Fin 56) :
    k0_pay1 (F := Ideal) (k0_pay10 (F := Ideal) (k0_pay2 (F := Ideal) P0) (k0_pay3 (F := Ideal) P1) P2 (k0_pay7 (F := Ideal) (k0_pay2 (F := Ideal) P0) (k0_pay3 (F := Ideal) P1) P2 k0_pay4 (k0_pay5 (F := Ideal) P0 P1) k0_pay6) (k0_pay8 (F := Ideal) (k0_pay2 (F := Ideal) P0) (k0_pay3 (F := Ideal) P1)) (k0_pay9 (F := Ideal) (k0_pay2 (F := Ideal) P0) (k0_pay3 (F := Ideal) P1) P2 k0_pay4 (k0_pay5 (F := Ideal) P0 P1) k0_pay6) P3 P4) (ix4 (0 : Fin 1) o i j) = G xp idx sv lut bias b o i j := by
  have hv : (fun (c : Fin 16) (t : Fin 4) => ∑ s : Fin 36, k0_pay2 (F := Ideal) P0 (ix3 (pix i j) c s) * P1 (ix3 t c s))
      = fun c t => pick (fun s => xp (featIdx b i j c s)) (idx (ix2 c t)) := by
    funext c t
    rw [← sum_mul_onehot (by norm_num) (fun s => xp (featIdx b i j c s)) (idx (ix2 c t))]
    refine Finset.sum_congr rfl fun s _ => ?_
    rw [KernelLayout.pay2_apply, h1]
    exact congrArg (· * _) (h0 _ _ _)
  have hthr : (fun (c : Fin 16) (t : Fin 4) (e : Fin 8) => P2 (ix3 c t e)) = fun c t e => sv (ix3 c t e) := by
    funext c t e; exact h2 c t e
  have hlut : (fun (c k : Fin 16) => P3 (ix2 (lrow c k) o)) = fun c k => lut (ix3 c k o) := by
    funext c k; exact h3 c k o
  refine (KernelTree.kernel_pix P0 P1 P2 P3 P4 o i j).trans ?_
  unfold G
  rw [hv, hthr, hlut, h4]

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The image a grid point works on: the point's number. -/
abbrev imgOf (t : Fin cfg0.N) : Fin 16 := ⟨t.val, lt_of_lt_of_eq t.isLt N_0⟩

/-- The windows' block indices over the grid: the padded input and the result move one image per point, the four
    tables stay whole. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

/-- The first window's block at a point is that point's image of the padded input. -/
theorem iblk0_apply (c : Dev nD) (t : Fin cfg0.N) (ch : Fin 64) (h w : Fin 58) :
    (iblk m c 0 t : Vec Ideal S1x64x58x58 .f32) (ix4 (0 : Fin 1) ch h w) = xpad (m ((c.tc : Thread nD τ).loc main_arg0)) (ix4 (imgOf t) ch h w) := by
  obtain ⟨e0, e1, e2, e3, -⟩ := idx_facts t
  unfold iblk
  rw [View.read_apply]
  refine (congrFun (V_v0 m c) _).trans ?_
  refine congrArg _ (funext fun a => Fin.ext ?_)
  match a with
  | ⟨0, _⟩ => show win0_0.index t (0 : Fin 4) * 1 + 1 * 0 = t.val; omega
  | ⟨1, _⟩ => show win0_0.index t (1 : Fin 4) * 64 + 1 * ch.val = ch.val; omega
  | ⟨2, _⟩ => show win0_0.index t (2 : Fin 4) * 58 + 1 * h.val = h.val; omega
  | ⟨3, _⟩ => show win0_0.index t (3 : Fin 4) * 58 + 1 * w.val = w.val; omega

/-- The second window's block is the whole one-hot table. -/
theorem iblk1_apply (c : Dev nD) (t : Fin cfg0.N) (lv : Fin 4) (cb : Fin 16) (s : Fin 36) :
    (iblk m c 1 t : Vec Ideal S4x16x36 .f32) (ix3 lv cb s)
      = (((IntOp.cmpi .eq ((m ((c.tc : Thread nD τ).loc main_arg1) : S16x4.Idx → BitVec 32) (ix2 cb lv)) (BitVec.ofNat 32 s.val)).toNat : ℝ) : EReal) := by
  obtain ⟨-, -, -, -, e0, e1, e2, -⟩ := idx_facts t
  unfold iblk
  rw [View.read_apply]
  refine Eq.trans ?_ (V_v8 m c lv cb s)
  refine congrArg (V m c main_v8 : S4x16x36.Idx → EReal) (funext fun a => Fin.ext ?_)
  match a with
  | ⟨0, _⟩ => show win0_1.index t (0 : Fin 3) * 4 + 1 * lv.val = lv.val; omega
  | ⟨1, _⟩ => show win0_1.index t (1 : Fin 3) * 16 + 1 * cb.val = cb.val; omega
  | ⟨2, _⟩ => show win0_1.index t (2 : Fin 3) * 36 + 1 * s.val = s.val; omega

/-- The third window's block is the whole threshold table. -/
theorem iblk2_apply (c : Dev nD) (t : Fin cfg0.N) (cb : Fin 16) (lv : Fin 4) (e : Fin 8) :
    (iblk m c 2 t : Vec Ideal S16x4x8 .f32) (ix3 cb lv e) = (m ((c.tc : Thread nD τ).loc main_arg2) : S16x4x8.Idx → EReal) (ix3 cb lv e) := by
  obtain ⟨-, -, -, -, -, -, -, e0, e1, e2, -⟩ := idx_facts t
  unfold iblk
  rw [View.read_apply]
  refine Eq.trans ?_ (congrFun (V_main_arg2 m c) (ix3 cb lv e))
  refine congrArg (V m c main_arg2 : S16x4x8.Idx → EReal) (funext fun a => Fin.ext ?_)
  match a with
  | ⟨0, _⟩ => show win0_2.index t (0 : Fin 3) * 16 + 1 * cb.val = cb.val; omega
  | ⟨1, _⟩ => show win0_2.index t (1 : Fin 3) * 4 + 1 * lv.val = lv.val; omega
  | ⟨2, _⟩ => show win0_2.index t (2 : Fin 3) * 8 + 1 * e.val = e.val; omega

/-- The fourth window's block is the whole flattened lookup table. -/
theorem iblk3_apply (c : Dev nD) (t : Fin cfg0.N) (cb k : Fin 16) (o : Fin 64) :
    (iblk m c 3 t : Vec Ideal S256x64 .bf16) (ix2 (lrow cb k) o) = (m ((c.tc : Thread nD τ).loc main_arg3) : S16x16x64.Idx → EReal) (ix3 cb k o) := by
  obtain ⟨-, -, -, -, -, -, -, -, -, -, e0, e1, -⟩ := idx_facts t
  unfold iblk
  rw [View.read_apply]
  refine Eq.trans ?_ (V_v10 m c cb k o)
  refine congrArg (V m c main_v10 : S256x64.Idx → EReal) (funext fun a => Fin.ext ?_)
  match a with
  | ⟨0, _⟩ => show win0_3.index t (0 : Fin 2) * 256 + 1 * (lrow cb k).val = (lrow cb k).val; omega
  | ⟨1, _⟩ => show win0_3.index t (1 : Fin 2) * 64 + 1 * o.val = o.val; omega

/-- The fifth window's block is the bias row. -/
theorem iblk4_apply (c : Dev nD) (t : Fin cfg0.N) (o : Fin 64) :
    (iblk m c 4 t : Vec Ideal S1x64 .f32) (ix2 (0 : Fin 1) o) = (m ((c.tc : Thread nD τ).loc main_arg4) : S64.Idx → EReal) (ix1 o) := by
  obtain ⟨-, -, -, -, -, -, -, -, -, -, -, -, e0, e1, -⟩ := idx_facts t
  unfold iblk
  rw [View.read_apply]
  refine Eq.trans ?_ (V_v11 m c o)
  refine congrArg (V m c main_v11 : S1x64.Idx → EReal) (funext fun a => Fin.ext ?_)
  match a with
  | ⟨0, _⟩ => show win0_4.index t (0 : Fin 2) * 1 + 1 * 0 = 0; omega
  | ⟨1, _⟩ => show win0_4.index t (1 : Fin 2) * 64 + 1 * o.val = o.val; omega

/-- What a grid point writes back is its image's block of the specification's array. -/
theorem flushed_eq (c : Dev nD) (t : Fin cfg0.N) :
    (dats m 0 c).flushed 5 t = ((cfg0.win 5).blk t).view.read (Elt Ideal) (Garr (xpad (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4))) := by
  rw [Value.flushed5]
  unfold Gen.out0_5
  rw [View.canon_unit_zero hz4]
  simp only [View.ld_unit_zero (S := S1x64x58x58) hz4, View.ld_unit_zero (S := S4x16x36) hz3, View.ld_unit_zero (S := S16x4x8) hz3, View.ld_unit_zero (S := S256x64) hz2, View.ld_unit_zero (S := S1x64) hz2]
  funext y
  obtain ⟨o, i, j, rfl⟩ := exists_ix4_unit y
  obtain ⟨-, -, -, -, -, -, -, -, -, -, -, -, -, -, e0, e1, e2, e3⟩ := idx_facts t
  have he : ((cfg0.win 5).blk t).view.emb (ix4 (0 : Fin 1) o i j) = ix4 (imgOf t) o i j := by
    funext a; apply Fin.ext
    match a with
    | ⟨0, _⟩ => show win0_5.index t (0 : Fin 4) * 1 + 1 * 0 = t.val; omega
    | ⟨1, _⟩ => show win0_5.index t (1 : Fin 4) * 64 + 1 * o.val = o.val; omega
    | ⟨2, _⟩ => show win0_5.index t (2 : Fin 4) * 56 + 1 * i.val = i.val; omega
    | ⟨3, _⟩ => show win0_5.index t (3 : Fin 4) * 56 + 1 * j.val = j.val; omega
  show k0_pay1 (F := Ideal) (k0_pay10 (F := Ideal) (k0_pay2 (F := Ideal) (iblk m c 0 t)) (k0_pay3 (F := Ideal) (iblk m c 1 t)) (iblk m c 2 t) (k0_pay7 (F := Ideal) (k0_pay2 (F := Ideal) (iblk m c 0 t)) (k0_pay3 (F := Ideal) (iblk m c 1 t)) (iblk m c 2 t) k0_pay4 (k0_pay5 (F := Ideal) (iblk m c 0 t) (iblk m c 1 t)) k0_pay6) (k0_pay8 (F := Ideal) (k0_pay2 (F := Ideal) (iblk m c 0 t)) (k0_pay3 (F := Ideal) (iblk m c 1 t))) (k0_pay9 (F := Ideal) (k0_pay2 (F := Ideal) (iblk m c 0 t)) (k0_pay3 (F := Ideal) (iblk m c 1 t)) (iblk m c 2 t) k0_pay4 (k0_pay5 (F := Ideal) (iblk m c 0 t) (iblk m c 1 t)) k0_pay6) (iblk m c 3 t) (iblk m c 4 t)) (ix4 (0 : Fin 1) o i j)
    = Garr (xpad (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (((cfg0.win 5).blk t).view.emb (ix4 (0 : Fin 1) o i j))
  rw [he]
  exact point_eq (iblk m c 0 t) (iblk m c 1 t) (iblk m c 2 t) (iblk m c 3 t) (iblk m c 4 t) (xpad (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (imgOf t)
    (iblk0_apply m c t) (iblk1_apply m c t) (iblk2_apply m c t) (iblk3_apply m c t) (iblk4_apply m c t) o i j

/-- An index of the result array is in a point's block iff each coordinate is in the block's range on its axis. -/
theorem mem_blk (t : Fin cfg0.N) (x : S16x64x56x56.Idx) :
    x ∈ ((cfg0.win 5).blk t).view.set ↔ ∀ a : Fin 4, win0_5.index t a * S1x64x56x56.size a ≤ (x a).val ∧ (x a).val < win0_5.index t a * S1x64x56x56.size a + S1x64x56x56.size a := by
  show x ∈ ((View.whole main_v12).slice (win0_5.rect t)).set ↔ _
  rw [View.set_slice_whole, Rect.mem_set_unit]
  exact Iff.rfl

/-- Every index of the result array is in the block of the point that is its image's number. -/
theorem cover (x : S16x64x56x56.Idx) : ∃ t : Fin cfg0.N, (cfg0.win 5).flush t = true ∧ x ∈ ((cfg0.win 5).blk t).view.set := by
  have h0 : (x 0).val < 16 := (x 0).isLt
  have h1 : (x 1).val < 64 := (x 1).isLt
  have h2 : (x 2).val < 56 := (x 2).isLt
  have h3 : (x 3).val < 56 := (x 3).isLt
  let t : Fin cfg0.N := ⟨(x 0).val, lt_of_lt_of_eq h0 N_0.symm⟩
  obtain ⟨-, -, -, -, -, -, -, -, -, -, -, -, -, -, e0, e1, e2, e3⟩ := idx_facts t
  have ht : (t : Fin cfg0.N).val = (x 0).val := rfl
  refine ⟨t, flush0_5 t, ?_⟩
  rw [mem_blk]
  intro a
  match a with
  | ⟨0, _⟩ => show win0_5.index t (0 : Fin 4) * 1 ≤ (x 0).val ∧ (x 0).val < win0_5.index t (0 : Fin 4) * 1 + 1; omega
  | ⟨1, _⟩ => show win0_5.index t (1 : Fin 4) * 64 ≤ (x 1).val ∧ (x 1).val < win0_5.index t (1 : Fin 4) * 64 + 64; omega
  | ⟨2, _⟩ => show win0_5.index t (2 : Fin 4) * 56 ≤ (x 2).val ∧ (x 2).val < win0_5.index t (2 : Fin 4) * 56 + 56; omega
  | ⟨3, _⟩ => show win0_5.index t (3 : Fin 4) * 56 ≤ (x 3).val ∧ (x 3).val < win0_5.index t (3 : Fin 4) * 56 + 56; omega

/-- So the result array ends holding the specification's array. -/
theorem final (c : Dev nD) : (dats m 0 c).arrAt 5 cfg0.N = Garr (xpad (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) :=
  (dats m 0 c).arrAt_eq_of_cover 5 (Garr (xpad (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4))) (fun t _ => flushed_eq m c t) cover

/-- The run: the result array ends at the specification's array of the arguments, the arguments unchanged. -/
theorem run : θ_run defs (onTc (τ := τ) (main (F := Ideal))) ⟨m, fun _ => 0, ρ⟩ fun r => ∀ c : Dev nD,
      r.2.mem ((c.tc : Thread nD τ).loc main_v12) = Garr (xpad (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun _ h c => ⟨(h c).1.trans (final m c), (h c).2⟩) (Value.run_blocks m ρ)

end Cert.Madd.KernelArr

end
-- ==== Proof.lean ====
/-
  Both programs compute, at every output element, the same tree walk over the same features (Proof/Spec.lean's `Garr` of the
  zero-padded input and the four tables), and the claims are assembled here.

  The kernel's result array is `Garr` for any inputs: its one-hot rows select a feature, a threshold or a lookup row by a sum of
  products with 0 and 1, and a one-hot row of an index outside the table selects nothing (Proof/KernelArr.lean).  The reference
  gathers the same entries, and a gather clamps an index outside the table: the two agree once every entry of the index table
  is a position of its 36-long feature row, which the precondition states (Proof/Pre.lean reads it off), and the buckets stay
  below 2, 4, 8 and 16 by themselves (Proof/RefTree.lean, Proof/RefLayout.lean).  The reference's run is read back one stage at a
  time (Proof/RefRun.lean).
-/
import proofs.«431186_j62904091018010_1_alg».proof.Defs
import proofs.«431186_j62904091018010_1_alg».proof.Proof.Gen.Kernel
import proofs.«431186_j62904091018010_1_alg».proof.Proof.Gen.Kernel.Skeleton
import proofs.«431186_j62904091018010_1_alg».proof.Proof.Gen.Kernel.Launch
import proofs.«431186_j62904091018010_1_alg».proof.Proof.Gen.Kernel.Points
import proofs.«431186_j62904091018010_1_alg».proof.Proof.Gen.Kernel.Frame
import proofs.«431186_j62904091018010_1_alg».proof.Proof.Gen.KernelIdeal
import proofs.«431186_j62904091018010_1_alg».proof.Proof.Gen.KernelIdeal.Skeleton
import proofs.«431186_j62904091018010_1_alg».proof.Proof.Gen.KernelIdeal.Launch
import proofs.«431186_j62904091018010_1_alg».proof.Proof.Gen.KernelIdeal.Points
import proofs.«431186_j62904091018010_1_alg».proof.Proof.Gen.KernelIdeal.Frame
import proofs.«431186_j62904091018010_1_alg».proof.Proof.Gen.ReferenceIdeal
import proofs.«431186_j62904091018010_1_alg».proof.Proof.Gen.Pre_finite_inputs
import proofs.«431186_j62904091018010_1_alg».proof.Proof.Gen.KernelIdeal.Value
import proofs.«431186_j62904091018010_1_alg».proof.Proof.Spec
import proofs.«431186_j62904091018010_1_alg».proof.Proof.Pre
import proofs.«431186_j62904091018010_1_alg».proof.Proof.RefRun
import proofs.«431186_j62904091018010_1_alg».proof.Proof.RefLayout
import proofs.«431186_j62904091018010_1_alg».proof.Proof.RefTree
import proofs.«431186_j62904091018010_1_alg».proof.Proof.KernelArr
import Idealize.ShloMosaic.Adequacy
import Idealize.ShloMosaic.Init

noncomputable section

namespace Cert.Proof

open Idealize.ShloMosaic Idealize.SL.Sem Idealize.ShloMosaic.ValueIdx Cert.Madd

/-- The reference's result array is `Garr` of the padded input and the tables, when every entry of the index table is a
    position of its feature row. -/
theorem ref_eq (x0 : FVec Ideal Cert.ReferenceIdeal.S16x64x56x56 .f32) (x1 : IVec Cert.ReferenceIdeal.S16x4 32)
    (x2 : FVec Ideal Cert.ReferenceIdeal.S16x4x8 .f32) (x3 : FVec Ideal Cert.ReferenceIdeal.S16x16x64 .f32) (x4 : FVec Ideal Cert.ReferenceIdeal.S64 .f32)
    (hidx : ∀ (c : Fin 16) (t : Fin 4), (x1 (ix2 c t)).toNat < 36) :
    Cert.ReferenceIdeal.Read.val_main_v208 (F := Ideal) x0 x1 x2 x3 x4 = Garr (xpad x0) x1 x2 x3 x4 := by
  funext y
  obtain ⟨b, o, i, j, rfl⟩ : ∃ (b : Fin 16) (o : Fin 64) (i j : Fin 56), y = ix4 b o i j := ⟨y 0, y 1, y 2, y 3, eq_ix4 y⟩
  rw [Cert.Madd.RefTree.ref_pix x0 x1 x2 x3 x4 hidx b o i j]
  simp only [Cert.Madd.RefLayout.val_v24_apply]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Madd.RefRun.run (F := Ideal) m ρ)

/-- Both runs end at `Garr` of the padded input and the tables, on memories that agree on the arguments. -/
theorem algebraic : Cert.algebraic_KernelIdeal_ReferenceIdeal := by
  intro m ρ m' ρ' hpre hagree
  refine ⟨_, Cert.Madd.KernelArr.run m ρ, ?_⟩
  refine (θ_run Cert.ReferenceIdeal.defs _ _).mono (fun _ h c => ⟨(h c).1.trans ?_, (h c).2⟩)
    (Cert.Madd.RefRun.run (F := Ideal) m' ρ')
  rw [(hagree c).1, (hagree c).2.1, (hagree c).2.2.1, (hagree c).2.2.2.1, (hagree c).2.2.2.2]
  exact ref_eq _ _ _ _ _ (fun a t => Cert.Madd.Pre.idx_lt m hpre c a t)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
